-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S64x4096x64 : Shape := ⟨3, ![64, 4096, 64]⟩
abbrev S64x64x64 : Shape := ⟨3, ![64, 64, 64]⟩
abbrev S1x4096x64 : Shape := ⟨3, ![1, 4096, 64]⟩
abbrev S1x64x64 : Shape := ⟨3, ![1, 64, 64]⟩
abbrev S4096x64 : Shape := ⟨2, ![4096, 64]⟩
abbrev S64x64 : Shape := ⟨2, ![64, 64]⟩
abbrev S64 : Shape := ⟨1, ![64]⟩
abbrev S64x1 : Shape := ⟨2, ![64, 1]⟩
abbrev S64x4096 : Shape := ⟨2, ![64, 4096]⟩
abbrev S_ : Shape := ⟨0, ![]⟩
abbrev S4096 : Shape := ⟨1, ![4096]⟩
abbrev S4096x1 : Shape := ⟨2, ![4096, 1]⟩

abbrev nBuf : Space → Nat
  | .hbm => 168
  | .vmem => 20
  | .smem => 0
  | _ => 0

abbrev hbmTy0_0 (i : Nat) : BufTy := match i % 128 with
  | 0 => ⟨S4x16x4096x64, .f32⟩
  | 1 => ⟨S4x16x4096x64, .f32⟩
  | 2 => ⟨S4x16x4096x64, .f32⟩
  | 3 => ⟨S64x4096x64, .f32⟩
  | 4 => ⟨S64x4096x64, .f32⟩
  | 5 => ⟨S64x4096x64, .f32⟩
  | 6 => ⟨S64x64x64, .f32⟩
  | 7 => ⟨S64x64x64, .f32⟩
  | 8 => ⟨S64x64x64, .f32⟩
  | 9 => ⟨S64x64, .i32⟩
  | 10 => ⟨S64x64, .i32⟩
  | 11 => ⟨S_, .i32⟩
  | 12 => ⟨S64x64, .i32⟩
  | 13 => ⟨S64x64, .i32⟩
  | 14 => ⟨S64x64, .i1⟩
  | 15 => ⟨S64x64, .f32⟩
  | 16 => ⟨S1x64x64, .f32⟩
  | 17 => ⟨S64x64x64, .f32⟩
  | 18 => ⟨S_, .f32⟩
  | 19 => ⟨S64x64, .f32⟩
  | 20 => ⟨S_, .f32⟩
  | 21 => ⟨S_, .f32⟩
  | 22 => ⟨S64x64x64, .f32⟩
  | 23 => ⟨S_, .f32⟩
  | 24 => ⟨S64x64, .f32⟩
  | 25 => ⟨S_, .f32⟩
  | 26 => ⟨S_, .f32⟩
  | 27 => ⟨S_, .f32⟩
  | 28 => ⟨S_, .f32⟩
  | 29 => ⟨S_, .f32⟩
  | 30 => ⟨S64x64x64, .f32⟩
  | 31 => ⟨S64x64x64, .f32⟩
  | 32 => ⟨S64x64x64, .f32⟩
  | 33 => ⟨S64x64x64, .f32⟩
  | 34 => ⟨S_, .f32⟩
  | 35 => ⟨S1x64x64, .f32⟩
  | 36 => ⟨S1x64x64, .f32⟩
  | 37 => ⟨S64x64x64, .f32⟩
  | 38 => ⟨S64x64x64, .f32⟩
  | 39 => ⟨S64x64x64, .f32⟩
  | 40 => ⟨S_, .f32⟩
  | 41 => ⟨S1x64x64, .f32⟩
  | 42 => ⟨S1x64x64, .f32⟩
  | 43 => ⟨S64x64x64, .f32⟩
  | 44 => ⟨S64x64x64, .f32⟩
  | 45 => ⟨S64x64x64, .f32⟩
  | 46 => ⟨S_, .f32⟩
  | 47 => ⟨S1x64x64, .f32⟩
  | 48 => ⟨S1x64x64, .f32⟩
  | 49 => ⟨S64x64x64, .f32⟩
  | 50 => ⟨S64x64x64, .f32⟩
  | 51 => ⟨S_, .f32⟩
  | 52 => ⟨S64x64x64, .f32⟩
  | 53 => ⟨S64x64x64, .f32⟩
  | 54 => ⟨S64x64x64, .f32⟩
  | 55 => ⟨S64x64x64, .f32⟩
  | 56 => ⟨S_, .f32⟩
  | 57 => ⟨S1x64x64, .f32⟩
  | 58 => ⟨S1x64x64, .f32⟩
  | 59 => ⟨S64x64x64, .f32⟩
  | 60 => ⟨S64x64x64, .f32⟩
  | 61 => ⟨S64x64x64, .f32⟩
  | 62 => ⟨S_, .f32⟩
  | 63 => ⟨S1x64x64, .f32⟩
  | 64 => ⟨S1x64x64, .f32⟩
  | 65 => ⟨S64x64x64, .f32⟩
  | 66 => ⟨S64x64x64, .f32⟩
  | 67 => ⟨S64x64x64, .f32⟩
  | 68 => ⟨S_, .f32⟩
  | 69 => ⟨S1x64x64, .f32⟩
  | 70 => ⟨S1x64x64, .f32⟩
  | 71 => ⟨S64x64x64, .f32⟩
  | 72 => ⟨S64x64x64, .f32⟩
  | 73 => ⟨S_, .f32⟩
  | 74 => ⟨S64x64x64, .f32⟩
  | 75 => ⟨S64x64x64, .f32⟩
  | 76 => ⟨S64x64x64, .f32⟩
  | 77 => ⟨S64x64x64, .f32⟩
  | 78 => ⟨S_, .f32⟩
  | 79 => ⟨S1x64x64, .f32⟩
  | 80 => ⟨S1x64x64, .f32⟩
  | 81 => ⟨S64x64x64, .f32⟩
  | 82 => ⟨S64x64x64, .f32⟩
  | 83 => ⟨S64x64x64, .f32⟩
  | 84 => ⟨S_, .f32⟩
  | 85 => ⟨S1x64x64, .f32⟩
  | 86 => ⟨S1x64x64, .f32⟩
  | 87 => ⟨S64x64x64, .f32⟩
  | 88 => ⟨S64x64x64, .f32⟩
  | 89 => ⟨S64x64x64, .f32⟩
  | 90 => ⟨S_, .f32⟩
  | 91 => ⟨S1x64x64, .f32⟩
  | 92 => ⟨S1x64x64, .f32⟩
  | 93 => ⟨S64x64x64, .f32⟩
  | 94 => ⟨S64x64x64, .f32⟩
  | 95 => ⟨S_, .f32⟩
  | 96 => ⟨S64x64x64, .f32⟩
  | 97 => ⟨S64x64x64, .f32⟩
  | 98 => ⟨S64x64x64, .f32⟩
  | 99 => ⟨S64x64x64, .f32⟩
  | 100 => ⟨S_, .f32⟩
  | 101 => ⟨S1x64x64, .f32⟩
  | 102 => ⟨S1x64x64, .f32⟩
  | 103 => ⟨S64x64x64, .f32⟩
  | 104 => ⟨S64x64x64, .f32⟩
  | 105 => ⟨S64x64x64, .f32⟩
  | 106 => ⟨S_, .f32⟩
  | 107 => ⟨S1x64x64, .f32⟩
  | 108 => ⟨S1x64x64, .f32⟩
  | 109 => ⟨S64x64x64, .f32⟩
  | 110 => ⟨S64x64x64, .f32⟩
  | 111 => ⟨S64x64x64, .f32⟩
  | 112 => ⟨S_, .f32⟩
  | 113 => ⟨S1x64x64, .f32⟩
  | 114 => ⟨S1x64x64, .f32⟩
  | 115 => ⟨S64x64x64, .f32⟩
  | 116 => ⟨S64x64x64, .f32⟩
  | 117 => ⟨S_, .f32⟩
  | 118 => ⟨S64x64x64, .f32⟩
  | 119 => ⟨S64x64x64, .f32⟩
  | 120 => ⟨S64x64x64, .f32⟩
  | 121 => ⟨S64x64x64, .f32⟩
  | 122 => ⟨S_, .f32⟩
  | 123 => ⟨S1x64x64, .f32⟩
  | 124 => ⟨S1x64x64, .f32⟩
  | 125 => ⟨S64x64x64, .f32⟩
  | 126 => ⟨S64x64x64, .f32⟩
  | 127 => ⟨S64x64x64, .f32⟩
  | _ => ⟨S4x16x4096x64, .f32⟩

abbrev hbmTy0_1 (i : Nat) : BufTy := match i % 128 with
  | 0 => ⟨S_, .f32⟩
  | 1 => ⟨S1x64x64, .f32⟩
  | 2 => ⟨S1x64x64, .f32⟩
  | 3 => ⟨S64x64x64, .f32⟩
  | 4 => ⟨S64x64x64, .f32⟩
  | 5 => ⟨S64x64x64, .f32⟩
  | 6 => ⟨S_, .f32⟩
  | 7 => ⟨S1x64x64, .f32⟩
  | 8 => ⟨S1x64x64, .f32⟩
  | 9 => ⟨S64x64x64, .f32⟩
  | 10 => ⟨S64x64x64, .f32⟩
  | 11 => ⟨S_, .f32⟩
  | 12 => ⟨S64x64x64, .f32⟩
  | 13 => ⟨S64x64x64, .f32⟩
  | 14 => ⟨S64x64x64, .f32⟩
  | 15 => ⟨S64x64x64, .f32⟩
  | 16 => ⟨S_, .f32⟩
  | 17 => ⟨S1x64x64, .f32⟩
  | 18 => ⟨S1x64x64, .f32⟩
  | 19 => ⟨S64x64x64, .f32⟩
  | 20 => ⟨S64x64x64, .f32⟩
  | 21 => ⟨S64x64x64, .f32⟩
  | 22 => ⟨S_, .f32⟩
  | 23 => ⟨S1x64x64, .f32⟩
  | 24 => ⟨S1x64x64, .f32⟩
  | 25 => ⟨S64x64x64, .f32⟩
  | 26 => ⟨S64x64x64, .f32⟩
  | 27 => ⟨S64x64x64, .f32⟩
  | 28 => ⟨S_, .f32⟩
  | 29 => ⟨S1x64x64, .f32⟩
  | 30 => ⟨S1x64x64, .f32⟩
  | 31 => ⟨S64x64x64, .f32⟩
  | 32 => ⟨S64x64x64, .f32⟩
  | 33 => ⟨S_, .f32⟩
  | 34 => ⟨S64x64x64, .f32⟩
  | 35 => ⟨S64x64x64, .f32⟩
  | 36 => ⟨S64x64x64, .f32⟩
  | 37 => ⟨S64x64x64, .f32⟩
  | 38 => ⟨S64x4096x64, .f32⟩
  | 39 => ⟨S4x16x4096x64, .f32⟩
  | _ => ⟨S4x16x4096x64, .f32⟩

abbrev hbmTy (i : Nat) : BufTy := match i / 128 with
  | 0 => hbmTy0_0 i
  | 1 => hbmTy0_1 i
  | _ => ⟨S4x16x4096x64, .f32⟩

abbrev bufTy : (tb : Table) → Fin (tcTables nBuf tb) → BufTy
  | .hbm, ⟨i, _⟩ => hbmTy i
  | .local _ .vmem, ⟨0, _⟩ => ⟨S1x4096x64, .f32⟩
  | .local _ .vmem, ⟨1, _⟩ => ⟨S1x4096x64, .f32⟩
  | .local _ .vmem, ⟨2, _⟩ => ⟨S1x4096x64, .f32⟩
  | .local _ .vmem, ⟨3, _⟩ => ⟨S1x4096x64, .f32⟩
  | .local _ .vmem, ⟨4, _⟩ => ⟨S1x4096x64, .f32⟩
  | .local _ .vmem, ⟨5, _⟩ => ⟨S1x4096x64, .f32⟩
  | .local _ .vmem, ⟨6, _⟩ => ⟨S1x64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x64x64, .f32⟩
  | .local _ .vmem, ⟨12, _⟩ => ⟨S1x4096x64, .f32⟩
  | .local _ .vmem, ⟨13, _⟩ => ⟨S1x4096x64, .f32⟩
  | .local _ .vmem, ⟨14, _⟩ => ⟨S1x64x64, .f32⟩
  | .local _ .vmem, ⟨15, _⟩ => ⟨S1x64x64, .f32⟩
  | .local _ .vmem, ⟨16, _⟩ => ⟨S1x64x64, .f32⟩
  | .local _ .vmem, ⟨17, _⟩ => ⟨S1x64x64, .f32⟩
  | .local _ .vmem, ⟨18, _⟩ => ⟨S1x4096x64, .f32⟩
  | .local _ .vmem, ⟨19, _⟩ => ⟨S1x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_19 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_20 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_21 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_22 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_23 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_cst_24 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_25 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_26 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_27 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4x16x4096x64_S64x4096x64 : S4x16x4096x64.ShapeCasts S64x4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S64x64x64 : S4096x64.ShapeCasts S64x64x64
  reduces_S64x64x64_S64x64 : S64x64x64.Reduces [1] S64x64
  bitsLt_bf16_f32 : FTy.bits .bf16 < FTy.bits .f32
  transposes_S64x64_p1_0_S64x64 : S64x64.Transposes [1, 0] S64x64
  reduces_S64x64_S64 : S64x64.Reduces [1] S64
  shapeCasts_S64_S64x1 : S64.ShapeCasts S64x1
  broadcasts_S64x1_S64x64 : S64x1.Broadcasts S64x64
  transposes_S4096x64_p1_0_S64x4096 : S4096x64.Transposes [1, 0] S64x4096
  reduces_S64x4096_S64 : S64x4096.Reduces [1] S64
  broadcasts_S64x1_S64x4096 : S64x1.Broadcasts S64x4096
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S64x64_S1x64x64 : S64x64.ShapeCasts S1x64x64
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  reducesTo_S64x64x64_S64x64_d1 : S64x64x64.ReducesTo [1] S64x64
  h_S_ : 0 < S_.numel
  reducesTo_S64x64_S_d0_1 : S64x64.ReducesTo [0, 1] S_
  reducesTo_S64x64x64_S64x64_d2 : S64x64x64.ReducesTo [2] S64x64
  transposes_S64x64x64_S64x64x64_0_2_1 : S64x64x64.Transposes [0, 2, 1] S64x64x64
  bcast_S_S64x64x64 : S_.BroadcastsInDim S64x64x64 (![] : Fin 0 → Fin S64x64x64.rank)
  bcast_S_S1x64x64 : S_.BroadcastsInDim S1x64x64 (![] : Fin 0 → Fin S1x64x64.rank)
  bcast_S1x64x64_S64x64x64_0_1_2 : S1x64x64.BroadcastsInDim S64x64x64 (![0, 1, 2] : Fin 3 → Fin S64x64x64.rank)
  reduces_S4096x64_S4096 : S4096x64.Reduces [1] S4096
  shapeCasts_S4096_S4096x1 : S4096.ShapeCasts S4096x1
  broadcasts_S4096x1_S4096x64 : S4096x1.Broadcasts S4096x64
  shapeCasts_S4096x64_S1x4096x64 : S4096x64.ShapeCasts S1x4096x64
  shapeCasts_S64x4096x64_S4x16x4096x64 : S64x4096x64.ShapeCasts S4x16x4096x64
  dot_S64x64_S64x64_S64x64_1_0_0_1_n_n_wf : DotDims.WF S64x64 S64x64 S64x64 [1] [0] [0] [1] [] []
  dot_S64x64_S64x4096_S64x4096_1_0_0_1_n_n_wf : DotDims.WF S64x64 S64x4096 S64x4096 [1] [0] [0] [1] [] []
  dot_S64x4096_S4096x64_S64x64_1_0_0_1_n_n_wf : DotDims.WF S64x4096 S4096x64 S64x64 [1] [0] [0] [1] [] []
  dot_S64x64x64_S64x64x64_S64x64x64_2_1_1_2_0_0_wf : DotDims.WF S64x64x64 S64x64x64 S64x64x64 [2] [1] [1] [2] [0] [0]
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x64.size a ≤ S64x4096x64.size a
  hwx0_0 : ∀ i : grid0.Coords, EltTy.bits .f32 = 32 ∨ (Rect.block (s := S64x4096x64) S1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x64.size a ≤ S64x4096x64.size a
  hwx0_1 : ∀ i : grid0.Coords, EltTy.bits .f32 = 32 ∨ (Rect.block (s := S64x4096x64) S1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x64.size a ≤ S64x4096x64.size a
  hwx0_2 : ∀ i : grid0.Coords, EltTy.bits .f32 = 32 ∨ (Rect.block (s := S64x4096x64) S1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64.size a ≤ S64x64x64.size a
  hwx0_3 : ∀ i : grid0.Coords, EltTy.bits .f32 = 32 ∨ (Rect.block (s := S64x64x64) S1x64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x64.size a ≤ S64x64x64.size a
  hwx0_4 : ∀ i : grid0.Coords, EltTy.bits .f32 = 32 ∨ (Rect.block (s := S64x64x64) S1x64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x64.size a ≤ S64x64x64.size a
  hwx0_5 : ∀ i : grid0.Coords, EltTy.bits .f32 = 32 ∨ (Rect.block (s := S64x64x64) S1x64x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096x64.size a ≤ S64x4096x64.size a
  hwx1_0 : ∀ i : grid1.Coords, EltTy.bits .f32 = 32 ∨ (Rect.block (s := S64x4096x64) S1x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x64.size a ≤ S64x64x64.size a
  hwx1_1 : ∀ i : grid1.Coords, EltTy.bits .f32 = 32 ∨ (Rect.block (s := S64x64x64) S1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x64.size a ≤ S64x64x64.size a
  hwx1_2 : ∀ i : grid1.Coords, EltTy.bits .f32 = 32 ∨ (Rect.block (s := S64x64x64) S1x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x4096x64.size a ≤ S64x4096x64.size a
  hwx1_3 : ∀ i : grid1.Coords, EltTy.bits .f32 = 32 ∨ (Rect.block (s := S64x4096x64) S1x4096x64.size (cc1_transform_3 i) (hinb1_3 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v0) S1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x64x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x64x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_2) S1x64x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v0) S1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v130) S1x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v131) S1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x16x4096x64 : Shape := ⟨4, ![4, 16, 4096, 64]⟩
abbrev S_ : Shape := ⟨0, ![]⟩
abbrev S4x16x64x64x64 : Shape := ⟨5, ![4, 16, 64, 64, 64]⟩
abbrev S4x16x64x64 : Shape := ⟨4, ![4, 16, 64, 64]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x64x1 : Shape := ⟨4, ![4, 16, 64, 1]⟩
abbrev S4x16x64x4096 : Shape := ⟨4, ![4, 16, 64, 4096]⟩
abbrev S64x64 : Shape := ⟨2, ![64, 64]⟩
abbrev S1x1x64x64 : Shape := ⟨4, ![1, 1, 64, 64]⟩

abbrev nBuf : Space → Nat
  | .hbm => 242
  | .vmem => 0
  | .smem => 0
  | _ => 0

abbrev hbmTy0_0 (i : Nat) : BufTy := match i % 128 with
  | 0 => ⟨S4x16x4096x64, .f32⟩
  | 1 => ⟨S4x16x4096x64, .f32⟩
  | 2 => ⟨S4x16x4096x64, .f32⟩
  | 3 => ⟨S_, .f32⟩
  | 4 => ⟨S4x16x4096x64, .f32⟩
  | 5 => ⟨S4x16x4096x64, .f32⟩
  | 6 => ⟨S_, .f32⟩
  | 7 => ⟨S4x16x4096x64, .f32⟩
  | 8 => ⟨S4x16x4096x64, .f32⟩
  | 9 => ⟨S4x16x64x64x64, .f32⟩
  | 10 => ⟨S_, .f32⟩
  | 11 => ⟨S4x16x64x64, .f32⟩
  | 12 => ⟨S_, .f32⟩
  | 13 => ⟨S4x16x64x64, .f32⟩
  | 14 => ⟨S4x16x64x64, .f32⟩
  | 15 => ⟨S4x16x64x64x64, .f32⟩
  | 16 => ⟨S_, .f32⟩
  | 17 => ⟨S4x16x64x64, .f32⟩
  | 18 => ⟨S_, .f32⟩
  | 19 => ⟨S4x16x64x64, .f32⟩
  | 20 => ⟨S4x16x64x64, .f32⟩
  | 21 => ⟨S4x16x4096x64, .f32⟩
  | 22 => ⟨S_, .f32⟩
  | 23 => ⟨S4x16x4096, .f32⟩
  | 24 => ⟨S_, .f32⟩
  | 25 => ⟨S4x16x4096, .f32⟩
  | 26 => ⟨S4x16x4096, .f32⟩
  | 27 => ⟨S4x16x4096x1, .f32⟩
  | 28 => ⟨S4x16x4096x64, .f32⟩
  | 29 => ⟨S4x16x4096x64, .f32⟩
  | 30 => ⟨S4x16x4096x64, .f32⟩
  | 31 => ⟨S_, .f32⟩
  | 32 => ⟨S4x16x4096, .f32⟩
  | 33 => ⟨S4x16x4096x1, .f32⟩
  | 34 => ⟨S4x16x4096x64, .f32⟩
  | 35 => ⟨S4x16x4096x64, .f32⟩
  | 36 => ⟨S4x16x64x64, .f32⟩
  | 37 => ⟨S_, .f32⟩
  | 38 => ⟨S4x16x64, .f32⟩
  | 39 => ⟨S_, .f32⟩
  | 40 => ⟨S4x16x64, .f32⟩
  | 41 => ⟨S4x16x64, .f32⟩
  | 42 => ⟨S4x16x64x1, .f32⟩
  | 43 => ⟨S4x16x64x64, .f32⟩
  | 44 => ⟨S4x16x64x64, .f32⟩
  | 45 => ⟨S4x16x64x64, .f32⟩
  | 46 => ⟨S_, .f32⟩
  | 47 => ⟨S4x16x64, .f32⟩
  | 48 => ⟨S4x16x64x1, .f32⟩
  | 49 => ⟨S4x16x64x64, .f32⟩
  | 50 => ⟨S4x16x64x64, .f32⟩
  | 51 => ⟨S4x16x64x4096, .f32⟩
  | 52 => ⟨S_, .f32⟩
  | 53 => ⟨S4x16x64, .f32⟩
  | 54 => ⟨S_, .f32⟩
  | 55 => ⟨S4x16x64, .f32⟩
  | 56 => ⟨S4x16x64, .f32⟩
  | 57 => ⟨S4x16x64x1, .f32⟩
  | 58 => ⟨S4x16x64x4096, .f32⟩
  | 59 => ⟨S4x16x64x4096, .f32⟩
  | 60 => ⟨S4x16x64x4096, .f32⟩
  | 61 => ⟨S_, .f32⟩
  | 62 => ⟨S4x16x64, .f32⟩
  | 63 => ⟨S4x16x64x1, .f32⟩
  | 64 => ⟨S4x16x64x4096, .f32⟩
  | 65 => ⟨S4x16x64x4096, .f32⟩
  | 66 => ⟨S64x64, .i32⟩
  | 67 => ⟨S64x64, .i32⟩
  | 68 => ⟨S_, .i32⟩
  | 69 => ⟨S64x64, .i32⟩
  | 70 => ⟨S64x64, .i32⟩
  | 71 => ⟨S64x64, .i1⟩
  | 72 => ⟨S64x64, .f32⟩
  | 73 => ⟨S4x16x64x64, .f32⟩
  | 74 => ⟨S_, .f32⟩
  | 75 => ⟨S4x16x64, .f32⟩
  | 76 => ⟨S_, .f32⟩
  | 77 => ⟨S_, .f32⟩
  | 78 => ⟨S4x16x64x64, .f32⟩
  | 79 => ⟨S_, .f32⟩
  | 80 => ⟨S4x16x64, .f32⟩
  | 81 => ⟨S_, .f32⟩
  | 82 => ⟨S_, .f32⟩
  | 83 => ⟨S_, .f32⟩
  | 84 => ⟨S_, .f32⟩
  | 85 => ⟨S_, .f32⟩
  | 86 => ⟨S4x16x64x64, .f32⟩
  | 87 => ⟨S4x16x64x64, .f32⟩
  | 88 => ⟨S4x16x64x64, .f32⟩
  | 89 => ⟨S4x16x64x64, .f32⟩
  | 90 => ⟨S_, .f32⟩
  | 91 => ⟨S4x16x64x64, .f32⟩
  | 92 => ⟨S4x16x64x64, .f32⟩
  | 93 => ⟨S_, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S1x1x64x64, .f32⟩
  | 103 => ⟨S4x16x64x64, .f32⟩
  | 104 => ⟨S4x16x64x64, .f32⟩
  | 105 => ⟨S4x16x64x64, .f32⟩
  | 106 => ⟨S1x1x64x64, .f32⟩
  | 107 => ⟨S4x16x64x64, .f32⟩
  | 108 => ⟨S4x16x64x64, .f32⟩
  | 109 => ⟨S4x16x64x64, .f32⟩
  | 110 => ⟨S1x1x64x64, .f32⟩
  | 111 => ⟨S4x16x64x64, .f32⟩
  | 112 => ⟨S4x16x64x64, .f32⟩
  | 113 => ⟨S4x16x64x64, .f32⟩
  | 114 => ⟨S4x16x64x64, .f32⟩
  | 115 => ⟨S_, .f32⟩
  | 116 => ⟨S4x16x64x64, .f32⟩
  | 117 => ⟨S4x16x64x64, .f32⟩
  | 118 => ⟨S_, .f32⟩
  | 119 => ⟨S64x64, .f32⟩
  | 120 => ⟨S64x64, .f32⟩
  | 121 => ⟨S_, .f32⟩
  | 122 => ⟨S64x64, .f32⟩
  | 123 => ⟨S64x64, .f32⟩
  | 124 => ⟨S_, .f32⟩
  | 125 => ⟨S64x64, .f32⟩
  | 126 => ⟨S64x64, .f32⟩
  | 127 => ⟨S1x1x64x64, .f32⟩
  | _ => ⟨S4x16x4096x64, .f32⟩

abbrev hbmTy0_1 (i : Nat) : BufTy := match i % 128 with
  | 0 => ⟨S4x16x64x64, .f32⟩
  | 1 => ⟨S4x16x64x64, .f32⟩
  | 2 => ⟨S4x16x64x64, .f32⟩
  | 3 => ⟨S1x1x64x64, .f32⟩
  | 4 => ⟨S4x16x64x64, .f32⟩
  | 5 => ⟨S4x16x64x64, .f32⟩
  | 6 => ⟨S4x16x64x64, .f32⟩
  | 7 => ⟨S1x1x64x64, .f32⟩
  | 8 => ⟨S4x16x64x64, .f32⟩
  | 9 => ⟨S4x16x64x64, .f32⟩
  | 10 => ⟨S4x16x64x64, .f32⟩
  | 11 => ⟨S4x16x64x64, .f32⟩
  | 12 => ⟨S_, .f32⟩
  | 13 => ⟨S4x16x64x64, .f32⟩
  | 14 => ⟨S4x16x64x64, .f32⟩
  | 15 => ⟨S_, .f32⟩
  | 16 => ⟨S64x64, .f32⟩
  | 17 => ⟨S64x64, .f32⟩
  | 18 => ⟨S_, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S1x1x64x64, .f32⟩
  | 25 => ⟨S4x16x64x64, .f32⟩
  | 26 => ⟨S4x16x64x64, .f32⟩
  | 27 => ⟨S4x16x64x64, .f32⟩
  | 28 => ⟨S1x1x64x64, .f32⟩
  | 29 => ⟨S4x16x64x64, .f32⟩
  | 30 => ⟨S4x16x64x64, .f32⟩
  | 31 => ⟨S4x16x64x64, .f32⟩
  | 32 => ⟨S1x1x64x64, .f32⟩
  | 33 => ⟨S4x16x64x64, .f32⟩
  | 34 => ⟨S4x16x64x64, .f32⟩
  | 35 => ⟨S4x16x64x64, .f32⟩
  | 36 => ⟨S4x16x64x64, .f32⟩
  | 37 => ⟨S_, .f32⟩
  | 38 => ⟨S4x16x64x64, .f32⟩
  | 39 => ⟨S4x16x64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S1x1x64x64, .f32⟩
  | 50 => ⟨S4x16x64x64, .f32⟩
  | 51 => ⟨S4x16x64x64, .f32⟩
  | 52 => ⟨S4x16x64x64, .f32⟩
  | 53 => ⟨S1x1x64x64, .f32⟩
  | 54 => ⟨S4x16x64x64, .f32⟩
  | 55 => ⟨S4x16x64x64, .f32⟩
  | 56 => ⟨S4x16x64x64, .f32⟩
  | 57 => ⟨S1x1x64x64, .f32⟩
  | 58 => ⟨S4x16x64x64, .f32⟩
  | 59 => ⟨S4x16x64x64, .f32⟩
  | 60 => ⟨S4x16x64x64, .f32⟩
  | 61 => ⟨S4x16x64x64, .f32⟩
  | 62 => ⟨S_, .f32⟩
  | 63 => ⟨S4x16x64x64, .f32⟩
  | 64 => ⟨S4x16x64x64, .f32⟩
  | 65 => ⟨S_, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S1x1x64x64, .f32⟩
  | 75 => ⟨S4x16x64x64, .f32⟩
  | 76 => ⟨S4x16x64x64, .f32⟩
  | 77 => ⟨S4x16x64x64, .f32⟩
  | 78 => ⟨S1x1x64x64, .f32⟩
  | 79 => ⟨S4x16x64x64, .f32⟩
  | 80 => ⟨S4x16x64x64, .f32⟩
  | 81 => ⟨S4x16x64x64, .f32⟩
  | 82 => ⟨S1x1x64x64, .f32⟩
  | 83 => ⟨S4x16x64x64, .f32⟩
  | 84 => ⟨S4x16x64x64, .f32⟩
  | 85 => ⟨S4x16x64x64, .f32⟩
  | 86 => ⟨S4x16x64x64, .f32⟩
  | 87 => ⟨S_, .f32⟩
  | 88 => ⟨S4x16x64x64, .f32⟩
  | 89 => ⟨S4x16x64x64, .f32⟩
  | 90 => ⟨S_, .f32⟩
  | 91 => ⟨S64x64, .f32⟩
  | 92 => ⟨S64x64, .f32⟩
  | 93 => ⟨S_, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S1x1x64x64, .f32⟩
  | 100 => ⟨S4x16x64x64, .f32⟩
  | 101 => ⟨S4x16x64x64, .f32⟩
  | 102 => ⟨S4x16x64x64, .f32⟩
  | 103 => ⟨S1x1x64x64, .f32⟩
  | 104 => ⟨S4x16x64x64, .f32⟩
  | 105 => ⟨S4x16x64x64, .f32⟩
  | 106 => ⟨S4x16x64x64, .f32⟩
  | 107 => ⟨S1x1x64x64, .f32⟩
  | 108 => ⟨S4x16x64x64, .f32⟩
  | 109 => ⟨S4x16x64x64, .f32⟩
  | 110 => ⟨S4x16x64x64, .f32⟩
  | 111 => ⟨S4x16x4096x64, .f32⟩
  | 112 => ⟨S4x16x64x64, .f32⟩
  | 113 => ⟨S4x16x4096x64, .f32⟩
  | _ => ⟨S4x16x4096x64, .f32⟩

abbrev hbmTy (i : Nat) : BufTy := match i / 128 with
  | 0 => hbmTy0_0 i
  | 1 => hbmTy0_1 i
  | _ => ⟨S4x16x4096x64, .f32⟩

abbrev bufTy : (tb : Table) → Fin (tcTables nBuf tb) → BufTy
  | .hbm, ⟨i, _⟩ => hbmTy i
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_cst_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_11 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_13 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_cst_17 : Ref sig .tc := ⟨.hbm, 81, rfl⟩
abbrev main_v59 : Ref sig .tc := ⟨.hbm, 82, rfl⟩
abbrev main_v60 : Ref sig .tc := ⟨.hbm, 83, rfl⟩
abbrev main_cst_18 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_cst_20 : Ref sig .tc := ⟨.hbm, 93, rfl⟩
abbrev main_v68 : Ref sig .tc := ⟨.hbm, 94, rfl⟩
abbrev main_v69 : Ref sig .tc := ⟨.hbm, 95, rfl⟩
abbrev main_cst_21 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_23 : Ref sig .tc := ⟨.hbm, 115, rfl⟩
abbrev main_v87 : Ref sig .tc := ⟨.hbm, 116, rfl⟩
abbrev main_v88 : Ref sig .tc := ⟨.hbm, 117, rfl⟩
abbrev main_cst_24 : Ref sig .tc := ⟨.hbm, 118, rfl⟩
abbrev main_v89 : Ref sig .tc := ⟨.hbm, 119, rfl⟩
abbrev main_v90 : Ref sig .tc := ⟨.hbm, 120, rfl⟩
abbrev main_cst_25 : Ref sig .tc := ⟨.hbm, 121, rfl⟩
abbrev main_v91 : Ref sig .tc := ⟨.hbm, 122, rfl⟩
abbrev main_v92 : Ref sig .tc := ⟨.hbm, 123, rfl⟩
abbrev main_cst_26 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_27 : Ref sig .tc := ⟨.hbm, 140, rfl⟩
abbrev main_v108 : Ref sig .tc := ⟨.hbm, 141, rfl⟩
abbrev main_v109 : Ref sig .tc := ⟨.hbm, 142, rfl⟩
abbrev main_cst_28 : Ref sig .tc := ⟨.hbm, 143, rfl⟩
abbrev main_v110 : Ref sig .tc := ⟨.hbm, 144, rfl⟩
abbrev main_v111 : Ref sig .tc := ⟨.hbm, 145, rfl⟩
abbrev main_cst_29 : Ref sig .tc := ⟨.hbm, 146, rfl⟩
abbrev main_v112 : Ref sig .tc := ⟨.hbm, 147, rfl⟩
abbrev main_v113 : Ref sig .tc := ⟨.hbm, 148, rfl⟩
abbrev main_cst_30 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_31 : Ref sig .tc := ⟨.hbm, 165, rfl⟩
abbrev main_v129 : Ref sig .tc := ⟨.hbm, 166, rfl⟩
abbrev main_v130 : Ref sig .tc := ⟨.hbm, 167, rfl⟩
abbrev main_cst_32 : Ref sig .tc := ⟨.hbm, 168, rfl⟩
abbrev main_v131 : Ref sig .tc := ⟨.hbm, 169, rfl⟩
abbrev main_v132 : Ref sig .tc := ⟨.hbm, 170, rfl⟩
abbrev main_cst_33 : Ref sig .tc := ⟨.hbm, 171, rfl⟩
abbrev main_v133 : Ref sig .tc := ⟨.hbm, 172, rfl⟩
abbrev main_v134 : Ref sig .tc := ⟨.hbm, 173, rfl⟩
abbrev main_cst_34 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_cst_35 : Ref sig .tc := ⟨.hbm, 190, rfl⟩
abbrev main_v150 : Ref sig .tc := ⟨.hbm, 191, rfl⟩
abbrev main_v151 : Ref sig .tc := ⟨.hbm, 192, rfl⟩
abbrev main_cst_36 : Ref sig .tc := ⟨.hbm, 193, rfl⟩
abbrev main_v152 : Ref sig .tc := ⟨.hbm, 194, rfl⟩
abbrev main_v153 : Ref sig .tc := ⟨.hbm, 195, rfl⟩
abbrev main_cst_37 : Ref sig .tc := ⟨.hbm, 196, rfl⟩
abbrev main_v154 : Ref sig .tc := ⟨.hbm, 197, rfl⟩
abbrev main_v155 : Ref sig .tc := ⟨.hbm, 198, rfl⟩
abbrev main_cst_38 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_cst_39 : Ref sig .tc := ⟨.hbm, 215, rfl⟩
abbrev main_v171 : Ref sig .tc := ⟨.hbm, 216, rfl⟩
abbrev main_v172 : Ref sig .tc := ⟨.hbm, 217, rfl⟩
abbrev main_cst_40 : Ref sig .tc := ⟨.hbm, 218, rfl⟩
abbrev main_v173 : Ref sig .tc := ⟨.hbm, 219, rfl⟩
abbrev main_v174 : Ref sig .tc := ⟨.hbm, 220, rfl⟩
abbrev main_cst_41 : Ref sig .tc := ⟨.hbm, 221, rfl⟩
abbrev main_v175 : Ref sig .tc := ⟨.hbm, 222, rfl⟩
abbrev main_v176 : Ref sig .tc := ⟨.hbm, 223, rfl⟩
abbrev main_cst_42 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩

abbrev nD : Nat := 1
abbrev τ : Topo := Topo.v7x

variable {F : FTy → Type} [FloatOps F]

class Facts₀ : Prop where
  bcast_S_S4x16x4096x64 : S_.BroadcastsInDim S4x16x4096x64 (![] : Fin 0 → Fin S4x16x4096x64.rank)
  shapeCasts_S4x16x4096x64_S4x16x64x64x64 : S4x16x4096x64.ShapeCasts S4x16x64x64x64
  reducesTo_S4x16x64x64x64_S4x16x64x64_d3 : S4x16x64x64x64.ReducesTo [3] S4x16x64x64
  h_S_ : 0 < S_.numel
  bcast_S_S4x16x64x64 : S_.BroadcastsInDim S4x16x64x64 (![] : Fin 0 → Fin S4x16x64x64.rank)
  reducesTo_S4x16x4096x64_S4x16x4096_d3 : S4x16x4096x64.ReducesTo [3] S4x16x4096
  bcast_S_S4x16x4096 : S_.BroadcastsInDim S4x16x4096 (![] : Fin 0 → Fin S4x16x4096.rank)
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  reducesTo_S4x16x64x4096_S4x16x64_d3 : S4x16x64x4096.ReducesTo [3] S4x16x64
  bcast_S4x16x64x1_S4x16x64x4096_0_1_2_3 : S4x16x64x1.BroadcastsInDim S4x16x64x4096 (![0, 1, 2, 3] : Fin 4 → Fin S4x16x64x4096.rank)
  bcast_S_S64x64 : S_.BroadcastsInDim S64x64 (![] : Fin 0 → Fin S64x64.rank)
  reducesTo_S4x16x64x64_S4x16x64_d2 : S4x16x64x64.ReducesTo [2] S4x16x64
  reducesTo_S4x16x64_S_d0_1_2 : S4x16x64.ReducesTo [0, 1, 2] S_
  transposes_S4x16x64x64_S4x16x64x64_0_1_3_2 : S4x16x64x64.Transposes [0, 1, 3, 2] S4x16x64x64
  bcast_S64x64_S1x1x64x64_2_3 : S64x64.BroadcastsInDim S1x1x64x64 (![2, 3] : Fin 2 → Fin S1x1x64x64.rank)
  bcast_S1x1x64x64_S4x16x64x64_0_1_2_3 : S1x1x64x64.BroadcastsInDim S4x16x64x64 (![0, 1, 2, 3] : Fin 4 → Fin S4x16x64x64.rank)
  dot_S4x16x4096x64_S4x16x64x64_S4x16x4096x64_3_3_2_2_01_01_wf : DotDims.WF S4x16x4096x64 S4x16x64x64 S4x16x4096x64 [3] [3] [2] [2] [0, 1] [0, 1]
  dot_S4x16x64x64_S4x16x64x64_S4x16x64x64_3_3_2_2_01_01_wf : DotDims.WF S4x16x64x64 S4x16x64x64 S4x16x64x64 [3] [3] [2] [2] [0, 1] [0, 1]
  dot_S4x16x64x64_S4x16x4096x64_S4x16x64x4096_3_3_2_2_01_01_wf : DotDims.WF S4x16x64x64 S4x16x4096x64 S4x16x64x4096 [3] [3] [2] [2] [0, 1] [0, 1]
  dot_S4x16x64x64_S4x16x64x64_S4x16x64x64_3_2_2_3_01_01_wf : DotDims.WF S4x16x64x64 S4x16x64x64 S4x16x64x64 [3] [2] [2] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x16x64x4096_S4x16x4096x64_S4x16x64x64_3_2_2_3_01_01_wf : DotDims.WF S4x16x64x4096 S4x16x4096x64 S4x16x64x64 [3] [2] [2] [3] [0, 1] [0, 1]

variable [Facts₀]

def dot_S4x16x4096x64_S4x16x64x64_S4x16x4096x64_3_3_2_2_01_01 : DotDims S4x16x4096x64 S4x16x64x64 S4x16x4096x64 where
  lhsContracting := [3]
  rhsContracting := [3]
  lhsNonContracting := [2]
  rhsNonContracting := [2]
  lhsBatch := [0, 1]
  rhsBatch := [0, 1]
  wf := dot_S4x16x4096x64_S4x16x64x64_S4x16x4096x64_3_3_2_2_01_01_wf
def dot_S4x16x64x64_S4x16x64x64_S4x16x64x64_3_3_2_2_01_01 : DotDims S4x16x64x64 S4x16x64x64 S4x16x64x64 where
  lhsContracting := [3]
  rhsContracting := [3]
  lhsNonContracting := [2]
  rhsNonContracting := [2]
  lhsBatch := [0, 1]
  rhsBatch := [0, 1]
  wf := dot_S4x16x64x64_S4x16x64x64_S4x16x64x64_3_3_2_2_01_01_wf
def dot_S4x16x64x64_S4x16x4096x64_S4x16x64x4096_3_3_2_2_01_01 : DotDims S4x16x64x64 S4x16x4096x64 S4x16x64x4096 where
  lhsContracting := [3]
  rhsContracting := [3]
  lhsNonContracting := [2]
  rhsNonContracting := [2]
  lhsBatch := [0, 1]
  rhsBatch := [0, 1]
  wf := dot_S4x16x64x64_S4x16x4096x64_S4x16x64x4096_3_3_2_2_01_01_wf
def dot_S4x16x64x64_S4x16x64x64_S4x16x64x64_3_2_2_3_01_01 : DotDims S4x16x64x64 S4x16x64x64 S4x16x64x64 where
  lhsContracting := [3]
  rhsContracting := [2]
  lhsNonContracting := [2]
  rhsNonContracting := [3]
  lhsBatch := [0, 1]
  rhsBatch := [0, 1]
  wf := dot_S4x16x64x64_S4x16x64x64_S4x16x64x64_3_2_2_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x16x64x4096_S4x16x4096x64_S4x16x64x64_3_2_2_3_01_01 : DotDims S4x16x64x4096 S4x16x4096x64 S4x16x64x64 where
  lhsContracting := [3]
  rhsContracting := [2]
  lhsNonContracting := [2]
  rhsNonContracting := [3]
  lhsBatch := [0, 1]
  rhsBatch := [0, 1]
  wf := dot_S4x16x64x4096_S4x16x4096x64_S4x16x64x64_3_2_2_3_01_01_wf

class Facts : Prop extends Facts₀ where

variable [Facts]
-- ==== Proof.Spec.lean ====
/-
  The mathematics both programs compute, written once over plain index types.

  Per attention head (64 heads = 4 batches × 16 heads, head index `16·b + h`), with `q k v : 4096 × 64`:
  the inputs are scaled by one f32 constant `c`; the 4096 rows are cut into 64 consecutive segments of 64 rows and each
  segment is averaged (its "landmark"); three row-softmaxes are taken of the products
  `q̃ · k̄ᵀ` (4096 × 64), `q̄ · k̄ᵀ` (64 × 64) and `q̄ · k̃ᵀ` (64 × 4096), where `x̃ = c·x` and `x̄` is the landmark of `x̃`.
  Across ALL heads one scalar normalises the 64 × 64 matrices: the reciprocal of (largest absolute column sum) ×
  (largest absolute row sum); from `Z₀ = s·Aᵀ` six steps `Z ↦ ¼ Z (13 I − AZ (15 I − AZ (7 I − AZ)))` approximate `A⁻¹`.
  The result is `P₁ · Z₆ · (P₃ · v)`, a product of three matrices; the two programs bracket it differently.
-/
import Idealize.ShloMosaic.PureOps.Ideal
import Mathlib.Algebra.BigOperators.Group.Finset.Basic
import Mathlib.Data.Finset.Fold

noncomputable section

namespace Cert.Spec

open Idealize.ShloMosaic

/-- A matrix with `a` rows and `b` columns of extended reals. -/
abbrev Mat (a b : Nat) := Fin a → Fin b → EReal
/-- One matrix per head. -/
abbrev Bat (a b : Nat) := Fin 64 → Mat a b

/-! ## The constants, as the f32 words both programs print -/

/-- The scale `64^(-1/4)` rounded to f32. -/
def cScale : EReal := Ideal.ofBits .f32 0x3EB504F3#32
def c64 : EReal := Ideal.ofBits .f32 0x42800000#32
def cNegInf : EReal := Ideal.ofBits .f32 0xFF800000#32
def c0 : EReal := Ideal.ofBits .f32 0x00000000#32
def c1 : EReal := Ideal.ofBits .f32 0x3F800000#32
def c7 : EReal := Ideal.ofBits .f32 0x40E00000#32
def c15 : EReal := Ideal.ofBits .f32 0x41700000#32
def c13 : EReal := Ideal.ofBits .f32 0x41500000#32
def cQuarter : EReal := Ideal.ofBits .f32 0x3E800000#32

/-! ## One head -/

/-- `x̃ = x · c`. -/
def scl (x : Mat 4096 64) : Mat 4096 64 := fun s d => x s d * cScale

/-- Row `r` of segment `j`: row `64·j + r` of the 4096. -/
def segRow (j r : Fin 64) : Fin 4096 := ⟨64 * j.val + r.val, by have := j.isLt; have := r.isLt; omega⟩

/-- The landmark (segment mean): the sum of the segment's 64 rows divided by 64. -/
def lmk (x : Mat 4096 64) : Mat 64 64 := fun j d => Ideal.div (∑ r : Fin 64, x (segRow j r) d) c64

/-- The largest entry of a row, as both programs take it: the fold of `max` from `-∞`, then once more against `-∞`. -/
def rowMax {n : Nat} (f : Fin n → EReal) : EReal := max cNegInf ((Finset.univ : Finset (Fin n)).fold max cNegInf f)

/-- The softmax of a row: `exp (f j − max f) / ∑ₖ exp (f k − max f)`. -/
def smx {n : Nat} (f : Fin n → EReal) (j : Fin n) : EReal :=
  Ideal.div (Ideal.exp (f j - rowMax f)) (∑ k : Fin n, Ideal.exp (f k - rowMax f))

/-- `k̄`: the landmarks of the scaled keys. -/
def klm (k : Mat 4096 64) : Mat 64 64 := lmk (scl k)

/-- `q̃ · Lᵀ` for a 64 × 64 matrix `L` of landmarks (4096 × 64). -/
def lg1 (q : Mat 4096 64) (L : Mat 64 64) : Mat 4096 64 := fun s j => ∑ d : Fin 64, scl q s d * L j d
/-- `q̄ · k̄ᵀ` (64 × 64). -/
def lg2 (q k : Mat 4096 64) : Mat 64 64 := fun i j => ∑ d : Fin 64, lmk (scl q) i d * klm k j d
/-- `q̄ · k̃ᵀ` (64 × 4096). -/
def lg3 (q k : Mat 4096 64) : Mat 64 4096 := fun i s => ∑ d : Fin 64, lmk (scl q) i d * scl k s d

/-- `P₁ = softmax (q̃ · Lᵀ)`, row by row. -/
def p1 (q : Mat 4096 64) (L : Mat 64 64) : Mat 4096 64 := fun s j => smx (lg1 q L s) j
/-- `P₂ = softmax (q̄ · k̄ᵀ)`. -/
def p2 (q k : Mat 4096 64) : Mat 64 64 := fun i j => smx (lg2 q k i) j
/-- `P₃ = softmax (q̄ · k̃ᵀ)`. -/
def p3 (q k : Mat 4096 64) : Mat 64 4096 := fun i s => smx (lg3 q k i) s
/-- `P₃ · v` (64 × 64). -/
def kvv (q k v : Mat 4096 64) : Mat 64 64 := fun i d => ∑ s : Fin 4096, p3 q k i s * v s d

/-- The plain product of a matrix with 64 columns and one with 64 rows. -/
def mm {a b : Nat} (A : Mat a 64) (B : Mat 64 b) : Mat a b := fun i j => ∑ k : Fin 64, A i k * B k j

/-! ## All heads: the iteration for the inverse -/

/-- `|x|` as both programs take it. -/
def absE (x : EReal) : EReal := max x (-x)
/-- Absolute column sums, per head and column. -/
def colS (A : Bat 64 64) : Fin 64 → Fin 64 → EReal := fun h j => c0 + ∑ i : Fin 64, absE (A h i j)
/-- Absolute row sums, per head and row. -/
def rowS (A : Bat 64 64) : Fin 64 → Fin 64 → EReal := fun h i => c0 + ∑ j : Fin 64, absE (A h i j)
/-- The largest of a head-by-index table: the fold of `max` from `-∞` over all pairs. -/
def gmax (f : Fin 64 → Fin 64 → EReal) : EReal :=
  (Finset.univ : Finset (Fin 64 × Fin 64)).fold max cNegInf (fun p => f p.1 p.2)
/-- The normalising scalar `1 / (max column sum · max row sum)`, one for all heads. -/
def nsc (A : Bat 64 64) : EReal := Ideal.div c1 (gmax (colS A) * gmax (rowS A))
/-- The identity matrix's entries. -/
def eye (i j : Fin 64) : EReal := if i = j then 1 else 0
/-- `Z₀ = s · Aᵀ`. -/
def ns0 (A : Bat 64 64) : Bat 64 64 := fun h i j => nsc A * A h j i
/-- One step `Z ↦ (¼ Z) (13 I − AZ (15 I − AZ (7 I − AZ)))`, head by head. -/
def nsS (A Z : Bat 64 64) : Bat 64 64 := fun h =>
  mm (fun i j => cQuarter * Z h i j)
    (fun i j => c13 * eye i j - mm (mm (A h) (Z h)) (fun i j => c15 * eye i j - mm (mm (A h) (Z h)) (fun i j => c7 * eye i j - mm (A h) (Z h) i j) i j) i j)
/-- Six steps from `Z₀`. -/
def nsInv (A : Bat 64 64) : Bat 64 64 := nsS A (nsS A (nsS A (nsS A (nsS A (nsS A (ns0 A))))))

/-! ## The two results -/

/-- `P₂` of every head. -/
def P2 (Q K : Bat 4096 64) : Bat 64 64 := fun h => p2 (Q h) (K h)

/-- `P₁ · (Z₆ · (P₃ v))`: the inverse is multiplied into `P₃ v` first. -/
def outK (Q K V : Bat 4096 64) : Bat 4096 64 := fun h =>
  mm (p1 (Q h) (klm (K h))) (mm (nsInv (P2 Q K) h) (kvv (Q h) (K h) (V h)))

/-- `(P₁ · Z₆) · (P₃ v)`: the inverse is multiplied into `P₁` first. -/
def outR (Q K V : Bat 4096 64) : Bat 4096 64 := fun h =>
  mm (mm (p1 (Q h) (klm (K h))) (nsInv (P2 Q K) h)) (kvv (Q h) (K h) (V h))

/-- An extended real that is a real number. -/
def IsReal (x : EReal) : Prop := ∃ r : ℝ, x = (r : EReal)

end Cert.Spec

end
-- ==== Proof.Views.lean ====
/-
  Heads and index views: head `16·b + h` of a [4, 16, …] array, and arrays read as one matrix per head.
-/
import proofs.«407147_j5119601017043_3_alg».proof.Proof.Spec
import Idealize.ShloMosaic.Lib.ValueIdx

noncomputable section

namespace Cert.Views

open Idealize.ShloMosaic Idealize.ShloMosaic.ValueIdx

/-- The batch of head `n`: `n / 16`. -/
def hb (n : Fin 64) : Fin 4 := ⟨n.val / 16, by have := n.isLt; omega⟩
/-- The head-within-batch of head `n`: `n % 16`. -/
def hh (n : Fin 64) : Fin 16 := ⟨n.val % 16, Nat.mod_lt _ (by decide)⟩
/-- Head `16·b + h`. -/
def hd (b : Fin 4) (h : Fin 16) : Fin 64 := ⟨16 * b.val + h.val, by have := b.isLt; have := h.isLt; omega⟩

theorem hb_hd (b : Fin 4) (h : Fin 16) : hb (hd b h) = b := Fin.ext (by have := h.isLt; simp only [hb, hd]; omega)
theorem hh_hd (b : Fin 4) (h : Fin 16) : hh (hd b h) = h := Fin.ext (by have := h.isLt; simp only [hh, hd]; omega)
theorem hd_hb_hh (n : Fin 64) : hd (hb n) (hh n) = n := Fin.ext (by simp only [hb, hh, hd]; omega)

/-- A [4, 16, n, d] array as one n × d matrix per head. -/
def bat4 {n d : Nat} (x : (⟨4, ![4, 16, n, d]⟩ : Shape).Idx → EReal) : Fin 64 → Spec.Mat n d :=
  fun k s e => x (ix4 (hb k) (hh k) s e)
/-- A [64, n, d] array as one n × d matrix per head. -/
def bat3 {n d : Nat} (x : (⟨3, ![64, n, d]⟩ : Shape).Idx → EReal) : Fin 64 → Spec.Mat n d :=
  fun k s e => x (ix3 k s e)

/-- A [1, n, d] block as an n × d matrix. -/
def blk1 {n d : Nat} (x : (⟨3, ![1, n, d]⟩ : Shape).Idx → EReal) : Spec.Mat n d := fun s e => x (ix3 0 s e)

theorem bat4_hd {n d : Nat} (x : (⟨4, ![4, 16, n, d]⟩ : Shape).Idx → EReal) (b : Fin 4) (h : Fin 16) (s : Fin n) (e : Fin d) :
    bat4 x (hd b h) s e = x (ix4 b h s e) := by
  unfold bat4; rw [hb_hd, hh_hd]

end Cert.Views

end
-- ==== Proof.KBodyA.lean ====
/-
  What one grid point of the first kernel writes, entry by entry: from the point's blocks `q k v` (each 4096 × 64) the
  landmarks of the scaled keys, the 64 × 64 softmax `P₂`, and `P₃ · v`.
-/
import proofs.«407147_j5119601017043_3_alg».proof.Proof.Gen.KernelIdeal.Frame
import proofs.«407147_j5119601017043_3_alg».proof.Proof.Spec
import proofs.«407147_j5119601017043_3_alg».proof.Proof.Views
import Idealize.ShloMosaic.Lib.ValueIdx
import Idealize.ShloMosaic.Lib.ValueLayout
import Idealize.ShloMosaic.PureOps.Ideal.Laws

set_option maxRecDepth 16384

noncomputable section

namespace Cert.KernelIdeal.KBodyA

open Cert.KernelIdeal Cert.KernelIdeal.Gen Idealize.ShloMosaic Idealize.ShloMosaic.ValueIdx Cert.Views

/-! ## Operations read at an index -/

/-- The exponential of an array reads the exponential of the entry. -/
theorem exp_apply {s : Shape} {φ : FTy} (a : FVec Ideal s φ) (i : s.Idx) : exp a i = Ideal.exp (a i) := rfl

/-- A [64] vector stood up as a [64, 1] column and repeated along `n` columns reads, in row `i`, its entry `i`. -/
theorem col_apply {α : Type} {n : Nat} (v : S64.Idx → α) (hc : S64.ShapeCasts S64x1)
    (hb : S64x1.Broadcasts ⟨2, ![64, n]⟩) (i : Fin 64) (j : Fin n) :
    broadcastTo ⟨2, ![64, n]⟩ (shapeCast S64x1 v hc) hb (ix2 i j) = v (ix1 i) := by
  refine (broadcastTo_apply _ hb (ix2 i j) (ix2 i (0 : Fin 1)) fun a => ?_).trans ?_
  · match a with
    | ⟨0, _⟩ => rfl
    | ⟨1, _⟩ => rfl
  · exact shapeCast_apply v hc _ _ (by
      rw [Shape.rowMajor_val_one, Shape.rowMajor_val_two]
      show i.val = i.val * 1 + 0
      omega)

/-- The [4096, 64] array cut into 64 segments of 64 rows: entry `(j, r, d)` is row `64·j + r`, column `d`. -/
theorem seg_apply {α : Type} (y : S4096x64.Idx → α) (hc : S4096x64.ShapeCasts S64x64x64) (j r d : Fin 64) :
    shapeCast S64x64x64 y hc (ix3 j r d) = y (ix2 (Spec.segRow j r) d) :=
  shapeCast_apply y hc _ _ (by
    rw [Shape.rowMajor_val_two, Shape.rowMajor_val_three]
    show (64 * j.val + r.val) * 64 + d.val = (j.val * 64 + r.val) * 64 + d.val
    omega)

/-- The sum over the middle axis of a [64, 64, 64] array. -/
theorem sum_mid_apply (z : FVec Ideal S64x64x64 .f32) (hr : S64x64x64.Reduces [1] S64x64)
    (hφ : FKind.Formats .f32) (hacc : (0x00000000#32 : BitVec 32) = FKind.add.neutral .f32 hφ) (j d : Fin 64) :
    multiReduction .add [1] S64x64 z 0x00000000#32 hr hφ hacc (ix2 j d) = ∑ r : Fin 64, z (ix3 j r d) := by
  refine (Ideal.multiReduction_add_single z 0x00000000#32 hr hφ hacc (ix2 j d)).trans ?_
  refine Finset.sum_congr rfl fun r _ => congrArg z (funext fun a => ?_)
  match a with
  | ⟨0, _⟩ => exact Fin.ext rfl
  | ⟨1, _⟩ => exact Fin.ext rfl
  | ⟨2, _⟩ => exact Fin.ext rfl

/-- The sum along the rows of a [64, n] array. -/
theorem sum_row_apply {n : Nat} (x : FVec Ideal ⟨2, ![64, n]⟩ .f32) (hr : (⟨2, ![64, n]⟩ : Shape).Reduces [1] S64)
    (hφ : FKind.Formats .f32) (hacc : (0x00000000#32 : BitVec 32) = FKind.add.neutral .f32 hφ) (i : Fin 64) :
    multiReduction .add [1] S64 x 0x00000000#32 hr hφ hacc (ix1 i) = ∑ k : Fin n, x (ix2 i k) := by
  refine (Ideal.multiReduction_add_single x 0x00000000#32 hr hφ hacc (ix1 i)).trans ?_
  refine Finset.sum_congr rfl fun k _ => congrArg x (funext fun a => ?_)
  match a with
  | ⟨0, _⟩ => exact Fin.ext rfl
  | ⟨1, _⟩ => exact Fin.ext rfl

/-- The largest entry along the rows of a [64, n] array: the fold of `max` from `-∞`. -/
theorem max_row_apply {n : Nat} (x : FVec Ideal ⟨2, ![64, n]⟩ .f32) (hr : (⟨2, ![64, n]⟩ : Shape).Reduces [1] S64)
    (hφ : FKind.Formats .f32) (hacc : (0xFF800000#32 : BitVec 32) = FKind.maximumf.neutral .f32 hφ) (i : Fin 64) :
    multiReduction .maximumf [1] S64 x 0xFF800000#32 hr hφ hacc (ix1 i)
      = (Finset.univ : Finset (Fin n)).fold max Spec.cNegInf (fun k => x (ix2 i k)) := by
  refine (Ideal.multiReduction_maximumf_single x 0xFF800000#32 hr hφ hacc (ix1 i)).trans ?_
  show (Finset.univ : Finset (Fin n)).fold max Spec.cNegInf (fun k : Fin n => x (hr.lift (ix1 i) k)) = _
  refine Finset.fold_congr fun k _ => congrArg x (funext fun a => ?_)
  match a with
  | ⟨0, _⟩ => exact Fin.ext rfl
  | ⟨1, _⟩ => exact Fin.ext rfl

/-! ## The three matrix products -/

/-! ### The product S64x64 · S64x64: its operand indices, axis by axis -/

theorem mmA_lhs0 (i : S64x64.Idx) (q : dot_S64x64_S64x64_S64x64_1_0_0_1_n_n.contr.Idx) : (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide),
    dif_pos (show (0 : Fin S64x64.rank) ∈ dot_S64x64_S64x64_S64x64_1_0_0_1_n_n.lhsNonContracting by decide)]
  rfl
theorem mmA_lhs1 (i : S64x64.Idx) (q : dot_S64x64_S64x64_S64x64_1_0_0_1_n_n.contr.Idx) : (dot_S64x64_S64x64_S64x64_1_0_0_1_n_n.lhsIdx i q 1).val = (q ⟨0, by decide⟩).val :=
  dot_S64x64_S64x64_S64x64_1_0_0_1_n_n.lhsIdx_val_of_single rfl i q
theorem mmA_rhs0 (i : S64x64.Idx) (q : dot_S64x64_S64x64_S64x64_1_0_0_1_n_n.contr.Idx) : (dot_S64x64_S64x64_S64x64_1_0_0_1_n_n.rhsIdx i q 0).val = (q ⟨0, by decide⟩).val :=
  dot_S64x64_S64x64_S64x64_1_0_0_1_n_n.rhsIdx_val_of_single rfl i q
theorem mmA_rhs1 (i : S64x64.Idx) (q : dot_S64x64_S64x64_S64x64_1_0_0_1_n_n.contr.Idx) : (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide),
    dif_pos (show (1 : Fin S64x64.rank) ∈ dot_S64x64_S64x64_S64x64_1_0_0_1_n_n.rhsNonContracting by decide)]
  rfl

/-- The product into a zero accumulator, entry `(i, j)`: the sum over the 64 shared coordinates. -/
theorem mmA_apply {φ₁ φ₂ : FTy} (A : FVec Ideal S64x64 φ₁) (B : FVec Ideal S64x64 φ₂) (i : Fin 64) (j : Fin 64) :
    matmul dot_S64x64_S64x64_S64x64_1_0_0_1_n_n none A B (constant (F := Ideal) S64x64 .f32 0x00000000#32) (ix2 i j)
      = ∑ k : Fin 64, A (ix2 i k) * B (ix2 k j) := by
  simp only [matmul]
  rw [Ideal.matmul_constant_zero_apply, ← Equiv.sum_comp (contrEquiv1 dot_S64x64_S64x64_S64x64_1_0_0_1_n_n 64 rfl rfl).symm]
  refine Finset.sum_congr rfl fun k _ => ?_
  have hk := contrEquiv1_symm_val dot_S64x64_S64x64_S64x64_1_0_0_1_n_n 64 rfl rfl k
  have el : dot_S64x64_S64x64_S64x64_1_0_0_1_n_n.lhsIdx (ix2 i j) ((contrEquiv1 dot_S64x64_S64x64_S64x64_1_0_0_1_n_n 64 rfl rfl).symm k) = ix2 i k :=
    funext fun c => Fin.ext (by
      match c with
      | ⟨0, _⟩ => exact mmA_lhs0 _ _
      | ⟨1, _⟩ => exact (mmA_lhs1 _ _).trans hk)
  have er : dot_S64x64_S64x64_S64x64_1_0_0_1_n_n.rhsIdx (ix2 i j) ((contrEquiv1 dot_S64x64_S64x64_S64x64_1_0_0_1_n_n 64 rfl rfl).symm k) = ix2 k j :=
    funext fun c => Fin.ext (by
      match c with
      | ⟨0, _⟩ => exact (mmA_rhs0 _ _).trans hk
      | ⟨1, _⟩ => exact mmA_rhs1 _ _)
  rw [el, er]

/-! ### The product S64x64 · S64x4096: its operand indices, axis by axis -/

theorem mmB_lhs0 (i : S64x4096.Idx) (q : dot_S64x64_S64x4096_S64x4096_1_0_0_1_n_n.contr.Idx) : (dot_S64x64_S64x4096_S64x4096_1_0_0_1_n_n.lhsIdx i q 0).val = (i 0).val := by
  unfold DotDims.lhsIdx
  rw [dif_neg (show ¬(0 : Fin S64x64.rank) ∈ dot_S64x64_S64x4096_S64x4096_1_0_0_1_n_n.lhsBatch by decide),
    dif_pos (show (0 : Fin S64x64.rank) ∈ dot_S64x64_S64x4096_S64x4096_1_0_0_1_n_n.lhsNonContracting by decide)]
  rfl
theorem mmB_lhs1 (i : S64x4096.Idx) (q : dot_S64x64_S64x4096_S64x4096_1_0_0_1_n_n.contr.Idx) : (dot_S64x64_S64x4096_S64x4096_1_0_0_1_n_n.lhsIdx i q 1).val = (q ⟨0, by decide⟩).val :=
  dot_S64x64_S64x4096_S64x4096_1_0_0_1_n_n.lhsIdx_val_of_single rfl i q
theorem mmB_rhs0 (i : S64x4096.Idx) (q : dot_S64x64_S64x4096_S64x4096_1_0_0_1_n_n.contr.Idx) : (dot_S64x64_S64x4096_S64x4096_1_0_0_1_n_n.rhsIdx i q 0).val = (q ⟨0, by decide⟩).val :=
  dot_S64x64_S64x4096_S64x4096_1_0_0_1_n_n.rhsIdx_val_of_single rfl i q
theorem mmB_rhs1 (i : S64x4096.Idx) (q : dot_S64x64_S64x4096_S64x4096_1_0_0_1_n_n.contr.Idx) : (dot_S64x64_S64x4096_S64x4096_1_0_0_1_n_n.rhsIdx i q 1).val = (i 1).val := by
  unfold DotDims.rhsIdx
  rw [dif_neg (show ¬(1 : Fin S64x4096.rank) ∈ dot_S64x64_S64x4096_S64x4096_1_0_0_1_n_n.rhsBatch by decide),
    dif_pos (show (1 : Fin S64x4096.rank) ∈ dot_S64x64_S64x4096_S64x4096_1_0_0_1_n_n.rhsNonContracting by decide)]
  rfl

/-- The product into a zero accumulator, entry `(i, j)`: the sum over the 64 shared coordinates. -/
theorem mmB_apply {φ₁ φ₂ : FTy} (A : FVec Ideal S64x64 φ₁) (B : FVec Ideal S64x4096 φ₂) (i : Fin 64) (j : Fin 4096) :
    matmul dot_S64x64_S64x4096_S64x4096_1_0_0_1_n_n none A B (constant (F := Ideal) S64x4096 .f32 0x00000000#32) (ix2 i j)
      = ∑ k : Fin 64, A (ix2 i k) * B (ix2 k j) := by
  simp only [matmul]
  rw [Ideal.matmul_constant_zero_apply, ← Equiv.sum_comp (contrEquiv1 dot_S64x64_S64x4096_S64x4096_1_0_0_1_n_n 64 rfl rfl).symm]
  refine Finset.sum_congr rfl fun k _ => ?_
  have hk := contrEquiv1_symm_val dot_S64x64_S64x4096_S64x4096_1_0_0_1_n_n 64 rfl rfl k
  have el : dot_S64x64_S64x4096_S64x4096_1_0_0_1_n_n.lhsIdx (ix2 i j) ((contrEquiv1 dot_S64x64_S64x4096_S64x4096_1_0_0_1_n_n 64 rfl rfl).symm k) = ix2 i k :=
    funext fun c => Fin.ext (by
      match c with
      | ⟨0, _⟩ => exact mmB_lhs0 _ _
      | ⟨1, _⟩ => exact (mmB_lhs1 _ _).trans hk)
  have er : dot_S64x64_S64x4096_S64x4096_1_0_0_1_n_n.rhsIdx (ix2 i j) ((contrEquiv1 dot_S64x64_S64x4096_S64x4096_1_0_0_1_n_n 64 rfl rfl).symm k) = ix2 k j :=
    funext fun c => Fin.ext (by
      match c with
      | ⟨0, _⟩ => exact (mmB_rhs0 _ _).trans hk
      | ⟨1, _⟩ => exact mmB_rhs1 _ _)
  rw [el, er]

/-! ### The product S64x4096 · S4096x64: its operand indices, axis by axis -/

theorem mmC_lhs0 (i : S64x64.Idx) (q : dot_S64x4096_S4096x64_S64x64_1_0_0_1_n_n.contr.Idx) : (dot_S64x4096_S4096x64_S64x64_1_0_0_1_n_n.lhsIdx i q 0).val = (i 0).val := by
  unfold DotDims.lhsIdx
  rw [dif_neg (show ¬(0 : Fin S64x4096.rank) ∈ dot_S64x4096_S4096x64_S64x64_1_0_0_1_n_n.lhsBatch by decide),
    dif_pos (show (0 : Fin S64x4096.rank) ∈ dot_S64x4096_S4096x64_S64x64_1_0_0_1_n_n.lhsNonContracting by decide)]
  rfl
theorem mmC_lhs1 (i : S64x64.Idx) (q : dot_S64x4096_S4096x64_S64x64_1_0_0_1_n_n.contr.Idx) : (dot_S64x4096_S4096x64_S64x64_1_0_0_1_n_n.lhsIdx i q 1).val = (q ⟨0, by decide⟩).val :=
  dot_S64x4096_S4096x64_S64x64_1_0_0_1_n_n.lhsIdx_val_of_single rfl i q
theorem mmC_rhs0 (i : S64x64.Idx) (q : dot_S64x4096_S4096x64_S64x64_1_0_0_1_n_n.contr.Idx) : (dot_S64x4096_S4096x64_S64x64_1_0_0_1_n_n.rhsIdx i q 0).val = (q ⟨0, by decide⟩).val :=
  dot_S64x4096_S4096x64_S64x64_1_0_0_1_n_n.rhsIdx_val_of_single rfl i q
theorem mmC_rhs1 (i : S64x64.Idx) (q : dot_S64x4096_S4096x64_S64x64_1_0_0_1_n_n.contr.Idx) : (dot_S64x4096_S4096x64_S64x64_1_0_0_1_n_n.rhsIdx i q 1).val = (i 1).val := by
  unfold DotDims.rhsIdx
  rw [dif_neg (show ¬(1 : Fin S4096x64.rank) ∈ dot_S64x4096_S4096x64_S64x64_1_0_0_1_n_n.rhsBatch by decide),
    dif_pos (show (1 : Fin S4096x64.rank) ∈ dot_S64x4096_S4096x64_S64x64_1_0_0_1_n_n.rhsNonContracting by decide)]
  rfl

/-- The product into a zero accumulator, entry `(i, j)`: the sum over the 4096 shared coordinates. -/
theorem mmC_apply {φ₁ φ₂ : FTy} (A : FVec Ideal S64x4096 φ₁) (B : FVec Ideal S4096x64 φ₂) (i : Fin 64) (j : Fin 64) :
    matmul dot_S64x4096_S4096x64_S64x64_1_0_0_1_n_n none A B (constant (F := Ideal) S64x64 .f32 0x00000000#32) (ix2 i j)
      = ∑ k : Fin 4096, A (ix2 i k) * B (ix2 k j) := by
  simp only [matmul]
  rw [Ideal.matmul_constant_zero_apply, ← Equiv.sum_comp (contrEquiv1 dot_S64x4096_S4096x64_S64x64_1_0_0_1_n_n 4096 rfl rfl).symm]
  refine Finset.sum_congr rfl fun k _ => ?_
  have hk := contrEquiv1_symm_val dot_S64x4096_S4096x64_S64x64_1_0_0_1_n_n 4096 rfl rfl k
  have el : dot_S64x4096_S4096x64_S64x64_1_0_0_1_n_n.lhsIdx (ix2 i j) ((contrEquiv1 dot_S64x4096_S4096x64_S64x64_1_0_0_1_n_n 4096 rfl rfl).symm k) = ix2 i k :=
    funext fun c => Fin.ext (by
      match c with
      | ⟨0, _⟩ => exact mmC_lhs0 _ _
      | ⟨1, _⟩ => exact (mmC_lhs1 _ _).trans hk)
  have er : dot_S64x4096_S4096x64_S64x64_1_0_0_1_n_n.rhsIdx (ix2 i j) ((contrEquiv1 dot_S64x4096_S4096x64_S64x64_1_0_0_1_n_n 4096 rfl rfl).symm k) = ix2 k j :=
    funext fun c => Fin.ext (by
      match c with
      | ⟨0, _⟩ => exact (mmC_rhs0 _ _).trans hk
      | ⟨1, _⟩ => exact mmC_rhs1 _ _)
  rw [el, er]

/-! ## The pieces of the body, read at an index -/

/-- The scaled block: `x · c`. -/
theorem pay4_apply (v : Vec Ideal S1x4096x64 .f32) (s : Fin 4096) (d : Fin 64) :
    k0_pay4 v (ix2 s d) = Spec.scl (blk1 (n := 4096) (d := 64) v) s d := by
  simp only [k0_pay4, mulf_apply, broadcast_apply, shapeCast_1ab_ab_apply]
  rfl

/-- The landmarks of a 4096 × 64 array: its 64 segments of 64 rows summed and divided by 64. -/
theorem lmk_apply (y : FVec Ideal S4096x64 .f32) (hc : S4096x64.ShapeCasts S64x64x64)
    (hr : S64x64x64.Reduces [1] S64x64) (hφ : FKind.Formats .f32)
    (hacc : (0x00000000#32 : BitVec 32) = FKind.add.neutral .f32 hφ) (j d : Fin 64) :
    divf (multiReduction .add [1] S64x64 (shapeCast S64x64x64 y hc) 0x00000000#32 hr hφ hacc)
        (broadcast S64x64 (Scalar.ofBits (F := Ideal) .f32 0x42800000#32)) (ix2 j d)
      = Spec.lmk (fun s e => y (ix2 s e)) j d := by
  rw [divf_apply, broadcast_apply, sum_mid_apply]
  simp only [seg_apply]
  rfl

/-- The landmarks of the scaled keys. -/
theorem pay7_apply (v : Vec Ideal S1x4096x64 .f32) (j d : Fin 64) :
    k0_pay7 v (ix2 j d) = Spec.klm (blk1 (n := 4096) (d := 64) v) j d := by
  unfold k0_pay7
  refine (lmk_apply (k0_pay4 v) _ _ _ _ j d).trans ?_
  unfold Spec.klm
  exact congrArg (fun f : Spec.Mat 4096 64 => Spec.lmk f j d) (funext fun s => funext fun e => pay4_apply v s e)

/-- The landmarks of the scaled queries (the body scales the block again in place). -/
theorem pay6_apply (v : Vec Ideal S1x4096x64 .f32) (j d : Fin 64) :
    k0_pay6 v (ix2 j d) = Spec.lmk (Spec.scl (blk1 (n := 4096) (d := 64) v)) j d := by
  unfold k0_pay6
  refine (lmk_apply (k0_pay4 v) _ _ _ _ j d).trans ?_
  exact congrArg (fun f : Spec.Mat 4096 64 => Spec.lmk f j d) (funext fun s => funext fun e => pay4_apply v s e)

/-- The softmax of the rows of a [64, n] array of logits `x`, as the body takes it once a vector `mx` holds each
    row's fold of `max`: the exponentials of the logits less the row's largest, over their sum along the row. -/
theorem softmax_apply {n : Nat} (x : FVec Ideal ⟨2, ![64, n]⟩ .f32) (mx : FVec Ideal S64 .f32)
    (hc : S64.ShapeCasts S64x1) (hb : S64x1.Broadcasts ⟨2, ![64, n]⟩) (hr : (⟨2, ![64, n]⟩ : Shape).Reduces [1] S64)
    (hφ : FKind.Formats .f32) (hacc : (0x00000000#32 : BitVec 32) = FKind.add.neutral .f32 hφ)
    (i : Fin 64) (j : Fin n)
    (hmx : mx (ix1 i) = (Finset.univ : Finset (Fin n)).fold max Spec.cNegInf (fun k => x (ix2 i k))) :
    divf
        (exp (subf x (broadcastTo ⟨2, ![64, n]⟩ (shapeCast S64x1
          (maximumf (broadcast S64 (Scalar.ofBits (F := Ideal) .f32 0xFF800000#32)) mx) hc) hb)))
        (broadcastTo ⟨2, ![64, n]⟩ (shapeCast S64x1
          (multiReduction .add [1] S64
            (exp (subf x (broadcastTo ⟨2, ![64, n]⟩ (shapeCast S64x1
              (maximumf (broadcast S64 (Scalar.ofBits (F := Ideal) .f32 0xFF800000#32)) mx) hc) hb)))
            0x00000000#32 hr hφ hacc) hc) hb)
        (ix2 i j)
      = Spec.smx (fun k => x (ix2 i k)) j := by
  have hm : maximumf (broadcast S64 (Scalar.ofBits (F := Ideal) .f32 0xFF800000#32)) mx (ix1 i)
      = Spec.rowMax (fun k => x (ix2 i k)) := by
    rw [maximumf_apply, broadcast_apply, hmx]; rfl
  rw [divf_apply, col_apply, sum_row_apply]
  simp only [exp_apply, subf_apply, col_apply, hm]
  rfl

/-- `P₂`: the softmax of the product of the two 64 × 64 landmark matrices. -/
theorem pay8_apply (v0 v4 : Vec Ideal S1x4096x64 .f32) (i j : Fin 64) :
    k0_pay8 v0 v4 (ix2 i j)
      = Spec.p2 (blk1 (n := 4096) (d := 64) v0) (blk1 (n := 4096) (d := 64) v4) i j := by
  unfold k0_pay8
  refine (softmax_apply _ _ _ _ _ _ _ i j (max_row_apply _ _ _ _ i)).trans ?_
  unfold Spec.p2
  refine congrArg (fun f => Spec.smx f j) (funext fun k => ?_)
  refine (mmA_apply _ _ i k).trans ?_
  unfold Spec.lg2
  refine Finset.sum_congr rfl fun e _ => ?_
  rw [truncf_apply, transpose_ix2_apply, truncf_apply, pay6_apply, pay7_apply]

/-- The logits of `P₃`: the query landmarks against every scaled key. -/
theorem pay9_apply (v0 v4 : Vec Ideal S1x4096x64 .f32) (i : Fin 64) (s : Fin 4096) :
    k0_pay9 v0 v4 (ix2 i s)
      = Spec.lg3 (blk1 (n := 4096) (d := 64) v0) (blk1 (n := 4096) (d := 64) v4) i s := by
  unfold k0_pay9
  refine (mmB_apply _ _ i s).trans ?_
  unfold Spec.lg3
  refine Finset.sum_congr rfl fun e _ => ?_
  rw [truncf_apply, transpose_ix2_apply, truncf_apply, pay6_apply, pay4_apply]

/-- The fold of `max` along each row of those logits. -/
theorem pay10_apply (v0 v4 : Vec Ideal S1x4096x64 .f32) (i : Fin 64) :
    k0_pay10 v0 v4 (ix1 i)
      = (Finset.univ : Finset (Fin 4096)).fold max Spec.cNegInf (fun k => k0_pay9 v0 v4 (ix2 i k)) := by
  unfold k0_pay10
  exact max_row_apply _ _ _ _ i

/-- The last store's value from the logits `x`, their row folds `mx` and the value block `w`: softmax of the rows
    of `x`, times `w`. -/
theorem pay3_apply (w : FVec Ideal S4096x64 .f32) (x : FVec Ideal S64x4096 .f32) (mx : FVec Ideal S64 .f32) (i d : Fin 64)
    (hmx : mx (ix1 i) = (Finset.univ : Finset (Fin 4096)).fold max Spec.cNegInf (fun k => x (ix2 i k))) :
    k0_pay3 w x mx (ix3 (0 : Fin 1) i d) = ∑ s : Fin 4096, Spec.smx (fun k => x (ix2 i k)) s * w (ix2 s d) := by
  unfold k0_pay3
  refine (shapeCast_ab_1ab_apply _ _ 0 i d).trans ?_
  refine (mmC_apply _ _ i d).trans ?_
  refine Finset.sum_congr rfl fun s _ => congrArg₂ (· * ·) ?_ rfl
  exact softmax_apply _ _ _ _ _ _ _ i s hmx

/-! ## The three stores -/

theorem offsets_zero : (![0, 0, 0] : Fin 3 → Nat) = fun _ => 0 := by
  funext a
  match a with
  | ⟨0, _⟩ => rfl
  | ⟨1, _⟩ => rfl
  | ⟨2, _⟩ => rfl

theorem out0_3_apply (x0 x1 x2 : Vec Ideal S1x4096x64 .f32) (j d : Fin 64) :
    out0_3 (F := Ideal) x0 x1 x2 (ix3 0 j d) = Spec.klm (blk1 (n := 4096) (d := 64) x1) j d := by
  unfold out0_3
  rw [View.canon_unit_zero offsets_zero]
  simp only [View.ld_unit_zero (S := S1x4096x64) offsets_zero]
  unfold k0_pay1
  refine (shapeCast_ab_1ab_apply _ _ 0 j d).trans ?_
  exact pay7_apply x1 j d

theorem out0_4_apply (x0 x1 x2 : Vec Ideal S1x4096x64 .f32) (i j : Fin 64) :
    out0_4 (F := Ideal) x0 x1 x2 (ix3 0 i j) = Spec.p2 (blk1 (n := 4096) (d := 64) x0) (blk1 (n := 4096) (d := 64) x1) i j := by
  unfold out0_4
  rw [View.canon_unit_zero offsets_zero]
  simp only [View.ld_unit_zero (S := S1x4096x64) offsets_zero]
  unfold k0_pay2
  refine (shapeCast_ab_1ab_apply _ _ 0 i j).trans ?_
  exact pay8_apply x0 x1 i j

theorem out0_5_apply (x0 x1 x2 : Vec Ideal S1x4096x64 .f32) (i d : Fin 64) :
    out0_5 (F := Ideal) x0 x1 x2 (ix3 0 i d)
      = Spec.kvv (blk1 (n := 4096) (d := 64) x0) (blk1 (n := 4096) (d := 64) x1) (blk1 (n := 4096) (d := 64) x2) i d := by
  unfold out0_5
  rw [View.canon_unit_zero offsets_zero]
  simp only [View.ld_unit_zero (S := S1x4096x64) offsets_zero]
  refine (pay3_apply (k0_pay5 x2) (k0_pay9 x0 x1) (k0_pay10 x0 x1) i d (pay10_apply x0 x1 i)).trans ?_
  unfold Spec.kvv Spec.p3
  refine Finset.sum_congr rfl fun s _ => congrArg₂ (· * ·)
    (congrArg (fun f => Spec.smx f s) (funext fun k => pay9_apply x0 x1 i k)) ?_
  unfold k0_pay5
  exact shapeCast_1ab_ab_apply _ _ s d

end Cert.KernelIdeal.KBodyA

end
-- ==== Proof.KBodyB.lean ====
/-
  What one grid point of the second kernel writes, entry by entry: from the point's blocks `q` (4096 × 64), the
  landmarks `L` and a 64 × 64 matrix `W`, the product `softmax (q̃ Lᵀ) · W`.

  The block is computed in five stretches, each read here at one entry: the product `q̃ Lᵀ` (a sum over the 64 inner
  coordinates, the second factor transposed), each row's maximum (a fold of `max` from `-∞`, then once more against
  `-∞`), the exponentials of the differences, their row sums, and the product of the quotients with `W`.
-/
import proofs.«407147_j5119601017043_3_alg».proof.Proof.Gen.KernelIdeal.Frame
import proofs.«407147_j5119601017043_3_alg».proof.Proof.Spec
import proofs.«407147_j5119601017043_3_alg».proof.Proof.Views
import Idealize.ShloMosaic.Lib.ValueIdx
import Idealize.ShloMosaic.Lib.ValueLayout
import Idealize.ShloMosaic.PureOps.Ideal.Laws

set_option maxRecDepth 16384

noncomputable section

namespace Cert.KernelIdeal.KBodyB

open Cert.KernelIdeal Cert.KernelIdeal.Gen Idealize.ShloMosaic Idealize.ShloMosaic.ValueIdx Cert.Views

/-! ## The product's index maps, axis by axis -/

theorem lhs_mm_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl

theorem lhs_mm_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q

theorem rhs_mm_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q

theorem rhs_mm_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- A [4096,64] × [64,64] product into the zero accumulator, at (s, j): the sum over the 64 inner coordinates. -/
theorem mm_apply (A : FVec Ideal S4096x64 .bf16) (B : FVec Ideal S64x64 .bf16) (s : Fin 4096) (j : Fin 64) :
    matmul dot_S4096x64_S64x64_S4096x64_1_0_0_1_n_n none A B (constant (F := Ideal) S4096x64 .f32 0x00000000#32) (ix2 s j)
      = ∑ k : Fin 64, A (ix2 s k) * B (ix2 k j) := by
  simp only [matmul]
  rw [Ideal.matmul_constant_zero_apply,
    ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 s j)
      ((contrEquiv1 dot_S4096x64_S64x64_S4096x64_1_0_0_1_n_n 64 rfl rfl).symm k) = ix2 s k := funext fun a => Fin.ext (by
    match a with
    | ⟨0, _⟩ => exact lhs_mm_0 _ _
    | ⟨1, _⟩ => exact (lhs_mm_1 _ _).trans hk)
  have er : dot_S4096x64_S64x64_S4096x64_1_0_0_1_n_n.rhsIdx (ix2 s j)
      ((contrEquiv1 dot_S4096x64_S64x64_S4096x64_1_0_0_1_n_n 64 rfl rfl).symm k) = ix2 k j := funext fun a => Fin.ext (by
    match a with
    | ⟨0, _⟩ => exact (rhs_mm_0 _ _).trans hk
    | ⟨1, _⟩ => exact rhs_mm_1 _ _)
  rw [el, er]

/-! ## A column of row values spread over the 64 lanes -/

/-- A vector of row values [a], viewed as a column [a,1] and spread over [a,b], reads at (s, j) the value of row s. -/
theorem col_apply {α : Type} {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (s : Fin a) (j : Fin b) :
    broadcastTo ⟨2, ![a, b]⟩ (shapeCast ⟨2, ![a, 1]⟩ v h1) h2 (ix2 s j) = v (ix1 s) := by
  refine (broadcastTo_apply _ h2 (ix2 s j) (ix2 s (0 : Fin 1)) fun ax => ?_).trans ?_
  · match ax with
    | ⟨0, _⟩ =>
      show s.val = if a = 1 then 0 else s.val
      split
      · have := s.isLt; omega
      · rfl
    | ⟨1, _⟩ => rfl
  · exact shapeCast_apply v h1 _ _ (by
      rw [Shape.rowMajor_val_two, Shape.rowMajor_val_one]
      show s.val = s.val * 1 + 0
      omega)

/-! ## The two lane reductions of a [4096,64] array -/

/-- The row maximum: the fold of max from the accumulator's value over the row's 64 entries. -/
theorem rowmax_apply (X : FVec Ideal S4096x64 .f32) (h : S4096x64.Reduces [1] S4096) (hφ : FKind.Formats .f32)
    (hacc : (0xFF800000#32 : BitVec 32) = 0xFF800000#32) (s : Fin 4096) :
    multiReduction .maximumf [1] S4096 X 0xFF800000#32 h hφ hacc (ix1 s)
      = (Finset.univ : Finset (Fin 64)).fold max Spec.cNegInf (fun k => X (ix2 s k)) := by
  refine (Ideal.multiReduction_maximumf_single X 0xFF800000#32 h hφ hacc (ix1 s)).trans ?_
  have e : (X ∘ h.lift (ix1 s)) = fun k : Fin 64 => X (ix2 s k) :=
    funext fun k => congrArg X (funext fun c => Fin.ext (by
      match c with
      | ⟨0, _⟩ => rfl
      | ⟨1, _⟩ => rfl))
  rw [e]
  rfl

/-- The row sum: the sum of the row's 64 entries. -/
theorem rowsum_apply (Y : FVec Ideal S4096x64 .f32) (h : S4096x64.Reduces [1] S4096) (hφ : FKind.Formats .f32)
    (hacc : (0x00000000#32 : BitVec 32) = 0x00000000#32) (s : Fin 4096) :
    multiReduction .add [1] S4096 Y 0x00000000#32 h hφ hacc (ix1 s) = ∑ k : Fin 64, Y (ix2 s k) := by
  refine (Ideal.multiReduction_add_single Y 0x00000000#32 h hφ hacc (ix1 s)).trans ?_
  refine Finset.sum_congr rfl fun k _ => congrArg Y (funext fun c => Fin.ext (by
    match c with
    | ⟨0, _⟩ => rfl
    | ⟨1, _⟩ => rfl))

/-- The exponential, entry by entry. -/
theorem exp_apply {s : Shape} {φ : FTy} (a : FVec Ideal s φ) (i : s.Idx) : exp a i = Ideal.exp (a i) := rfl

/-! ## The row softmax of a [4096,64] array -/

/-- Each entry less its row's maximum. -/
theorem shift_apply (X : FVec Ideal S4096x64 .f32) (h : S4096x64.Reduces [1] S4096) (hφ : FKind.Formats .f32)
    (hacc : (0xFF800000#32 : BitVec 32) = 0xFF800000#32) (h1 : S4096.ShapeCasts S4096x1) (h2 : S4096x1.Broadcasts S4096x64)
    (s : Fin 4096) (j : Fin 64) :
    subf X (broadcastTo S4096x64 (shapeCast S4096x1
        (maximumf (broadcast S4096 (Scalar.ofBits (F := Ideal) .f32 0xFF800000#32))
          (multiReduction .maximumf [1] S4096 X 0xFF800000#32 h hφ hacc)) h1) h2) (ix2 s j)
      = X (ix2 s j) - Spec.rowMax (fun k => X (ix2 s k)) := by
  rw [subf_apply, col_apply, maximumf_apply, broadcast_apply, rowmax_apply]
  rfl

/-- An array divided by its row sums, entry by entry. -/
theorem normalise_apply (Y : FVec Ideal S4096x64 .f32) (h : S4096x64.Reduces [1] S4096) (hφ : FKind.Formats .f32)
    (hacc : (0x00000000#32 : BitVec 32) = 0x00000000#32) (h1 : S4096.ShapeCasts S4096x1) (h2 : S4096x1.Broadcasts S4096x64)
    (s : Fin 4096) (j : Fin 64) :
    divf Y (broadcastTo S4096x64 (shapeCast S4096x1 (multiReduction .add [1] S4096 Y 0x00000000#32 h hφ hacc) h1) h2) (ix2 s j)
      = Ideal.div (Y (ix2 s j)) (∑ k : Fin 64, Y (ix2 s k)) := by
  rw [divf_apply, col_apply, rowsum_apply]

/-- A row's softmax from its exponentials: if row s of Y holds exp (f k − max f), then Y over its row sums holds softmax f. -/
theorem softmax_of (Y : FVec Ideal S4096x64 .f32) (f : Fin 64 → EReal) (s : Fin 4096)
    (hY : ∀ k, Y (ix2 s k) = Ideal.exp (f k - Spec.rowMax f))
    (h : S4096x64.Reduces [1] S4096) (hφ : FKind.Formats .f32)
    (hacc : (0x00000000#32 : BitVec 32) = 0x00000000#32) (h1 : S4096.ShapeCasts S4096x1) (h2 : S4096x1.Broadcasts S4096x64)
    (j : Fin 64) :
    divf Y (broadcastTo S4096x64 (shapeCast S4096x1 (multiReduction .add [1] S4096 Y 0x00000000#32 h hφ hacc) h1) h2) (ix2 s j)
      = Spec.smx f j := by
  rw [normalise_apply, hY j]
  unfold Spec.smx
  exact congrArg _ (Finset.sum_congr rfl fun k _ => hY k)

/-! ## The logits: the scaled queries against the landmarks -/

theorem logit_apply (v0 : Vec Ideal S1x4096x64 .f32) (v4 : Vec Ideal S1x64x64 .f32)
    (h0 : S1x4096x64.ShapeCasts S4096x64) (h4 : S1x64x64.ShapeCasts S64x64) (hb : FTy.bits .bf16 < FTy.bits .f32)
    (ht : S64x64.Transposes [1, 0] S64x64) (s : Fin 4096) (j : Fin 64) :
    matmul dot_S4096x64_S64x64_S4096x64_1_0_0_1_n_n none
        (truncf .bf16 (mulf (shapeCast S4096x64 v0 h0) (broadcast S4096x64 (Scalar.ofBits (F := Ideal) .f32 0x3EB504F3#32))) hb)
        (transpose S64x64 [1, 0] (truncf .bf16 (shapeCast S64x64 v4 h4) hb) ht)
        (constant (F := Ideal) S4096x64 .f32 0x00000000#32) (ix2 s j)
      = Spec.lg1 (blk1 (n := 4096) (d := 64) v0) (blk1 (n := 64) (d := 64) v4) s j := by
  rw [mm_apply]
  unfold Spec.lg1 Spec.scl
  refine Finset.sum_congr rfl fun k _ => ?_
  rw [truncf_apply, mulf_apply, broadcast_apply, shapeCast_1ab_ab_apply, transpose_ix2_apply, truncf_apply,
    shapeCast_1ab_ab_apply]
  rfl

/-! ## The stored block -/

theorem pay_apply (v0 : Vec Ideal S1x4096x64 .f32) (v4 v6 : Vec Ideal S1x64x64 .f32) (s : Fin 4096) (d : Fin 64) :
    k1_pay1 (F := Ideal) v0 v4 v6 (ix3 0 s d)
      = Spec.mm (Spec.p1 (blk1 (n := 4096) (d := 64) v0) (blk1 (n := 64) (d := 64) v4)) (blk1 (n := 64) (d := 64) v6) s d := by
  unfold k1_pay1
  refine (shapeCast_ab_1ab_apply _ _ 0 s d).trans ?_
  rw [mm_apply]
  unfold Spec.mm
  refine Finset.sum_congr rfl fun k _ => ?_
  refine congr (congrArg HMul.hMul ?_) ?_
  · rw [truncf_apply]
    refine softmax_of _ (Spec.lg1 (blk1 (n := 4096) (d := 64) v0) (blk1 (n := 64) (d := 64) v4) s) s (fun k' => ?_) _ _ _ _ _ k
    rw [exp_apply, shift_apply]
    exact congrArg Ideal.exp (congr (congrArg HSub.hSub (logit_apply v0 v4 _ _ _ _ s k'))
      (congrArg Spec.rowMax (funext fun k => logit_apply v0 v4 _ _ _ _ s k)))
  · rw [truncf_apply, shapeCast_1ab_ab_apply]
    rfl

theorem out1_3_apply (x0 : Vec Ideal S1x4096x64 .f32) (x1 x2 : Vec Ideal S1x64x64 .f32) (s : Fin 4096) (d : Fin 64) :
    out1_3 (F := Ideal) x0 x1 x2 (ix3 0 s d)
      = Spec.mm (Spec.p1 (blk1 (n := 4096) (d := 64) x0) (blk1 (n := 64) (d := 64) x1)) (blk1 (n := 64) (d := 64) x2) s d := by
  have hz : (![0, 0, 0] : Fin 3 → Nat) = fun _ => 0 := by
    funext a
    match a with
    | ⟨0, _⟩ => rfl
    | ⟨1, _⟩ => rfl
    | ⟨2, _⟩ => rfl
  unfold out1_3
  rw [View.canon_unit_zero hz]
  simp only [View.ld_unit_zero (S := S1x4096x64) hz, View.ld_unit_zero (S := S1x64x64) hz]
  exact pay_apply x0 x1 x2 s d

end Cert.KernelIdeal.KBodyB

end
-- ==== Proof.KArr.lean ====
/-
  The arrays at the boundaries of the kernel program: the three inputs re-laid one matrix per head; after the first
  launch the landmark, `P₂` and `P₃ v` arrays, head by head; after the second launch the result array; and the final
  re-laying back to [4, 16, 4096, 64].
-/
import proofs.«407147_j5119601017043_3_alg».proof.Proof.Gen.KernelIdeal.Frame
import proofs.«407147_j5119601017043_3_alg».proof.Proof.Spec
import proofs.«407147_j5119601017043_3_alg».proof.Proof.Views
import proofs.«407147_j5119601017043_3_alg».proof.Proof.KBodyA
import proofs.«407147_j5119601017043_3_alg».proof.Proof.KBodyB
import Idealize.ShloMosaic.Lib.ValueIdx
import Idealize.ShloMosaic.Lib.Pipeline.Value

set_option maxRecDepth 16384

noncomputable section

namespace Cert.KernelIdeal.KArr

open Cert.KernelIdeal Cert.KernelIdeal.Gen Idealize.ShloMosaic Idealize.ShloMosaic.TcCoe Idealize.ShloMosaic.ValueIdx Idealize.SL.Sem Cert.Views
open Idealize.ShloMosaic.Pipeline (Dat)

variable (m : (ℓ : Loc nD τ sig) → Buf (Elt Ideal) ℓ) (ρ : Dev nD → PrngReg) (c : Dev nD)

/-- An array with three axes from a function of its three coordinates. -/
def arr3 {a b d : Nat} (g : Fin a → Fin b → Fin d → EReal) : (⟨3, ![a, b, d]⟩ : Shape).Idx → EReal :=
  fun i => g (i 0) (i 1) (i 2)

/-- Both launches run over the 64 heads. -/
theorem hN0 : cfg0.N = 64 := by decide
theorem hN1 : cfg1.N = 64 := by decide

/-! ## The re-laid inputs -/

/-- Entering the first launch, head `n` of the re-laid first input is head `n` of the argument: the re-laying keeps the
    row-major position, and `16·(n / 16) + n % 16 = n`. -/
theorem in_q (n : Fin 64) (s : Fin 4096) (d : Fin 64) :
    V1 m ρ c main_v0 (ix3 n s d) = bat4 (n := 4096) (d := 64) (m ((c : Thread nD τ).loc main_arg0)) n s d := by
  show StableHlo.after hostOps0 (W0 m ρ c) (Proc.devRef .tc main_v0) (ix3 n s d) = _
  after_results
  show shapeCast S64x4096x64 (m ((c : Thread nD τ).loc main_arg0) : S4x16x4096x64.Idx → EReal)
      shapeCasts_S4x16x4096x64_S64x4096x64 (ix3 n s d) = _
  refine (shapeCast_apply _ _ (ix3 n s d) (ix4 (hb n) (hh n) s d) ?_).trans rfl
  rw [Shape.rowMajor_val_three, Shape.rowMajor_val_four]
  show (((n.val / 16) * 16 + n.val % 16) * 4096 + s.val) * 64 + d.val = (n.val * 4096 + s.val) * 64 + d.val
  have := Nat.div_add_mod n.val 16
  omega
theorem in_k (n : Fin 64) (s : Fin 4096) (d : Fin 64) :
    V1 m ρ c main_v1 (ix3 n s d) = bat4 (n := 4096) (d := 64) (m ((c : Thread nD τ).loc main_arg1)) n s d := by
  show StableHlo.after hostOps0 (W0 m ρ c) (Proc.devRef .tc main_v1) (ix3 n s d) = _
  after_results
  show shapeCast S64x4096x64 (m ((c : Thread nD τ).loc main_arg1) : S4x16x4096x64.Idx → EReal)
      shapeCasts_S4x16x4096x64_S64x4096x64 (ix3 n s d) = _
  refine (shapeCast_apply _ _ (ix3 n s d) (ix4 (hb n) (hh n) s d) ?_).trans rfl
  rw [Shape.rowMajor_val_three, Shape.rowMajor_val_four]
  show (((n.val / 16) * 16 + n.val % 16) * 4096 + s.val) * 64 + d.val = (n.val * 4096 + s.val) * 64 + d.val
  have := Nat.div_add_mod n.val 16
  omega
theorem in_v (n : Fin 64) (s : Fin 4096) (d : Fin 64) :
    V1 m ρ c main_v2 (ix3 n s d) = bat4 (n := 4096) (d := 64) (m ((c : Thread nD τ).loc main_arg2)) n s d := by
  show StableHlo.after hostOps0 (W0 m ρ c) (Proc.devRef .tc main_v2) (ix3 n s d) = _
  after_results
  show shapeCast S64x4096x64 (m ((c : Thread nD τ).loc main_arg2) : S4x16x4096x64.Idx → EReal)
      shapeCasts_S4x16x4096x64_S64x4096x64 (ix3 n s d) = _
  refine (shapeCast_apply _ _ (ix3 n s d) (ix4 (hb n) (hh n) s d) ?_).trans rfl
  rw [Shape.rowMajor_val_three, Shape.rowMajor_val_four]
  show (((n.val / 16) * 16 + n.val % 16) * 4096 + s.val) * 64 + d.val = (n.val * 4096 + s.val) * 64 + d.val
  have := Nat.div_add_mod n.val 16
  omega

/-! ## Blocks: at point `t` every window's block is head `t` of its array -/

section blocks
variable (V : (c : Dev nD) → (b : Ref sig .tc) → Buf (Elt Ideal) ((c : Thread nD τ).loc b))

/-- The printed index maps, decided over the grid: block index `(t, 0, 0)` at point `t`. -/
theorem idx0_0 : ∀ t : Fin cfg0.N, win0_0.index t 0 = t.val ∧ win0_0.index t 1 = 0 ∧ win0_0.index t 2 = 0 :=
  (by decide +kernel : ∀ t : Fin grid0.N, _)
theorem idx0_1 : ∀ t : Fin cfg0.N, win0_1.index t 0 = t.val ∧ win0_1.index t 1 = 0 ∧ win0_1.index t 2 = 0 :=
  (by decide +kernel : ∀ t : Fin grid0.N, _)
theorem idx0_2 : ∀ t : Fin cfg0.N, win0_2.index t 0 = t.val ∧ win0_2.index t 1 = 0 ∧ win0_2.index t 2 = 0 :=
  (by decide +kernel : ∀ t : Fin grid0.N, _)
theorem idx0_3 : ∀ t : Fin cfg0.N, win0_3.index t 0 = t.val ∧ win0_3.index t 1 = 0 ∧ win0_3.index t 2 = 0 :=
  (by decide +kernel : ∀ t : Fin grid0.N, _)
theorem idx0_4 : ∀ t : Fin cfg0.N, win0_4.index t 0 = t.val ∧ win0_4.index t 1 = 0 ∧ win0_4.index t 2 = 0 :=
  (by decide +kernel : ∀ t : Fin grid0.N, _)
theorem idx0_5 : ∀ t : Fin cfg0.N, win0_5.index t 0 = t.val ∧ win0_5.index t 1 = 0 ∧ win0_5.index t 2 = 0 :=
  (by decide +kernel : ∀ t : Fin grid0.N, _)
theorem idx1_0 : ∀ t : Fin cfg1.N, win1_0.index t 0 = t.val ∧ win1_0.index t 1 = 0 ∧ win1_0.index t 2 = 0 :=
  (by decide +kernel : ∀ t : Fin grid1.N, _)
theorem idx1_1 : ∀ t : Fin cfg1.N, win1_1.index t 0 = t.val ∧ win1_1.index t 1 = 0 ∧ win1_1.index t 2 = 0 :=
  (by decide +kernel : ∀ t : Fin grid1.N, _)
theorem idx1_2 : ∀ t : Fin cfg1.N, win1_2.index t 0 = t.val ∧ win1_2.index t 1 = 0 ∧ win1_2.index t 2 = 0 :=
  (by decide +kernel : ∀ t : Fin grid1.N, _)
theorem idx1_3 : ∀ t : Fin cfg1.N, win1_3.index t 0 = t.val ∧ win1_3.index t 1 = 0 ∧ win1_3.index t 2 = 0 :=
  (by decide +kernel : ∀ t : Fin grid1.N, _)

/-- An input window's block at point `t`, read at an index: the block's coordinate in the array is block index × block size
    + the coordinate inside the block. -/
theorem blk0_0 (t : Fin cfg0.N) (s : Fin 4096) (e : Fin 64) :
    (iblk0 V c 0 t : Vec Ideal S1x4096x64 .f32) (ix3 0 s e) = (V c main_v0 : S64x4096x64.Idx → EReal) (ix3 (Fin.cast hN0 t) s e) := by
  obtain ⟨e0, e1, e2⟩ := idx0_0 t
  unfold iblk0
  rw [View.read_apply]
  show V c main_v0 _ = V c main_v0 _
  congr 1
  funext a
  apply Fin.ext
  match a with
  | ⟨0, _⟩ => show win0_0.index t 0 * 1 + 1 * 0 = t.val; omega
  | ⟨1, _⟩ => show win0_0.index t 1 * 4096 + 1 * s.val = s.val; omega
  | ⟨2, _⟩ => show win0_0.index t 2 * 64 + 1 * e.val = e.val; omega
theorem mat0_0 (t : Fin cfg0.N) :
    blk1 (n := 4096) (d := 64) (iblk0 V c 0 t) = bat3 (n := 4096) (d := 64) (V c main_v0) (Fin.cast hN0 t) :=
  funext fun s => funext fun e => blk0_0 c V t s e
theorem blk0_1 (t : Fin cfg0.N) (s : Fin 4096) (e : Fin 64) :
    (iblk0 V c 1 t : Vec Ideal S1x4096x64 .f32) (ix3 0 s e) = (V c main_v1 : S64x4096x64.Idx → EReal) (ix3 (Fin.cast hN0 t) s e) := by
  obtain ⟨e0, e1, e2⟩ := idx0_1 t
  unfold iblk0
  rw [View.read_apply]
  show V c main_v1 _ = V c main_v1 _
  congr 1
  funext a
  apply Fin.ext
  match a with
  | ⟨0, _⟩ => show win0_1.index t 0 * 1 + 1 * 0 = t.val; omega
  | ⟨1, _⟩ => show win0_1.index t 1 * 4096 + 1 * s.val = s.val; omega
  | ⟨2, _⟩ => show win0_1.index t 2 * 64 + 1 * e.val = e.val; omega
theorem mat0_1 (t : Fin cfg0.N) :
    blk1 (n := 4096) (d := 64) (iblk0 V c 1 t) = bat3 (n := 4096) (d := 64) (V c main_v1) (Fin.cast hN0 t) :=
  funext fun s => funext fun e => blk0_1 c V t s e
theorem blk0_2 (t : Fin cfg0.N) (s : Fin 4096) (e : Fin 64) :
    (iblk0 V c 2 t : Vec Ideal S1x4096x64 .f32) (ix3 0 s e) = (V c main_v2 : S64x4096x64.Idx → EReal) (ix3 (Fin.cast hN0 t) s e) := by
  obtain ⟨e0, e1, e2⟩ := idx0_2 t
  unfold iblk0
  rw [View.read_apply]
  show V c main_v2 _ = V c main_v2 _
  congr 1
  funext a
  apply Fin.ext
  match a with
  | ⟨0, _⟩ => show win0_2.index t 0 * 1 + 1 * 0 = t.val; omega
  | ⟨1, _⟩ => show win0_2.index t 1 * 4096 + 1 * s.val = s.val; omega
  | ⟨2, _⟩ => show win0_2.index t 2 * 64 + 1 * e.val = e.val; omega
theorem mat0_2 (t : Fin cfg0.N) :
    blk1 (n := 4096) (d := 64) (iblk0 V c 2 t) = bat3 (n := 4096) (d := 64) (V c main_v2) (Fin.cast hN0 t) :=
  funext fun s => funext fun e => blk0_2 c V t s e
theorem blk1_0 (t : Fin cfg1.N) (s : Fin 4096) (e : Fin 64) :
    (iblk1 V c 0 t : Vec Ideal S1x4096x64 .f32) (ix3 0 s e) = (V c main_v0 : S64x4096x64.Idx → EReal) (ix3 (Fin.cast hN1 t) s e) := by
  obtain ⟨e0, e1, e2⟩ := idx1_0 t
  unfold iblk1
  rw [View.read_apply]
  show V c main_v0 _ = V c main_v0 _
  congr 1
  funext a
  apply Fin.ext
  match a with
  | ⟨0, _⟩ => show win1_0.index t 0 * 1 + 1 * 0 = t.val; omega
  | ⟨1, _⟩ => show win1_0.index t 1 * 4096 + 1 * s.val = s.val; omega
  | ⟨2, _⟩ => show win1_0.index t 2 * 64 + 1 * e.val = e.val; omega
theorem mat1_0 (t : Fin cfg1.N) :
    blk1 (n := 4096) (d := 64) (iblk1 V c 0 t) = bat3 (n := 4096) (d := 64) (V c main_v0) (Fin.cast hN1 t) :=
  funext fun s => funext fun e => blk1_0 c V t s e
theorem blk1_1 (t : Fin cfg1.N) (s : Fin 64) (e : Fin 64) :
    (iblk1 V c 1 t : Vec Ideal S1x64x64 .f32) (ix3 0 s e) = (V c main_v3_0 : S64x64x64.Idx → EReal) (ix3 (Fin.cast hN1 t) s e) := by
  obtain ⟨e0, e1, e2⟩ := idx1_1 t
  unfold iblk1
  rw [View.read_apply]
  show V c main_v3_0 _ = V c main_v3_0 _
  congr 1
  funext a
  apply Fin.ext
  match a with
  | ⟨0, _⟩ => show win1_1.index t 0 * 1 + 1 * 0 = t.val; omega
  | ⟨1, _⟩ => show win1_1.index t 1 * 64 + 1 * s.val = s.val; omega
  | ⟨2, _⟩ => show win1_1.index t 2 * 64 + 1 * e.val = e.val; omega
theorem mat1_1 (t : Fin cfg1.N) :
    blk1 (n := 64) (d := 64) (iblk1 V c 1 t) = bat3 (n := 64) (d := 64) (V c main_v3_0) (Fin.cast hN1 t) :=
  funext fun s => funext fun e => blk1_1 c V t s e
theorem blk1_2 (t : Fin cfg1.N) (s : Fin 64) (e : Fin 64) :
    (iblk1 V c 2 t : Vec Ideal S1x64x64 .f32) (ix3 0 s e) = (V c main_v130 : S64x64x64.Idx → EReal) (ix3 (Fin.cast hN1 t) s e) := by
  obtain ⟨e0, e1, e2⟩ := idx1_2 t
  unfold iblk1
  rw [View.read_apply]
  show V c main_v130 _ = V c main_v130 _
  congr 1
  funext a
  apply Fin.ext
  match a with
  | ⟨0, _⟩ => show win1_2.index t 0 * 1 + 1 * 0 = t.val; omega
  | ⟨1, _⟩ => show win1_2.index t 1 * 64 + 1 * s.val = s.val; omega
  | ⟨2, _⟩ => show win1_2.index t 2 * 64 + 1 * e.val = e.val; omega
theorem mat1_2 (t : Fin cfg1.N) :
    blk1 (n := 64) (d := 64) (iblk1 V c 2 t) = bat3 (n := 64) (d := 64) (V c main_v130) (Fin.cast hN1 t) :=
  funext fun s => funext fun e => blk1_2 c V t s e

/-! ## What each output window's buffer holds after the body, at an index of the block -/

theorem klm_point (x0 x1 x2 : Vec Ideal S1x4096x64 .f32) (K : Spec.Mat 4096 64)
    (hK : blk1 (n := 4096) (d := 64) x1 = K) (y : S1x64x64.Idx) :
    out0_3 (F := Ideal) x0 x1 x2 y = Spec.klm K (y 1) (y 2) := by
  have hy : y = ix3 0 (y 1) (y 2) := by
    funext a
    match a with
    | ⟨0, _⟩ => exact Fin.ext (by show (y 0).val = 0; have : (y 0).val < 1 := (y 0).isLt; omega)
    | ⟨1, _⟩ => rfl
    | ⟨2, _⟩ => rfl
  rw [← hK]
  refine (congrArg (out0_3 (F := Ideal) x0 x1 x2) hy).trans ?_
  exact KBodyA.out0_3_apply x0 x1 x2 (y 1) (y 2)

theorem p2_point (x0 x1 x2 : Vec Ideal S1x4096x64 .f32) (Q K : Spec.Mat 4096 64)
    (hQ : blk1 (n := 4096) (d := 64) x0 = Q) (hK : blk1 (n := 4096) (d := 64) x1 = K) (y : S1x64x64.Idx) :
    out0_4 (F := Ideal) x0 x1 x2 y = Spec.p2 Q K (y 1) (y 2) := by
  have hy : y = ix3 0 (y 1) (y 2) := by
    funext a
    match a with
    | ⟨0, _⟩ => exact Fin.ext (by show (y 0).val = 0; have : (y 0).val < 1 := (y 0).isLt; omega)
    | ⟨1, _⟩ => rfl
    | ⟨2, _⟩ => rfl
  rw [← hQ, ← hK]
  refine (congrArg (out0_4 (F := Ideal) x0 x1 x2) hy).trans ?_
  exact KBodyA.out0_4_apply x0 x1 x2 (y 1) (y 2)

theorem kvv_point (x0 x1 x2 : Vec Ideal S1x4096x64 .f32) (Q K U : Spec.Mat 4096 64)
    (hQ : blk1 (n := 4096) (d := 64) x0 = Q) (hK : blk1 (n := 4096) (d := 64) x1 = K)
    (hU : blk1 (n := 4096) (d := 64) x2 = U) (y : S1x64x64.Idx) :
    out0_5 (F := Ideal) x0 x1 x2 y = Spec.kvv Q K U (y 1) (y 2) := by
  have hy : y = ix3 0 (y 1) (y 2) := by
    funext a
    match a with
    | ⟨0, _⟩ => exact Fin.ext (by show (y 0).val = 0; have : (y 0).val < 1 := (y 0).isLt; omega)
    | ⟨1, _⟩ => rfl
    | ⟨2, _⟩ => rfl
  rw [← hQ, ← hK, ← hU]
  refine (congrArg (out0_5 (F := Ideal) x0 x1 x2) hy).trans ?_
  exact KBodyA.out0_5_apply x0 x1 x2 (y 1) (y 2)

theorem out_point (x0 : Vec Ideal S1x4096x64 .f32) (x1 x2 : Vec Ideal S1x64x64 .f32) (Q : Spec.Mat 4096 64)
    (L W : Spec.Mat 64 64) (hQ : blk1 (n := 4096) (d := 64) x0 = Q) (hL : blk1 (n := 64) (d := 64) x1 = L)
    (hW : blk1 (n := 64) (d := 64) x2 = W) (y : S1x4096x64.Idx) :
    out1_3 (F := Ideal) x0 x1 x2 y = Spec.mm (Spec.p1 Q L) W (y 1) (y 2) := by
  have hy : y = ix3 0 (y 1) (y 2) := by
    funext a
    match a with
    | ⟨0, _⟩ => exact Fin.ext (by show (y 0).val = 0; have : (y 0).val < 1 := (y 0).isLt; omega)
    | ⟨1, _⟩ => rfl
    | ⟨2, _⟩ => rfl
  rw [← hQ, ← hL, ← hW]
  refine (congrArg (out1_3 (F := Ideal) x0 x1 x2) hy).trans ?_
  exact KBodyB.out1_3_apply x0 x1 x2 (y 1) (y 2)

/-! ## The first launch's three output arrays -/

/-- What point `t` writes back is its block of the head-by-head array. -/
theorem flushed0_3 (t : Fin cfg0.N) :
    (dat0 V c).flushed 3 t = ((cfg0.win 3).blk t).view.read (Elt Ideal)
      (arr3 fun n j d => Spec.klm (bat3 (n := 4096) (d := 64) (V c main_v1) n) j d) := by
  show (cfg0.win 3).cut (grid0.coords t) ((dat0 V c).after 3 t) = _
  rw [after0_3]
  funext y
  refine (klm_point (iblk0 V c 0 t) (iblk0 V c 1 t) (iblk0 V c 2 t) _ (mat0_1 c V t) _).trans ?_
  obtain ⟨e0, e1, e2⟩ := idx0_3 t
  have h0 : (((cfg0.win 3).blk t).view.emb y 0 : Fin 64) = Fin.cast hN0 t :=
    Fin.ext (by show win0_3.index t 0 * 1 + 1 * (y 0).val = t.val; have : (y 0).val < 1 := (y 0).isLt; omega)
  have h1 : (((cfg0.win 3).blk t).view.emb y 1 : Fin 64) = (cfg0.win 3).xinj (grid0.coords t) y 1 :=
    Fin.ext (by show win0_3.index t 1 * 64 + 1 * (y 1).val = (y 1).val; omega)
  have h2 : (((cfg0.win 3).blk t).view.emb y 2 : Fin 64) = (cfg0.win 3).xinj (grid0.coords t) y 2 :=
    Fin.ext (by show win0_3.index t 2 * 64 + 1 * (y 2).val = (y 2).val; omega)
  show _ = Spec.klm (bat3 (n := 4096) (d := 64) (V c main_v1) (((cfg0.win 3).blk t).view.emb y 0)) (((cfg0.win 3).blk t).view.emb y 1) (((cfg0.win 3).blk t).view.emb y 2)
  rw [h0, h1, h2]

/-- An index of the array is in point `t`'s block iff each coordinate is in the block's range on its axis. -/
theorem mem_blk0_3 (t : Fin cfg0.N) (i : S64x64x64.Idx) :
    i ∈ ((cfg0.win 3).blk t).view.set ↔ ∀ a : Fin 3, win0_3.index t a * S1x64x64.size a ≤ (i a).val ∧ (i a).val < win0_3.index t a * S1x64x64.size a + S1x64x64.size a := by
  show i ∈ ((View.whole main_v3_0).slice (win0_3.rect t)).set ↔ _
  rw [View.set_slice_whole, Rect.mem_set_unit]
  exact Iff.rfl

/-- Head `n`'s entries are covered by point `n`'s block. -/
theorem covered0_3 (i : S64x64x64.Idx) :
    ∃ t : Fin cfg0.N, (cfg0.win 3).flush t = true ∧ i ∈ ((cfg0.win 3).blk t).view.set := by
  have hi0 : (i 0).val < 64 := (i 0).isLt
  have hi1 : (i 1).val < 64 := (i 1).isLt
  have hi2 : (i 2).val < 64 := (i 2).isLt
  have ht : (i 0).val < cfg0.N := by rw [hN0]; exact hi0
  refine ⟨⟨(i 0).val, ht⟩, flush0_3 _, ?_⟩
  have e0 : win0_3.index ⟨(i 0).val, ht⟩ 0 = (i 0).val := (idx0_3 ⟨(i 0).val, ht⟩).1
  have e1 : win0_3.index ⟨(i 0).val, ht⟩ 1 = 0 := (idx0_3 ⟨(i 0).val, ht⟩).2.1
  have e2 : win0_3.index ⟨(i 0).val, ht⟩ 2 = 0 := (idx0_3 ⟨(i 0).val, ht⟩).2.2
  rw [mem_blk0_3]
  intro a
  match a with
  | ⟨0, _⟩ => show win0_3.index _ 0 * 1 ≤ (i 0).val ∧ (i 0).val < win0_3.index _ 0 * 1 + 1; rw [e0]; omega
  | ⟨1, _⟩ => show win0_3.index _ 1 * 64 ≤ (i 1).val ∧ (i 1).val < win0_3.index _ 1 * 64 + 64; rw [e1]; omega
  | ⟨2, _⟩ => show win0_3.index _ 2 * 64 ≤ (i 2).val ∧ (i 2).val < win0_3.index _ 2 * 64 + 64; rw [e2]; omega

/-- The landmark array after the first launch. -/
theorem final0_3 : (dat0 V c).arrAt 3 cfg0.N = arr3 fun n j d => Spec.klm (bat3 (n := 4096) (d := 64) (V c main_v1) n) j d :=
  (dat0 V c).arrAt_eq_of_cover 3 _ (fun t _ => flushed0_3 c V t) (covered0_3)

/-- What point `t` writes back is its block of the head-by-head array. -/
theorem flushed0_4 (t : Fin cfg0.N) :
    (dat0 V c).flushed 4 t = ((cfg0.win 4).blk t).view.read (Elt Ideal)
      (arr3 fun n j d => Spec.p2 (bat3 (n := 4096) (d := 64) (V c main_v0) n) (bat3 (n := 4096) (d := 64) (V c main_v1) n) j d) := by
  show (cfg0.win 4).cut (grid0.coords t) ((dat0 V c).after 4 t) = _
  rw [after0_4]
  funext y
  refine (p2_point (iblk0 V c 0 t) (iblk0 V c 1 t) (iblk0 V c 2 t) _ _ (mat0_0 c V t) (mat0_1 c V t) _).trans ?_
  obtain ⟨e0, e1, e2⟩ := idx0_4 t
  have h0 : (((cfg0.win 4).blk t).view.emb y 0 : Fin 64) = Fin.cast hN0 t :=
    Fin.ext (by show win0_4.index t 0 * 1 + 1 * (y 0).val = t.val; have : (y 0).val < 1 := (y 0).isLt; omega)
  have h1 : (((cfg0.win 4).blk t).view.emb y 1 : Fin 64) = (cfg0.win 4).xinj (grid0.coords t) y 1 :=
    Fin.ext (by show win0_4.index t 1 * 64 + 1 * (y 1).val = (y 1).val; omega)
  have h2 : (((cfg0.win 4).blk t).view.emb y 2 : Fin 64) = (cfg0.win 4).xinj (grid0.coords t) y 2 :=
    Fin.ext (by show win0_4.index t 2 * 64 + 1 * (y 2).val = (y 2).val; omega)
  show _ = Spec.p2 (bat3 (n := 4096) (d := 64) (V c main_v0) (((cfg0.win 4).blk t).view.emb y 0)) (bat3 (n := 4096) (d := 64) (V c main_v1) (((cfg0.win 4).blk t).view.emb y 0)) (((cfg0.win 4).blk t).view.emb y 1) (((cfg0.win 4).blk t).view.emb y 2)
  rw [h0, h1, h2]

/-- An index of the array is in point `t`'s block iff each coordinate is in the block's range on its axis. -/
theorem mem_blk0_4 (t : Fin cfg0.N) (i : S64x64x64.Idx) :
    i ∈ ((cfg0.win 4).blk t).view.set ↔ ∀ a : Fin 3, win0_4.index t a * S1x64x64.size a ≤ (i a).val ∧ (i a).val < win0_4.index t a * S1x64x64.size a + S1x64x64.size a := by
  show i ∈ ((View.whole main_v3_1).slice (win0_4.rect t)).set ↔ _
  rw [View.set_slice_whole, Rect.mem_set_unit]
  exact Iff.rfl

/-- Head `n`'s entries are covered by point `n`'s block. -/
theorem covered0_4 (i : S64x64x64.Idx) :
    ∃ t : Fin cfg0.N, (cfg0.win 4).flush t = true ∧ i ∈ ((cfg0.win 4).blk t).view.set := by
  have hi0 : (i 0).val < 64 := (i 0).isLt
  have hi1 : (i 1).val < 64 := (i 1).isLt
  have hi2 : (i 2).val < 64 := (i 2).isLt
  have ht : (i 0).val < cfg0.N := by rw [hN0]; exact hi0
  refine ⟨⟨(i 0).val, ht⟩, flush0_4 _, ?_⟩
  have e0 : win0_4.index ⟨(i 0).val, ht⟩ 0 = (i 0).val := (idx0_4 ⟨(i 0).val, ht⟩).1
  have e1 : win0_4.index ⟨(i 0).val, ht⟩ 1 = 0 := (idx0_4 ⟨(i 0).val, ht⟩).2.1
  have e2 : win0_4.index ⟨(i 0).val, ht⟩ 2 = 0 := (idx0_4 ⟨(i 0).val, ht⟩).2.2
  rw [mem_blk0_4]
  intro a
  match a with
  | ⟨0, _⟩ => show win0_4.index _ 0 * 1 ≤ (i 0).val ∧ (i 0).val < win0_4.index _ 0 * 1 + 1; rw [e0]; omega
  | ⟨1, _⟩ => show win0_4.index _ 1 * 64 ≤ (i 1).val ∧ (i 1).val < win0_4.index _ 1 * 64 + 64; rw [e1]; omega
  | ⟨2, _⟩ => show win0_4.index _ 2 * 64 ≤ (i 2).val ∧ (i 2).val < win0_4.index _ 2 * 64 + 64; rw [e2]; omega

/-- The `P₂` array after the first launch. -/
theorem final0_4 : (dat0 V c).arrAt 4 cfg0.N = arr3 fun n j d => Spec.p2 (bat3 (n := 4096) (d := 64) (V c main_v0) n) (bat3 (n := 4096) (d := 64) (V c main_v1) n) j d :=
  (dat0 V c).arrAt_eq_of_cover 4 _ (fun t _ => flushed0_4 c V t) (covered0_4)

/-- What point `t` writes back is its block of the head-by-head array. -/
theorem flushed0_5 (t : Fin cfg0.N) :
    (dat0 V c).flushed 5 t = ((cfg0.win 5).blk t).view.read (Elt Ideal)
      (arr3 fun n j d => Spec.kvv (bat3 (n := 4096) (d := 64) (V c main_v0) n) (bat3 (n := 4096) (d := 64) (V c main_v1) n) (bat3 (n := 4096) (d := 64) (V c main_v2) n) j d) := by
  show (cfg0.win 5).cut (grid0.coords t) ((dat0 V c).after 5 t) = _
  rw [after0_5]
  funext y
  refine (kvv_point (iblk0 V c 0 t) (iblk0 V c 1 t) (iblk0 V c 2 t) _ _ _ (mat0_0 c V t) (mat0_1 c V t) (mat0_2 c V t) _).trans ?_
  obtain ⟨e0, e1, e2⟩ := idx0_5 t
  have h0 : (((cfg0.win 5).blk t).view.emb y 0 : Fin 64) = Fin.cast hN0 t :=
    Fin.ext (by show win0_5.index t 0 * 1 + 1 * (y 0).val = t.val; have : (y 0).val < 1 := (y 0).isLt; omega)
  have h1 : (((cfg0.win 5).blk t).view.emb y 1 : Fin 64) = (cfg0.win 5).xinj (grid0.coords t) y 1 :=
    Fin.ext (by show win0_5.index t 1 * 64 + 1 * (y 1).val = (y 1).val; omega)
  have h2 : (((cfg0.win 5).blk t).view.emb y 2 : Fin 64) = (cfg0.win 5).xinj (grid0.coords t) y 2 :=
    Fin.ext (by show win0_5.index t 2 * 64 + 1 * (y 2).val = (y 2).val; omega)
  show _ = Spec.kvv (bat3 (n := 4096) (d := 64) (V c main_v0) (((cfg0.win 5).blk t).view.emb y 0)) (bat3 (n := 4096) (d := 64) (V c main_v1) (((cfg0.win 5).blk t).view.emb y 0)) (bat3 (n := 4096) (d := 64) (V c main_v2) (((cfg0.win 5).blk t).view.emb y 0)) (((cfg0.win 5).blk t).view.emb y 1) (((cfg0.win 5).blk t).view.emb y 2)
  rw [h0, h1, h2]

/-- An index of the array is in point `t`'s block iff each coordinate is in the block's range on its axis. -/
theorem mem_blk0_5 (t : Fin cfg0.N) (i : S64x64x64.Idx) :
    i ∈ ((cfg0.win 5).blk t).view.set ↔ ∀ a : Fin 3, win0_5.index t a * S1x64x64.size a ≤ (i a).val ∧ (i a).val < win0_5.index t a * S1x64x64.size a + S1x64x64.size a := by
  show i ∈ ((View.whole main_v3_2).slice (win0_5.rect t)).set ↔ _
  rw [View.set_slice_whole, Rect.mem_set_unit]
  exact Iff.rfl

/-- Head `n`'s entries are covered by point `n`'s block. -/
theorem covered0_5 (i : S64x64x64.Idx) :
    ∃ t : Fin cfg0.N, (cfg0.win 5).flush t = true ∧ i ∈ ((cfg0.win 5).blk t).view.set := by
  have hi0 : (i 0).val < 64 := (i 0).isLt
  have hi1 : (i 1).val < 64 := (i 1).isLt
  have hi2 : (i 2).val < 64 := (i 2).isLt
  have ht : (i 0).val < cfg0.N := by rw [hN0]; exact hi0
  refine ⟨⟨(i 0).val, ht⟩, flush0_5 _, ?_⟩
  have e0 : win0_5.index ⟨(i 0).val, ht⟩ 0 = (i 0).val := (idx0_5 ⟨(i 0).val, ht⟩).1
  have e1 : win0_5.index ⟨(i 0).val, ht⟩ 1 = 0 := (idx0_5 ⟨(i 0).val, ht⟩).2.1
  have e2 : win0_5.index ⟨(i 0).val, ht⟩ 2 = 0 := (idx0_5 ⟨(i 0).val, ht⟩).2.2
  rw [mem_blk0_5]
  intro a
  match a with
  | ⟨0, _⟩ => show win0_5.index _ 0 * 1 ≤ (i 0).val ∧ (i 0).val < win0_5.index _ 0 * 1 + 1; rw [e0]; omega
  | ⟨1, _⟩ => show win0_5.index _ 1 * 64 ≤ (i 1).val ∧ (i 1).val < win0_5.index _ 1 * 64 + 64; rw [e1]; omega
  | ⟨2, _⟩ => show win0_5.index _ 2 * 64 ≤ (i 2).val ∧ (i 2).val < win0_5.index _ 2 * 64 + 64; rw [e2]; omega

/-- The `P₃ v` array after the first launch. -/
theorem final0_5 : (dat0 V c).arrAt 5 cfg0.N = arr3 fun n j d => Spec.kvv (bat3 (n := 4096) (d := 64) (V c main_v0) n) (bat3 (n := 4096) (d := 64) (V c main_v1) n) (bat3 (n := 4096) (d := 64) (V c main_v2) n) j d :=
  (dat0 V c).arrAt_eq_of_cover 5 _ (fun t _ => flushed0_5 c V t) (covered0_5)

/-! ## The second launch's output array -/

/-- What point `t` writes back is its block of the head-by-head array. -/
theorem flushed1_3 (t : Fin cfg1.N) :
    (dat1 V c).flushed 3 t = ((cfg1.win 3).blk t).view.read (Elt Ideal)
      (arr3 fun n j d => Spec.mm (Spec.p1 (bat3 (n := 4096) (d := 64) (V c main_v0) n) (bat3 (n := 64) (d := 64) (V c main_v3_0) n)) (bat3 (n := 64) (d := 64) (V c main_v130) n) j d) := by
  show (cfg1.win 3).cut (grid1.coords t) ((dat1 V c).after 3 t) = _
  rw [after1_3]
  funext y
  refine (out_point (iblk1 V c 0 t) (iblk1 V c 1 t) (iblk1 V c 2 t) _ _ _ (mat1_0 c V t) (mat1_1 c V t) (mat1_2 c V t) _).trans ?_
  obtain ⟨e0, e1, e2⟩ := idx1_3 t
  have h0 : (((cfg1.win 3).blk t).view.emb y 0 : Fin 64) = Fin.cast hN1 t :=
    Fin.ext (by show win1_3.index t 0 * 1 + 1 * (y 0).val = t.val; have : (y 0).val < 1 := (y 0).isLt; omega)
  have h1 : (((cfg1.win 3).blk t).view.emb y 1 : Fin 4096) = (cfg1.win 3).xinj (grid1.coords t) y 1 :=
    Fin.ext (by show win1_3.index t 1 * 4096 + 1 * (y 1).val = (y 1).val; omega)
  have h2 : (((cfg1.win 3).blk t).view.emb y 2 : Fin 64) = (cfg1.win 3).xinj (grid1.coords t) y 2 :=
    Fin.ext (by show win1_3.index t 2 * 64 + 1 * (y 2).val = (y 2).val; omega)
  show _ = Spec.mm (Spec.p1 (bat3 (n := 4096) (d := 64) (V c main_v0) (((cfg1.win 3).blk t).view.emb y 0)) (bat3 (n := 64) (d := 64) (V c main_v3_0) (((cfg1.win 3).blk t).view.emb y 0))) (bat3 (n := 64) (d := 64) (V c main_v130) (((cfg1.win 3).blk t).view.emb y 0)) (((cfg1.win 3).blk t).view.emb y 1) (((cfg1.win 3).blk t).view.emb y 2)
  rw [h0, h1, h2]

/-- An index of the array is in point `t`'s block iff each coordinate is in the block's range on its axis. -/
theorem mem_blk1_3 (t : Fin cfg1.N) (i : S64x4096x64.Idx) :
    i ∈ ((cfg1.win 3).blk t).view.set ↔ ∀ a : Fin 3, win1_3.index t a * S1x4096x64.size a ≤ (i a).val ∧ (i a).val < win1_3.index t a * S1x4096x64.size a + S1x4096x64.size a := by
  show i ∈ ((View.whole main_v131).slice (win1_3.rect t)).set ↔ _
  rw [View.set_slice_whole, Rect.mem_set_unit]
  exact Iff.rfl

/-- Head `n`'s entries are covered by point `n`'s block. -/
theorem covered1_3 (i : S64x4096x64.Idx) :
    ∃ t : Fin cfg1.N, (cfg1.win 3).flush t = true ∧ i ∈ ((cfg1.win 3).blk t).view.set := by
  have hi0 : (i 0).val < 64 := (i 0).isLt
  have hi1 : (i 1).val < 4096 := (i 1).isLt
  have hi2 : (i 2).val < 64 := (i 2).isLt
  have ht : (i 0).val < cfg1.N := by rw [hN1]; exact hi0
  refine ⟨⟨(i 0).val, ht⟩, flush1_3 _, ?_⟩
  have e0 : win1_3.index ⟨(i 0).val, ht⟩ 0 = (i 0).val := (idx1_3 ⟨(i 0).val, ht⟩).1
  have e1 : win1_3.index ⟨(i 0).val, ht⟩ 1 = 0 := (idx1_3 ⟨(i 0).val, ht⟩).2.1
  have e2 : win1_3.index ⟨(i 0).val, ht⟩ 2 = 0 := (idx1_3 ⟨(i 0).val, ht⟩).2.2
  rw [mem_blk1_3]
  intro a
  match a with
  | ⟨0, _⟩ => show win1_3.index _ 0 * 1 ≤ (i 0).val ∧ (i 0).val < win1_3.index _ 0 * 1 + 1; rw [e0]; omega
  | ⟨1, _⟩ => show win1_3.index _ 1 * 4096 ≤ (i 1).val ∧ (i 1).val < win1_3.index _ 1 * 4096 + 4096; rw [e1]; omega
  | ⟨2, _⟩ => show win1_3.index _ 2 * 64 ≤ (i 2).val ∧ (i 2).val < win1_3.index _ 2 * 64 + 64; rw [e2]; omega

/-- The result array after the second launch. -/
theorem final1_3 : (dat1 V c).arrAt 3 cfg1.N = arr3 fun n j d => Spec.mm (Spec.p1 (bat3 (n := 4096) (d := 64) (V c main_v0) n) (bat3 (n := 64) (d := 64) (V c main_v3_0) n)) (bat3 (n := 64) (d := 64) (V c main_v130) n) j d :=
  (dat1 V c).arrAt_eq_of_cover 3 _ (fun t _ => flushed1_3 c V t) (covered1_3)

end blocks

/-! ## The arrays at the boundaries -/

/-- After the first launch: the landmarks of the scaled keys, head by head. -/
theorem regA_klm (n j d : Fin 64) :
    V2 m ρ c main_v3_0 (ix3 n j d) = Spec.klm (bat3 (n := 4096) (d := 64) (V1 m ρ c main_v1) n) j d :=
  congrFun ((W2_arr m ρ c 3).trans (final0_3 c (V1 m ρ))) (ix3 n j d)
/-- After the first launch: `P₂`, head by head. -/
theorem regA_p2 (n i j : Fin 64) :
    V2 m ρ c main_v3_1 (ix3 n i j)
      = Spec.p2 (bat3 (n := 4096) (d := 64) (V1 m ρ c main_v0) n) (bat3 (n := 4096) (d := 64) (V1 m ρ c main_v1) n) i j :=
  congrFun ((W2_arr m ρ c 4).trans (final0_4 c (V1 m ρ))) (ix3 n i j)
/-- After the first launch: `P₃ v`, head by head. -/
theorem regA_kvv (n i d : Fin 64) :
    V2 m ρ c main_v3_2 (ix3 n i d)
      = Spec.kvv (bat3 (n := 4096) (d := 64) (V1 m ρ c main_v0) n) (bat3 (n := 4096) (d := 64) (V1 m ρ c main_v1) n)
          (bat3 (n := 4096) (d := 64) (V1 m ρ c main_v2) n) i d :=
  congrFun ((W2_arr m ρ c 5).trans (final0_5 c (V1 m ρ))) (ix3 n i d)
/-- The first launch leaves its first input array as it found it: an input window's array is never written. -/
theorem regA_keep_q : V2 m ρ c main_v0 = V1 m ρ c main_v0 :=
  (W2_arr m ρ c 0).trans (((dat0 (V1 m ρ) c).arrAt_in 0 rfl cfg0.N).trans (A_eq0 (V1 m ρ) c 0))

/-- After the second launch: `softmax (q̃ Lᵀ) · W` of the three arrays it read, head by head. -/
theorem regB_out (n : Fin 64) (s : Fin 4096) (d : Fin 64) :
    V4 m ρ c main_v131 (ix3 n s d)
      = Spec.mm (Spec.p1 (bat3 (n := 4096) (d := 64) (V3 m ρ c main_v0) n) (bat3 (n := 64) (d := 64) (V3 m ρ c main_v3_0) n))
          (bat3 (n := 64) (d := 64) (V3 m ρ c main_v130) n) s d :=
  congrFun ((W4_arr m ρ c 3).trans (final1_3 c (V3 m ρ))) (ix3 n s d)

/-- The result is the second launch's array re-laid: entry (b, h, s, d) is entry (16 b + h, s, d). -/
theorem out_reshape (b : Fin 4) (h : Fin 16) (s : Fin 4096) (d : Fin 64) :
    W5 m ρ c (Proc.devRef .tc main_v132) (ix4 b h s d) = V4 m ρ c main_v131 (ix3 (hd b h) s d) := by
  show StableHlo.after hostOps2 (W4 m ρ c) (Proc.devRef .tc main_v132) (ix4 b h s d) = _
  after_results
  show shapeCast S4x16x4096x64 (W4 m ρ c (Proc.devRef .tc main_v131) : S64x4096x64.Idx → EReal)
      shapeCasts_S64x4096x64_S4x16x4096x64 (ix4 b h s d) = _
  refine (shapeCast_apply _ _ (ix4 b h s d) (ix3 (hd b h) s d) ?_).trans rfl
  rw [Shape.rowMajor_val_three, Shape.rowMajor_val_four]
  show ((16 * b.val + h.val) * 4096 + s.val) * 64 + d.val = (((b.val * 16 + h.val) * 4096 + s.val) * 64 + d.val)
  omega

end Cert.KernelIdeal.KArr

end
-- ==== Proof.KHostT.lean ====
/-
  The host operations between the two launches, as functions of the two arrays they read (`A`: one 64 × 64 matrix per
  head; `B`: likewise): the identity matrix, the normalising scalar `1 / (max column sum · max row sum)` over all heads,
  `Z₀ = s Aᵀ`, one step `Z ↦ (¼ Z)(13 I − AZ (15 I − AZ (7 I − AZ)))`, and `Z₆ · B`.
-/
import proofs.«407147_j5119601017043_3_alg».proof.Proof.Gen.KernelIdeal

set_option maxRecDepth 16384

noncomputable section

namespace Cert.KernelIdeal.KHostT

open Cert.KernelIdeal Idealize.ShloMosaic
open Cert.KernelIdeal.Facts₀ Cert.KernelIdeal.Facts

variable {F : FTy → Type} [FloatOps F]

/-- The 64 × 64 identity: 1 where the row index equals the column index. -/
def eye2 : FVec F S64x64 .f32 :=
  uitofp .f32 (cmpi .eq (addi (iotaInDim S64x64 32 0) (broadcastInDim S64x64 ![] bcast_S_S64x64 (constantI S_ 32 0#32))) (iotaInDim S64x64 32 1))
/-- The identity with a leading unit axis. -/
def eyeB : FVec F S1x64x64 .f32 := broadcastInDim S1x64x64 ![1, 2] bcast_S64x64_S1x64x64_1_2 (eye2 (F := F))
/-- The largest absolute column sum over all heads. -/
def colMax (A : FVec F S64x64x64 .f32) : FVec F S_ .f32 :=
  Host.reduce FloatOps.maximumf (Host.reduceAdd (Host.absf A) (constant S_ .f32 0x00000000#32) reducesTo_S64x64x64_S64x64_d1 h_S_) (constant S_ .f32 0xFF800000#32) reducesTo_S64x64_S_d0_1 h_S_
/-- The largest absolute row sum over all heads. -/
def rowMaxG (A : FVec F S64x64x64 .f32) : FVec F S_ .f32 :=
  Host.reduce FloatOps.maximumf (Host.reduceAdd (Host.absf A) (constant S_ .f32 0x00000000#32) reducesTo_S64x64x64_S64x64_d2 h_S_) (constant S_ .f32 0xFF800000#32) reducesTo_S64x64_S_d0_1 h_S_
/-- The normalising scalar. -/
def scale (A : FVec F S64x64x64 .f32) : FVec F S_ .f32 :=
  Host.divf (constant S_ .f32 0x3F800000#32) (mulf (colMax A) (rowMaxG A))
/-- `Z₀ = s Aᵀ`. -/
def z0 (A : FVec F S64x64x64 .f32) : FVec F S64x64x64 .f32 :=
  mulf (broadcastInDim S64x64x64 ![] bcast_S_S64x64x64 (scale A)) (transpose S64x64x64 [0, 2, 1] A transposes_S64x64x64_S64x64x64_0_2_1)
/-- `w · I` for every head, `w` an f32 word. -/
def cI (w : BitVec 32) : FVec F S64x64x64 .f32 :=
  broadcastInDim S64x64x64 ![0, 1, 2] bcast_S1x64x64_S64x64x64_0_1_2 (mulf (broadcastInDim S1x64x64 ![] bcast_S_S1x64x64 (constant S_ .f32 w)) (eyeB (F := F)))
/-- The product of two arrays, head by head. -/
def dot3 (l r : FVec F S64x64x64 .f32) : FVec F S64x64x64 .f32 :=
  Host.dotGeneral (φ₁ := .f32) (φ₂ := .f32) dot_S64x64x64_S64x64x64_S64x64x64_2_1_1_2_0_0 (some .fp32) l r
/-- One step of the iteration. -/
def step (A Z : FVec F S64x64x64 .f32) : FVec F S64x64x64 .f32 :=
  dot3 (mulf (broadcastInDim S64x64x64 ![] bcast_S_S64x64x64 (constant S_ .f32 0x3E800000#32)) Z)
    (subf (cI 0x41500000#32) (dot3 (dot3 A Z) (subf (cI 0x41700000#32) (dot3 (dot3 A Z) (subf (cI 0x40E00000#32) (dot3 A Z))))))
/-- Six steps from `Z₀`, then the product with `B`. -/
def wT (A B : FVec F S64x64x64 .f32) : FVec F S64x64x64 .f32 :=
  dot3 (step A (step A (step A (step A (step A (step A (z0 A))))))) B

end Cert.KernelIdeal.KHostT

end
-- ==== Proof.KHost.lean ====
/-
  The host operations between the two launches, read off the operation list: the third operand of the second launch
  is the chain's term of the `P₂` and `P₃ v` arrays the first launch left, and the operations write neither the re-laid
  first input nor the landmark array.
-/
import proofs.«407147_j5119601017043_3_alg».proof.Proof.Gen.KernelIdeal.Frame
import proofs.«407147_j5119601017043_3_alg».proof.Proof.KHostT
import Idealize.ShloMosaic.Lib.StableHlo.Run
import Idealize.ShloMosaic.PureOps.Ideal

set_option maxRecDepth 16384

noncomputable section

namespace Cert.KernelIdeal.KHost

open Cert.KernelIdeal Cert.KernelIdeal.Gen Idealize.ShloMosaic Idealize.ShloMosaic.TcCoe Idealize.SL.Sem

/-- What the steps read and never write: the two arrays the first launch left, and the identity matrix. -/
structure Inv {F : FTy → Type} [FloatOps F] (A B : FVec F S64x64x64 .f32) (X : Valuation τ sig (Elt F)) : Prop where
  a : X (Proc.devRef .tc main_v3_1) = A
  b : X (Proc.devRef .tc main_v3_2) = B
  i : X (Proc.devRef .tc main_v10) = KHostT.eyeB

/-- The operations up to `Z₀`: the identity matrix, the normalising scalar, `Z₀ = s Aᵀ`. -/
abbrev pre {F : FTy → Type} [FloatOps F] : List (HloOp τ sig (Elt F)) :=
  [ StableHlo.nullary main_v4 (iotaInDim S64x64 32 0),
    StableHlo.nullary main_v5 (iotaInDim S64x64 32 1),
    StableHlo.nullary main_c (constantI S_ 32 0#32),
    StableHlo.unary main_c main_v6 (broadcastInDim S64x64 ![] bcast_S_S64x64 : (⟨S_, .i32⟩ : BufTy).Contents (Elt F) → (⟨S64x64, .i32⟩ : BufTy).Contents (Elt F)),
    StableHlo.binary main_v4 main_v6 main_v7 (addi : (⟨S64x64, .i32⟩ : BufTy).Contents (Elt F) → (⟨S64x64, .i32⟩ : BufTy).Contents (Elt F) → (⟨S64x64, .i32⟩ : BufTy).Contents (Elt F)),
    StableHlo.binary main_v7 main_v5 main_v8 (cmpi .eq : (⟨S64x64, .i32⟩ : BufTy).Contents (Elt F) → (⟨S64x64, .i32⟩ : BufTy).Contents (Elt F) → (⟨S64x64, .i1⟩ : BufTy).Contents (Elt F)),
    StableHlo.unary main_v8 main_v9 (uitofp .f32 : (⟨S64x64, .i1⟩ : BufTy).Contents (Elt F) → (⟨S64x64, .f32⟩ : BufTy).Contents (Elt F)),
    StableHlo.unary main_v9 main_v10 (broadcastInDim S1x64x64 ![1, 2] bcast_S64x64_S1x64x64_1_2 : (⟨S64x64, .f32⟩ : BufTy).Contents (Elt F) → (⟨S1x64x64, .f32⟩ : BufTy).Contents (Elt F)),
    StableHlo.unary main_v3_1 main_v11 (Host.absf : (⟨S64x64x64, .f32⟩ : BufTy).Contents (Elt F) → (⟨S64x64x64, .f32⟩ : BufTy).Contents (Elt F)),
    StableHlo.nullary main_cst (constant S_ .f32 0x00000000#32),
    StableHlo.binary main_v11 main_cst main_v12 ((fun x v => Host.reduceAdd x v reducesTo_S64x64x64_S64x64_d1 h_S_) : (⟨S64x64x64, .f32⟩ : BufTy).Contents (Elt F) → (⟨S_, .f32⟩ : BufTy).Contents (Elt F) → (⟨S64x64, .f32⟩ : BufTy).Contents (Elt F)),
    StableHlo.nullary main_cst_0 (constant S_ .f32 0xFF800000#32),
    StableHlo.binary main_v12 main_cst_0 main_v13 ((fun x v => Host.reduce FloatOps.maximumf x v reducesTo_S64x64_S_d0_1 h_S_) : (⟨S64x64, .f32⟩ : BufTy).Contents (Elt F) → (⟨S_, .f32⟩ : BufTy).Contents (Elt F) → (⟨S_, .f32⟩ : BufTy).Contents (Elt F)),
    StableHlo.unary main_v3_1 main_v14 (Host.absf : (⟨S64x64x64, .f32⟩ : BufTy).Contents (Elt F) → (⟨S64x64x64, .f32⟩ : BufTy).Contents (Elt F)),
    StableHlo.nullary main_cst_1 (constant S_ .f32 0x00000000#32),
    StableHlo.binary main_v14 main_cst_1 main_v15 ((fun x v => Host.reduceAdd x v reducesTo_S64x64x64_S64x64_d2 h_S_) : (⟨S64x64x64, .f32⟩ : BufTy).Contents (Elt F) → (⟨S_, .f32⟩ : BufTy).Contents (Elt F) → (⟨S64x64, .f32⟩ : BufTy).Contents (Elt F)),
    StableHlo.nullary main_cst_2 (constant S_ .f32 0xFF800000#32),
    StableHlo.binary main_v15 main_cst_2 main_v16 ((fun x v => Host.reduce FloatOps.maximumf x v reducesTo_S64x64_S_d0_1 h_S_) : (⟨S64x64, .f32⟩ : BufTy).Contents (Elt F) → (⟨S_, .f32⟩ : BufTy).Contents (Elt F) → (⟨S_, .f32⟩ : BufTy).Contents (Elt F)),
    StableHlo.binary main_v13 main_v16 main_v17 (mulf : (⟨S_, .f32⟩ : BufTy).Contents (Elt F) → (⟨S_, .f32⟩ : BufTy).Contents (Elt F) → (⟨S_, .f32⟩ : BufTy).Contents (Elt F)),
    StableHlo.nullary main_cst_3 (constant S_ .f32 0x3F800000#32),
    StableHlo.binary main_cst_3 main_v17 main_v18 (Host.divf : (⟨S_, .f32⟩ : BufTy).Contents (Elt F) → (⟨S_, .f32⟩ : BufTy).Contents (Elt F) → (⟨S_, .f32⟩ : BufTy).Contents (Elt F)),
    StableHlo.unary main_v3_1 main_v19 ((transpose S64x64x64 [0, 2, 1] · transposes_S64x64x64_S64x64x64_0_2_1) : (⟨S64x64x64, .f32⟩ : BufTy).Contents (Elt F) → (⟨S64x64x64, .f32⟩ : BufTy).Contents (Elt F)),
    StableHlo.unary main_v18 main_v20 (broadcastInDim S64x64x64 ![] bcast_S_S64x64x64 : (⟨S_, .f32⟩ : BufTy).Contents (Elt F) → (⟨S64x64x64, .f32⟩ : BufTy).Contents (Elt F)),
    StableHlo.binary main_v20 main_v19 main_v21 (mulf : (⟨S64x64x64, .f32⟩ : BufTy).Contents (Elt F) → (⟨S64x64x64, .f32⟩ : BufTy).Contents (Elt F) → (⟨S64x64x64, .f32⟩ : BufTy).Contents (Elt F)) ]

/-- The last operation: the product with the `P₃ v` array. -/
abbrev last {F : FTy → Type} [FloatOps F] : List (HloOp τ sig (Elt F)) :=
  [ StableHlo.binary main_v129 main_v3_2 main_v130 ((fun l r => Host.dotGeneral dot_S64x64x64_S64x64x64_S64x64x64_2_1_1_2_0_0 (some .fp32) l r) : (⟨S64x64x64, .f32⟩ : BufTy).Contents (Elt F) → (⟨S64x64x64, .f32⟩ : BufTy).Contents (Elt F) → (⟨S64x64x64, .f32⟩ : BufTy).Contents (Elt F)) ]

/-! ## The first stretch and the last operation -/

theorem pre.keep {F : FTy → Type} [FloatOps F] (X : Valuation τ sig (Elt F)) (r : Ref sig .tc)
    (hr : r ∉ [main_v4, main_v5, main_c, main_v6, main_v7, main_v8, main_v9, main_v10, main_v11, main_cst, main_v12, main_cst_0, main_v13, main_v14, main_cst_1, main_v15, main_cst_2, main_v16, main_v17, main_cst_3, main_v18, main_v19, main_v20, main_v21]) :
    StableHlo.after (pre (F := F)) X (Proc.devRef .tc r) = X (Proc.devRef .tc r) :=
  StableHlo.after_of_writes_sub _ X (W := [main_v4, main_v5, main_c, main_v6, main_v7, main_v8, main_v9, main_v10, main_v11, main_cst, main_v12, main_cst_0, main_v13, main_v14, main_cst_1, main_v15, main_cst_2, main_v16, main_v17, main_cst_3, main_v18, main_v19, main_v20, main_v21]) (by
    simp only [List.Forall, StableHlo.nullary_writes, StableHlo.unary_writes, StableHlo.binary_writes,
      Finset.singleton_subset_iff, List.mem_toFinset]
    repeat' apply And.intro
    all_goals exact List.mem_map_of_mem (by decide)) hr
/-- The first stretch leaves the identity matrix in its buffer. -/
theorem pre.eye {F : FTy → Type} [FloatOps F] (X : Valuation τ sig (Elt F)) :
    StableHlo.after (pre (F := F)) X (Proc.devRef .tc main_v10) = KHostT.eyeB := by
  simp only [pre]
  after_results_simp <;> rfl
/-- The first stretch leaves `Z₀` of the `P₂` array. -/
theorem pre.z0 {F : FTy → Type} [FloatOps F] (X : Valuation τ sig (Elt F)) :
    StableHlo.after (pre (F := F)) X (Proc.devRef .tc main_v21) = KHostT.z0 (X (Proc.devRef .tc main_v3_1)) := by
  simp only [pre]
  after_results_simp <;> rfl
theorem pre.inv {F : FTy → Type} [FloatOps F] (X : Valuation τ sig (Elt F)) :
    Inv (X (Proc.devRef .tc main_v3_1)) (X (Proc.devRef .tc main_v3_2)) (StableHlo.after (pre (F := F)) X) :=
  ⟨pre.keep X main_v3_1 (by decide), pre.keep X main_v3_2 (by decide), pre.eye X⟩
/-- The last operation multiplies the sixth iterate by the `P₃ v` array. -/
theorem last.out {F : FTy → Type} [FloatOps F] (X : Valuation τ sig (Elt F)) :
    StableHlo.after (last (F := F)) X (Proc.devRef .tc main_v130)
      = KHostT.dot3 (X (Proc.devRef .tc main_v129)) (X (Proc.devRef .tc main_v3_2)) := by
  simp only [last]
  after_results_simp <;> rfl

/-! ## The six steps -/

set_option hygiene false in
/-- One step's operations, its result, and what it leaves alone; the six steps differ in the buffers' names only. -/
local macro "step_chunk " nm:ident z:ident kv:ident c7:ident b7:ident m7:ident i7:ident s7:ident d7:ident c15:ident b15:ident m15:ident i15:ident s15:ident d15:ident c13:ident b13:ident m13:ident i13:ident s13:ident cq:ident bq:ident mq:ident out:ident : command => do
  let outN := Lean.mkIdent (nm.getId ++ `out)
  let keepN := Lean.mkIdent (nm.getId ++ `keep)
  let invN := Lean.mkIdent (nm.getId ++ `inv)
  `(abbrev $nm {F : FTy → Type} [FloatOps F] : List (HloOp τ sig (Elt F)) :=
      [ StableHlo.binary main_v3_1 $z $kv ((fun l r => Host.dotGeneral dot_S64x64x64_S64x64x64_S64x64x64_2_1_1_2_0_0 (some .fp32) l r) : (⟨S64x64x64, .f32⟩ : BufTy).Contents (Elt F) → (⟨S64x64x64, .f32⟩ : BufTy).Contents (Elt F) → (⟨S64x64x64, .f32⟩ : BufTy).Contents (Elt F)),
        StableHlo.nullary $c7 (constant S_ .f32 0x40E00000#32),
        StableHlo.unary $c7 $b7 (broadcastInDim S1x64x64 ![] bcast_S_S1x64x64 : (⟨S_, .f32⟩ : BufTy).Contents (Elt F) → (⟨S1x64x64, .f32⟩ : BufTy).Contents (Elt F)),
        StableHlo.binary $b7 main_v10 $m7 (mulf : (⟨S1x64x64, .f32⟩ : BufTy).Contents (Elt F) → (⟨S1x64x64, .f32⟩ : BufTy).Contents (Elt F) → (⟨S1x64x64, .f32⟩ : BufTy).Contents (Elt F)),
        StableHlo.unary $m7 $i7 (broadcastInDim S64x64x64 ![0, 1, 2] bcast_S1x64x64_S64x64x64_0_1_2 : (⟨S1x64x64, .f32⟩ : BufTy).Contents (Elt F) → (⟨S64x64x64, .f32⟩ : BufTy).Contents (Elt F)),
        StableHlo.binary $i7 $kv $s7 (subf : (⟨S64x64x64, .f32⟩ : BufTy).Contents (Elt F) → (⟨S64x64x64, .f32⟩ : BufTy).Contents (Elt F) → (⟨S64x64x64, .f32⟩ : BufTy).Contents (Elt F)),
        StableHlo.binary $kv $s7 $d7 ((fun l r => Host.dotGeneral dot_S64x64x64_S64x64x64_S64x64x64_2_1_1_2_0_0 (some .fp32) l r) : (⟨S64x64x64, .f32⟩ : BufTy).Contents (Elt F) → (⟨S64x64x64, .f32⟩ : BufTy).Contents (Elt F) → (⟨S64x64x64, .f32⟩ : BufTy).Contents (Elt F)),
        StableHlo.nullary $c15 (constant S_ .f32 0x41700000#32),
        StableHlo.unary $c15 $b15 (broadcastInDim S1x64x64 ![] bcast_S_S1x64x64 : (⟨S_, .f32⟩ : BufTy).Contents (Elt F) → (⟨S1x64x64, .f32⟩ : BufTy).Contents (Elt F)),
        StableHlo.binary $b15 main_v10 $m15 (mulf : (⟨S1x64x64, .f32⟩ : BufTy).Contents (Elt F) → (⟨S1x64x64, .f32⟩ : BufTy).Contents (Elt F) → (⟨S1x64x64, .f32⟩ : BufTy).Contents (Elt F)),
        StableHlo.unary $m15 $i15 (broadcastInDim S64x64x64 ![0, 1, 2] bcast_S1x64x64_S64x64x64_0_1_2 : (⟨S1x64x64, .f32⟩ : BufTy).Contents (Elt F) → (⟨S64x64x64, .f32⟩ : BufTy).Contents (Elt F)),
        StableHlo.binary $i15 $d7 $s15 (subf : (⟨S64x64x64, .f32⟩ : BufTy).Contents (Elt F) → (⟨S64x64x64, .f32⟩ : BufTy).Contents (Elt F) → (⟨S64x64x64, .f32⟩ : BufTy).Contents (Elt F)),
        StableHlo.binary $kv $s15 $d15 ((fun l r => Host.dotGeneral dot_S64x64x64_S64x64x64_S64x64x64_2_1_1_2_0_0 (some .fp32) l r) : (⟨S64x64x64, .f32⟩ : BufTy).Contents (Elt F) → (⟨S64x64x64, .f32⟩ : BufTy).Contents (Elt F) → (⟨S64x64x64, .f32⟩ : BufTy).Contents (Elt F)),
        StableHlo.nullary $c13 (constant S_ .f32 0x41500000#32),
        StableHlo.unary $c13 $b13 (broadcastInDim S1x64x64 ![] bcast_S_S1x64x64 : (⟨S_, .f32⟩ : BufTy).Contents (Elt F) → (⟨S1x64x64, .f32⟩ : BufTy).Contents (Elt F)),
        StableHlo.binary $b13 main_v10 $m13 (mulf : (⟨S1x64x64, .f32⟩ : BufTy).Contents (Elt F) → (⟨S1x64x64, .f32⟩ : BufTy).Contents (Elt F) → (⟨S1x64x64, .f32⟩ : BufTy).Contents (Elt F)),
        StableHlo.unary $m13 $i13 (broadcastInDim S64x64x64 ![0, 1, 2] bcast_S1x64x64_S64x64x64_0_1_2 : (⟨S1x64x64, .f32⟩ : BufTy).Contents (Elt F) → (⟨S64x64x64, .f32⟩ : BufTy).Contents (Elt F)),
        StableHlo.binary $i13 $d15 $s13 (subf : (⟨S64x64x64, .f32⟩ : BufTy).Contents (Elt F) → (⟨S64x64x64, .f32⟩ : BufTy).Contents (Elt F) → (⟨S64x64x64, .f32⟩ : BufTy).Contents (Elt F)),
        StableHlo.nullary $cq (constant S_ .f32 0x3E800000#32),
        StableHlo.unary $cq $bq (broadcastInDim S64x64x64 ![] bcast_S_S64x64x64 : (⟨S_, .f32⟩ : BufTy).Contents (Elt F) → (⟨S64x64x64, .f32⟩ : BufTy).Contents (Elt F)),
        StableHlo.binary $bq $z $mq (mulf : (⟨S64x64x64, .f32⟩ : BufTy).Contents (Elt F) → (⟨S64x64x64, .f32⟩ : BufTy).Contents (Elt F) → (⟨S64x64x64, .f32⟩ : BufTy).Contents (Elt F)),
        StableHlo.binary $mq $s13 $out ((fun l r => Host.dotGeneral dot_S64x64x64_S64x64x64_S64x64x64_2_1_1_2_0_0 (some .fp32) l r) : (⟨S64x64x64, .f32⟩ : BufTy).Contents (Elt F) → (⟨S64x64x64, .f32⟩ : BufTy).Contents (Elt F) → (⟨S64x64x64, .f32⟩ : BufTy).Contents (Elt F)) ]
    theorem $keepN {F : FTy → Type} [FloatOps F] (X : Valuation τ sig (Elt F)) (r : Ref sig .tc)
        (hr : r ∉ [$kv, $c7, $b7, $m7, $i7, $s7, $d7, $c15, $b15, $m15, $i15, $s15, $d15, $c13, $b13, $m13, $i13, $s13, $cq, $bq, $mq, $out]) :
        StableHlo.after ($nm (F := F)) X (Proc.devRef .tc r) = X (Proc.devRef .tc r) :=
      StableHlo.after_of_writes_sub _ X (W := [$kv, $c7, $b7, $m7, $i7, $s7, $d7, $c15, $b15, $m15, $i15, $s15, $d15, $c13, $b13, $m13, $i13, $s13, $cq, $bq, $mq, $out]) (by
        simp only [List.Forall, StableHlo.nullary_writes, StableHlo.unary_writes, StableHlo.binary_writes,
          Finset.singleton_subset_iff, List.mem_toFinset]
        repeat' apply And.intro
        all_goals exact List.mem_map_of_mem (by decide)) hr
    theorem $invN {F : FTy → Type} [FloatOps F] {A B : FVec F S64x64x64 .f32} {X : Valuation τ sig (Elt F)}
        (h : Inv A B X) : Inv A B (StableHlo.after ($nm (F := F)) X) :=
      ⟨($keepN X main_v3_1 (by decide)).trans h.a, ($keepN X main_v3_2 (by decide)).trans h.b,
        ($keepN X main_v10 (by decide)).trans h.i⟩
    theorem $outN {F : FTy → Type} [FloatOps F] {A B : FVec F S64x64x64 .f32} {X : Valuation τ sig (Elt F)}
        (h : Inv A B X) :
        StableHlo.after ($nm (F := F)) X (Proc.devRef .tc $out) = KHostT.step A (X (Proc.devRef .tc $z)) := by
      obtain ⟨ha, _, hi⟩ := h
      subst ha
      simp only [$nm:ident]
      after_results_simp
      rw [hi]
      rfl)

step_chunk s1 main_v21 main_v22 main_cst_4 main_v23 main_v24 main_v25 main_v26 main_v27 main_cst_5 main_v28 main_v29 main_v30 main_v31 main_v32 main_cst_6 main_v33 main_v34 main_v35 main_v36 main_cst_7 main_v37 main_v38 main_v39
step_chunk s2 main_v39 main_v40 main_cst_8 main_v41 main_v42 main_v43 main_v44 main_v45 main_cst_9 main_v46 main_v47 main_v48 main_v49 main_v50 main_cst_10 main_v51 main_v52 main_v53 main_v54 main_cst_11 main_v55 main_v56 main_v57
step_chunk s3 main_v57 main_v58 main_cst_12 main_v59 main_v60 main_v61 main_v62 main_v63 main_cst_13 main_v64 main_v65 main_v66 main_v67 main_v68 main_cst_14 main_v69 main_v70 main_v71 main_v72 main_cst_15 main_v73 main_v74 main_v75
step_chunk s4 main_v75 main_v76 main_cst_16 main_v77 main_v78 main_v79 main_v80 main_v81 main_cst_17 main_v82 main_v83 main_v84 main_v85 main_v86 main_cst_18 main_v87 main_v88 main_v89 main_v90 main_cst_19 main_v91 main_v92 main_v93
step_chunk s5 main_v93 main_v94 main_cst_20 main_v95 main_v96 main_v97 main_v98 main_v99 main_cst_21 main_v100 main_v101 main_v102 main_v103 main_v104 main_cst_22 main_v105 main_v106 main_v107 main_v108 main_cst_23 main_v109 main_v110 main_v111
step_chunk s6 main_v111 main_v112 main_cst_24 main_v113 main_v114 main_v115 main_v116 main_v117 main_cst_25 main_v118 main_v119 main_v120 main_v121 main_v122 main_cst_26 main_v123 main_v124 main_v125 main_v126 main_cst_27 main_v127 main_v128 main_v129

/-! ## The whole list, stretch by stretch -/

set_option maxHeartbeats 4000000 in
/-- The 157 operations are the first stretch, the six steps and the last product, in order. -/
theorem hostOps1_eq {F : FTy → Type} [FloatOps F] :
    (hostOps1 : List (HloOp τ sig (Elt F))) = pre ++ (s1 ++ (s2 ++ (s3 ++ (s4 ++ (s5 ++ (s6 ++ last)))))) := rfl

theorem after_hostOps1 {F : FTy → Type} [FloatOps F] (X : Valuation τ sig (Elt F)) :
    StableHlo.after hostOps1 X
      = StableHlo.after last (StableHlo.after s6 (StableHlo.after s5 (StableHlo.after s4 (StableHlo.after s3
          (StableHlo.after s2 (StableHlo.after s1 (StableHlo.after pre X))))))) := by
  rw [hostOps1_eq]; simp only [StableHlo.after_append]

variable (m : (ℓ : Loc nD τ sig) → Buf (Elt Ideal) ℓ) (ρ : Dev nD → PrngReg) (c : Dev nD)

/-- Entering the second launch, the third operand is six steps from `Z₀` of the `P₂` array, times the `P₃ v` array. -/
theorem host_term :
    V3 m ρ c main_v130 = KHostT.wT (F := Ideal) (V2 m ρ c main_v3_1) (V2 m ρ c main_v3_2) := by
  have h0 := pre.inv (W2 m ρ c)
  have h1 := s1.inv h0
  have h2 := s2.inv h1
  have h3 := s3.inv h2
  have h4 := s4.inv h3
  have h5 := s5.inv h4
  have h6 := s6.inv h5
  show StableHlo.after hostOps1 (W2 m ρ c) (Proc.devRef .tc main_v130) = _
  rw [after_hostOps1, last.out, s6.out h5, s5.out h4, s4.out h3, s3.out h2, s2.out h1, s1.out h0, pre.z0, h6.b]
  rfl

set_option maxHeartbeats 4000000 in
/-- The host operations write neither the re-laid first input nor the landmark array. -/
theorem host_keep_q : V3 m ρ c main_v0 = V2 m ρ c main_v0 :=
  StableHlo.after_of_forall_not_mem (b := Proc.devRef .tc main_v0) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))
set_option maxHeartbeats 4000000 in
theorem host_keep_klm : V3 m ρ c main_v3_0 = V2 m ρ c main_v3_0 :=
  StableHlo.after_of_forall_not_mem (b := Proc.devRef .tc main_v3_0) _ _ (List.forall_iff_forall_mem.mp (by
    simp only [hostOps1, List.Forall, StableHlo.nullary_writes, StableHlo.unary_writes, StableHlo.binary_writes, Finset.mem_singleton]
    repeat' apply And.intro
    all_goals exact StableHlo.devRef_ne_of_ne (by decide)))

end Cert.KernelIdeal.KHost

end
-- ==== Proof.KHostIdx.lean ====
/-
  The host chain between the two launches read entry by entry: for arrays `A B` of one 64 × 64 matrix per head, the
  chain's term at head `n`, row `j`, column `d` is `(Z₆ · B)` there, `Z₆` six steps from `Z₀ = s Aᵀ`.
-/
import proofs.«407147_j5119601017043_3_alg».proof.Proof.KHostT
import proofs.«407147_j5119601017043_3_alg».proof.Proof.Spec
import proofs.«407147_j5119601017043_3_alg».proof.Proof.Views
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KHostIdx

open Cert.KernelIdeal Idealize.ShloMosaic Idealize.ShloMosaic.ValueIdx Cert.Views
open Cert.KernelIdeal.Facts₀ Cert.KernelIdeal.Facts

abbrev D3 := dot_S64x64x64_S64x64x64_S64x64x64_2_1_1_2_0_0

theorem lhs3_0 (j : S64x64x64.Idx) (k : D3.contr.Idx) : (D3.lhsIdx j k 0 : ℕ) = j 0 := by
  simp [DotDims.lhsIdx, D3, dot_S64x64x64_S64x64x64_S64x64x64_2_1_1_2_0_0]; rfl
theorem lhs3_1 (j : S64x64x64.Idx) (k : D3.contr.Idx) : (D3.lhsIdx j k 1 : ℕ) = j 1 := by
  simp [DotDims.lhsIdx, D3, dot_S64x64x64_S64x64x64_S64x64x64_2_1_1_2_0_0]; rfl
theorem lhs3_2 (j : S64x64x64.Idx) (k : D3.contr.Idx) : (D3.lhsIdx j k 2 : ℕ) = k ⟨0, by decide⟩ := by
  simp [DotDims.lhsIdx, D3, dot_S64x64x64_S64x64x64_S64x64x64_2_1_1_2_0_0]; rfl
theorem rhs3_0 (j : S64x64x64.Idx) (k : D3.contr.Idx) : (D3.rhsIdx j k 0 : ℕ) = j 0 := by
  simp [DotDims.rhsIdx, D3, dot_S64x64x64_S64x64x64_S64x64x64_2_1_1_2_0_0]; rfl
theorem rhs3_1 (j : S64x64x64.Idx) (k : D3.contr.Idx) : (D3.rhsIdx j k 1 : ℕ) = k ⟨0, by decide⟩ := by
  simp [DotDims.rhsIdx, D3, dot_S64x64x64_S64x64x64_S64x64x64_2_1_1_2_0_0]; rfl
theorem rhs3_2 (j : S64x64x64.Idx) (k : D3.contr.Idx) : (D3.rhsIdx j k 2 : ℕ) = j 2 := by
  simp [DotDims.rhsIdx, D3, dot_S64x64x64_S64x64x64_S64x64x64_2_1_1_2_0_0]; rfl

theorem dot3_apply (X Y : FVec Ideal S64x64x64 .f32) (n i j : Fin 64) :
    KHostT.dot3 (F := Ideal) X Y (ix3 n i j) = ∑ k : Fin 64, X (ix3 n i k) * Y (ix3 n k j) := by
  unfold KHostT.dot3
  refine (Ideal.dotGeneral_apply D3 (some .fp32) .single X Y (ix3 n i j)).trans ?_
  rw [← Equiv.sum_comp (contrEquiv1 D3 64 rfl rfl).symm]
  refine Finset.sum_congr rfl fun k _ => ?_
  have hk := contrEquiv1_symm_val D3 64 rfl rfl k
  refine congrArg₂ (· * ·) (congrArg X (funext fun a => Fin.ext ?_)) (congrArg Y (funext fun a => Fin.ext ?_))
  · match a with
    | ⟨0, _⟩ => exact lhs3_0 _ _
    | ⟨1, _⟩ => exact lhs3_1 _ _
    | ⟨2, _⟩ => exact (lhs3_2 _ _).trans hk
  · match a with
    | ⟨0, _⟩ => exact rhs3_0 _ _
    | ⟨1, _⟩ => exact (rhs3_1 _ _).trans hk
    | ⟨2, _⟩ => exact rhs3_2 _ _

/-! ## Scalars broadcast, the identity, and the pointwise operations -/

theorem bcast0_apply (s : FVec Ideal S_ .f32) (j : S64x64x64.Idx) :
    broadcastInDim S64x64x64 ![] bcast_S_S64x64x64 s j = s ix0 :=
  broadcastInDim_apply _ _ s j ix0 (fun a => a.elim0)

theorem ofNat_inj64 (i j : Fin 64) (h : IntOp.addi (BitVec.ofNat 32 i.val) 0#32 = BitVec.ofNat 32 j.val) : i = j := by
  have h2 := congrArg BitVec.toNat h
  simp only [IntOp.addi, BitVec.add_zero, BitVec.toNat_ofNat] at h2
  have := i.isLt; have := j.isLt
  exact Fin.ext (by omega)

theorem cmpi_eq_one_iff (a b : BitVec 32) : IntOp.cmpi .eq a b = 1#1 ↔ a = b := by
  show BitVec.ofBool (a == b) = 1#1 ↔ a = b
  by_cases h : a = b
  · subst h
    simp
  · have hb : (a == b) = false := by simpa using h
    rw [hb]
    exact ⟨fun h0 => absurd h0 (by decide), fun h1 => absurd h1 h⟩

theorem eye2_apply (i j : Fin 64) : KHostT.eye2 (F := Ideal) (ix2 i j) = Spec.eye i j := by
  unfold KHostT.eye2 Spec.eye
  show FloatOps.uitofp (F := Ideal) .f32 (IntOp.cmpi .eq (IntOp.addi (BitVec.ofNat 32 i.val) 0#32) (BitVec.ofNat 32 j.val)) = _
  by_cases h : i = j
  · subst h
    have hc : IntOp.cmpi .eq (IntOp.addi (BitVec.ofNat 32 i.val) 0#32) (BitVec.ofNat 32 i.val) = 1#1 :=
      (cmpi_eq_one_iff _ _).mpr (by simp [IntOp.addi])
    rw [hc, if_pos rfl]
    show (((1#1 : BitVec 1).toNat : ℝ) : EReal) = 1
    simp
  · have hc : IntOp.cmpi .eq (IntOp.addi (BitVec.ofNat 32 i.val) 0#32) (BitVec.ofNat 32 j.val) = 0#1 :=
      eq_zero_of_ne_one (fun h1 => h (ofNat_inj64 i j ((cmpi_eq_one_iff _ _).mp h1)))
    rw [hc, if_neg h]
    show (((0#1 : BitVec 1).toNat : ℝ) : EReal) = 0
    simp

theorem eyeB_apply (i j : Fin 64) : KHostT.eyeB (F := Ideal) (ix3 (0 : Fin 1) i j) = Spec.eye i j := by
  unfold KHostT.eyeB
  refine (broadcastInDim_apply _ _ _ (ix3 (0 : Fin 1) i j) (ix2 i j) (fun a => ?_)).trans (eye2_apply i j)
  match a with
  | ⟨0, _⟩ => rfl
  | ⟨1, _⟩ => rfl

theorem cI_apply (w : BitVec 32) (n i j : Fin 64) :
    KHostT.cI (F := Ideal) w (ix3 n i j) = Ideal.ofBits .f32 w * Spec.eye i j := by
  unfold KHostT.cI
  refine (broadcastInDim_apply _ _ _ (ix3 n i j) (ix3 (0 : Fin 1) i j) (fun a => ?_)).trans ?_
  · match a with
    | ⟨0, _⟩ => rfl
    | ⟨1, _⟩ => rfl
    | ⟨2, _⟩ => rfl
  · rw [mulf_apply, eyeB_apply]
    rfl

/-! ## The product head by head, and one step of the iteration -/

theorem dot3_mm (X Y : FVec Ideal S64x64x64 .f32) (Xs Ys : Spec.Bat 64 64)
    (hX : ∀ n i j, X (ix3 n i j) = Xs n i j) (hY : ∀ n i j, Y (ix3 n i j) = Ys n i j) (n i j : Fin 64) :
    KHostT.dot3 (F := Ideal) X Y (ix3 n i j) = Spec.mm (Xs n) (Ys n) i j := by
  rw [dot3_apply]
  unfold Spec.mm
  exact Finset.sum_congr rfl fun k _ => by rw [hX, hY]

theorem sub_cI (w : BitVec 32) (X : FVec Ideal S64x64x64 .f32) (Xs : Spec.Bat 64 64)
    (hX : ∀ n i j, X (ix3 n i j) = Xs n i j) (n i j : Fin 64) :
    subf (KHostT.cI (F := Ideal) w) X (ix3 n i j) = Ideal.ofBits .f32 w * Spec.eye i j - Xs n i j := by
  rw [subf_apply, cI_apply, hX]

theorem quarter_apply (Z : FVec Ideal S64x64x64 .f32) (Zs : Spec.Bat 64 64)
    (hZ : ∀ n i j, Z (ix3 n i j) = Zs n i j) (n i j : Fin 64) :
    mulf (broadcastInDim S64x64x64 ![] bcast_S_S64x64x64 (constant (F := Ideal) S_ .f32 0x3E800000#32)) Z (ix3 n i j)
      = Spec.cQuarter * Zs n i j := by
  rw [mulf_apply, bcast0_apply, hZ]
  rfl

theorem step_apply (A Z : FVec Ideal S64x64x64 .f32) (As Zs : Spec.Bat 64 64)
    (hA : ∀ n i j, A (ix3 n i j) = As n i j) (hZ : ∀ n i j, Z (ix3 n i j) = Zs n i j) (n i j : Fin 64) :
    KHostT.step (F := Ideal) A Z (ix3 n i j) = Spec.nsS As Zs n i j := by
  unfold KHostT.step Spec.nsS
  have hKV := dot3_mm A Z As Zs hA hZ
  have h7 := sub_cI 0x40E00000#32 _ _ hKV
  have h7' := dot3_mm _ _ _ _ hKV h7
  have h15 := sub_cI 0x41700000#32 _ _ h7'
  have h15' := dot3_mm _ _ _ _ hKV h15
  have h13 := sub_cI 0x41500000#32 _ _ h15'
  have hq := quarter_apply Z Zs hZ
  exact dot3_mm _ _ _ _ hq h13 n i j

/-! ## The absolute column and row sums, the largest over all heads, and the normalising scalar -/

theorem red2 : S64x64x64.Reduces [2] S64x64 := by decide

theorem colSum_apply (A : FVec Ideal S64x64x64 .f32) (h j : Fin 64) :
    Host.reduceAdd (F := Ideal) (Host.absf A) (constant (F := Ideal) S_ .f32 0x00000000#32) reducesTo_S64x64x64_S64x64_d1 h_S_ (ix2 h j)
      = Spec.colS (bat3 (n := 64) (d := 64) A) h j := by
  unfold Host.reduceAdd
  refine (Ideal.hostReduceAdd_single reducesTo_S64x64x64_S64x64_d1 reduces_S64x64x64_S64x64 _ _ (ix2 h j)).trans ?_
  unfold Spec.colS
  refine congrArg₂ (· + ·) rfl (Finset.sum_congr rfl fun k _ => ?_)
  show Spec.absE (A (reduces_S64x64x64_S64x64.lift (ix2 h j) k)) = Spec.absE (A (ix3 h k j))
  refine congrArg (fun t => Spec.absE (A t)) (funext fun a => Fin.ext ?_)
  match a with
  | ⟨0, _⟩ => rfl
  | ⟨1, _⟩ => rfl
  | ⟨2, _⟩ => rfl

theorem rowSum_apply (A : FVec Ideal S64x64x64 .f32) (h i : Fin 64) :
    Host.reduceAdd (F := Ideal) (Host.absf A) (constant (F := Ideal) S_ .f32 0x00000000#32) reducesTo_S64x64x64_S64x64_d2 h_S_ (ix2 h i)
      = Spec.rowS (bat3 (n := 64) (d := 64) A) h i := by
  unfold Host.reduceAdd
  refine (Ideal.hostReduceAdd_single reducesTo_S64x64x64_S64x64_d2 red2 _ _ (ix2 h i)).trans ?_
  unfold Spec.rowS
  refine congrArg₂ (· + ·) rfl (Finset.sum_congr rfl fun k _ => ?_)
  show Spec.absE (A (red2.lift (ix2 h i) k)) = Spec.absE (A (ix3 h i k))
  refine congrArg (fun t => Spec.absE (A t)) (funext fun a => Fin.ext ?_)
  match a with
  | ⟨0, _⟩ => rfl
  | ⟨1, _⟩ => rfl
  | ⟨2, _⟩ => rfl

/-- The fold of a commutative, associative operation over a rank-2 index set is the fold over the pairs of coordinates. -/
theorem fold_idx2 {α : Type} (op : α → α → α) [Std.Commutative op] [Std.Associative op] (b : α)
    (x : (⟨2, ![64, 64]⟩ : Shape).Idx → α) :
    (Finset.univ : Finset (⟨2, ![64, 64]⟩ : Shape).Idx).fold op b x
      = (Finset.univ : Finset (Fin 64 × Fin 64)).fold op b (fun p => x (ix2 p.1 p.2)) := by
  rw [← Finset.map_univ_equiv (idxEquiv2 (n0 := 64) (n1 := 64)).symm, Finset.fold_map]
  rfl

theorem gmax_apply (T : FVec Ideal S64x64 .f32) (f : Fin 64 → Fin 64 → EReal) (hT : ∀ a b, T (ix2 a b) = f a b) :
    Host.reduce (FloatOps.maximumf (F := Ideal) (φ := .f32)) T (constant (F := Ideal) S_ .f32 0xFF800000#32) reducesTo_S64x64_S_d0_1 h_S_ ix0
      = Spec.gmax f := by
  rw [Host.reduce_eq_fold]
  rw [Finset.filter_true_of_mem (fun i _ => funext fun a => a.elim0)]
  unfold Spec.gmax
  refine (fold_idx2 _ _ T).trans ?_
  have hf : (fun p : Fin 64 × Fin 64 => T (ix2 p.1 p.2)) = fun p => f p.1 p.2 := funext fun p => hT p.1 p.2
  rw [hf]
  rfl

theorem colMax_apply (A : FVec Ideal S64x64x64 .f32) :
    KHostT.colMax (F := Ideal) A ix0 = Spec.gmax (Spec.colS (bat3 (n := 64) (d := 64) A)) := by
  unfold KHostT.colMax
  exact gmax_apply _ _ (colSum_apply A)

theorem rowMaxG_apply (A : FVec Ideal S64x64x64 .f32) :
    KHostT.rowMaxG (F := Ideal) A ix0 = Spec.gmax (Spec.rowS (bat3 (n := 64) (d := 64) A)) := by
  unfold KHostT.rowMaxG
  exact gmax_apply _ _ (rowSum_apply A)

theorem hostDivf_apply (a b : FVec Ideal S_ .f32) (i : S_.Idx) : Host.divf a b i = Ideal.div (a i) (b i) := rfl

theorem scale_apply (A : FVec Ideal S64x64x64 .f32) :
    KHostT.scale (F := Ideal) A ix0 = Spec.nsc (bat3 (n := 64) (d := 64) A) := by
  unfold KHostT.scale Spec.nsc
  rw [hostDivf_apply, mulf_apply, colMax_apply, rowMaxG_apply, constant_apply]
  rfl

theorem z0_apply (A : FVec Ideal S64x64x64 .f32) (n i j : Fin 64) :
    KHostT.z0 (F := Ideal) A (ix3 n i j) = Spec.ns0 (bat3 (n := 64) (d := 64) A) n i j := by
  unfold KHostT.z0 Spec.ns0
  rw [mulf_apply, bcast0_apply, scale_apply, transpose_ix3_021_apply]
  rfl

/-! ## Six steps, then the product with the second array -/

theorem z6_apply (A : FVec Ideal S64x64x64 .f32) (n i j : Fin 64) :
    KHostT.step (F := Ideal) A (KHostT.step A (KHostT.step A (KHostT.step A (KHostT.step A (KHostT.step A (KHostT.z0 A)))))) (ix3 n i j)
      = Spec.nsInv (bat3 (n := 64) (d := 64) A) n i j := by
  have hA : ∀ n i j, A (ix3 n i j) = bat3 (n := 64) (d := 64) A n i j := fun _ _ _ => rfl
  have h0 := z0_apply A
  have h1 := step_apply A _ _ _ hA h0
  have h2 := step_apply A _ _ _ hA h1
  have h3 := step_apply A _ _ _ hA h2
  have h4 := step_apply A _ _ _ hA h3
  have h5 := step_apply A _ _ _ hA h4
  exact step_apply A _ _ _ hA h5 n i j

theorem wT_apply (A B : FVec Ideal S64x64x64 .f32) (n j d : Fin 64) :
    KHostT.wT (F := Ideal) A B (ix3 n j d)
      = Spec.mm (Spec.nsInv (bat3 (n := 64) (d := 64) A) n) (bat3 (n := 64) (d := 64) B n) j d := by
  unfold KHostT.wT
  exact dot3_mm _ B _ _ (z6_apply A) (fun _ _ _ => rfl) n j d

end Cert.KernelIdeal.KHostIdx

end
-- ==== Proof.KVal.lean ====
/-
  The kernel program's result array: entry (b, h, s, d) is `P₁ · (Z₆ · (P₃ v))` of head `16·b + h` at (s, d), the three
  inputs read one matrix per head. The pieces: the inputs re-laid, the first launch's three arrays, the host chain
  between the launches, the second launch, and the final re-laying.
-/
import proofs.«407147_j5119601017043_3_alg».proof.Proof.Gen.KernelIdeal.Frame
import proofs.«407147_j5119601017043_3_alg».proof.Proof.Spec
import proofs.«407147_j5119601017043_3_alg».proof.Proof.Views
import proofs.«407147_j5119601017043_3_alg».proof.Proof.KArr
import proofs.«407147_j5119601017043_3_alg».proof.Proof.KHost
import proofs.«407147_j5119601017043_3_alg».proof.Proof.KHostIdx
import Idealize.ShloMosaic.Lib.ValueIdx

set_option maxRecDepth 16384

noncomputable section

namespace Cert.KernelIdeal.KVal

open Cert.KernelIdeal Cert.KernelIdeal.Gen Idealize.ShloMosaic Idealize.ShloMosaic.TcCoe Idealize.ShloMosaic.ValueIdx Idealize.SL.Sem Cert.Views

variable (m : (ℓ : Loc nD τ sig) → Buf (Elt Ideal) ℓ) (ρ : Dev nD → PrngReg) (c : Dev nD)

/-- The three arguments, one matrix per head. -/
abbrev Qa : Fin 64 → Spec.Mat 4096 64 := bat4 (n := 4096) (d := 64) (m ((c : Thread nD τ).loc main_arg0))
abbrev Ka : Fin 64 → Spec.Mat 4096 64 := bat4 (n := 4096) (d := 64) (m ((c : Thread nD τ).loc main_arg1))
abbrev Va : Fin 64 → Spec.Mat 4096 64 := bat4 (n := 4096) (d := 64) (m ((c : Thread nD τ).loc main_arg2))

theorem q1 : bat3 (n := 4096) (d := 64) (V1 m ρ c main_v0) = Qa m c := by
  funext n s d; exact KArr.in_q m ρ c n s d
theorem k1 : bat3 (n := 4096) (d := 64) (V1 m ρ c main_v1) = Ka m c := by
  funext n s d; exact KArr.in_k m ρ c n s d
theorem v1 : bat3 (n := 4096) (d := 64) (V1 m ρ c main_v2) = Va m c := by
  funext n s d; exact KArr.in_v m ρ c n s d

/-- The second launch reads the re-laid first input as the first launch found it. -/
theorem q3 : bat3 (n := 4096) (d := 64) (V3 m ρ c main_v0) = Qa m c := by
  rw [KHost.host_keep_q, KArr.regA_keep_q]; exact q1 m ρ c
/-- … and the landmarks the first launch wrote. -/
theorem l3 (n : Fin 64) : bat3 (n := 64) (d := 64) (V3 m ρ c main_v3_0) n = Spec.klm (Ka m c n) := by
  rw [KHost.host_keep_klm]
  funext j d
  show V2 m ρ c main_v3_0 (ix3 n j d) = _
  rw [KArr.regA_klm, k1]
/-- The first launch's `P₂` array. -/
theorem a2 : bat3 (n := 64) (d := 64) (V2 m ρ c main_v3_1) = Spec.P2 (Qa m c) (Ka m c) := by
  funext n i j
  show V2 m ρ c main_v3_1 (ix3 n i j) = _
  rw [KArr.regA_p2, q1, k1]; rfl
/-- The first launch's `P₃ v` array. -/
theorem b2 (n : Fin 64) : bat3 (n := 64) (d := 64) (V2 m ρ c main_v3_2) n = Spec.kvv (Qa m c n) (Ka m c n) (Va m c n) := by
  funext i d
  show V2 m ρ c main_v3_2 (ix3 n i d) = _
  rw [KArr.regA_kvv, q1, k1, v1]
/-- The host chain's result: `Z₆ · (P₃ v)`, head by head. -/
theorem w3 (n : Fin 64) : bat3 (n := 64) (d := 64) (V3 m ρ c main_v130) n
    = Spec.mm (Spec.nsInv (Spec.P2 (Qa m c) (Ka m c)) n) (Spec.kvv (Qa m c n) (Ka m c n) (Va m c n)) := by
  funext j d
  show V3 m ρ c main_v130 (ix3 n j d) = _
  rw [KHost.host_term, KHostIdx.wT_apply, a2, b2]

/-- The result array, entry by entry. -/
theorem value : W5 m ρ c (Proc.devRef .tc main_v132)
    = fun i => Spec.outK (Qa m c) (Ka m c) (Va m c) (hd (i 0) (i 1)) (i 2) (i 3) := by
  funext i
  obtain ⟨b, h, s, d, rfl⟩ : ∃ (b : Fin 4) (h : Fin 16) (s : Fin 4096) (d : Fin 64), i = ix4 b h s d :=
    ⟨i 0, i 1, i 2, i 3, eq_ix4 i⟩
  show W5 m ρ c (Proc.devRef .tc main_v132) (ix4 b h s d) = Spec.outK (Qa m c) (Ka m c) (Va m c) (hd b h) s d
  rw [KArr.out_reshape, KArr.regB_out, q3, l3, w3]
  rfl

end Cert.KernelIdeal.KVal

end
-- ==== Proof.RStages.lean ====
/-
  The reference's stages read entry by entry, at batch `b` and head `h` (head `16·b + h`): the scaled inputs, the
  landmarks, the three row-softmaxes, `P₃ · v`, and a product over the two batch axes read as a plain sum.
-/
import proofs.«407147_j5119601017043_3_alg».proof.Proof.Gen.ReferenceIdeal.Run
import proofs.«407147_j5119601017043_3_alg».proof.Proof.Spec
import proofs.«407147_j5119601017043_3_alg».proof.Proof.Views
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.RStages

open Cert.ReferenceIdeal Cert.ReferenceIdeal.Gen Cert.ReferenceIdeal.Value Idealize.ShloMosaic Idealize.ShloMosaic.TcCoe Idealize.ShloMosaic.ValueIdx Idealize.ShloMosaic.StableHlo Cert.Views

/-! ## Products over the two batch axes, at an entry -/

/-- A product over the two leading batch axes contracting both last axes, at an entry. -/
theorem dot_nt_apply {B H m k n : Nat} {φ₁ φ₂ : FTy}
    (w : DotDims.WF ⟨4, ![B, H, m, k]⟩ ⟨4, ![B, H, n, k]⟩ ⟨4, ![B, H, m, n]⟩ [3] [3] [2] [2] [0, 1] [0, 1])
    (prec : Option ContractPrecision) (X : FVec Ideal ⟨4, ![B, H, m, k]⟩ φ₁) (Y : FVec Ideal ⟨4, ![B, H, n, k]⟩ φ₂)
    (b : Fin B) (h : Fin H) (a : Fin m) (c : Fin n) :
    Host.dotGeneral (⟨[3], [3], [2], [2], [0, 1], [0, 1], w⟩ : DotDims _ _ _) prec X Y (ix4 b h a c)
      = ∑ x : Fin k, X (ix4 b h a x) * Y (ix4 b h c x) := by
  show FloatOps.dotGeneral _ prec _ X Y (ix4 b h a c) = _
  rw [Ideal.dotGeneral_apply,
    ← Equiv.sum_comp (contrEquiv1 (⟨[3], [3], [2], [2], [0, 1], [0, 1], w⟩ : DotDims _ _ _) k rfl rfl).symm]
  refine Finset.sum_congr rfl fun x _ => ?_
  have cx := contrEquiv1_symm_val
    (⟨[3], [3], [2], [2], [0, 1], [0, 1], w⟩ : DotDims ⟨4, ![B, H, m, k]⟩ ⟨4, ![B, H, n, k]⟩ ⟨4, ![B, H, m, n]⟩) k rfl rfl x
  have hl : (⟨[3], [3], [2], [2], [0, 1], [0, 1], w⟩ : DotDims ⟨4, ![B, H, m, k]⟩ ⟨4, ![B, H, n, k]⟩ ⟨4, ![B, H, m, n]⟩).lhsIdx
      (ix4 b h a c) ((contrEquiv1 _ k rfl rfl).symm x) = ix4 b h a x := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact cx
  have hr : (⟨[3], [3], [2], [2], [0, 1], [0, 1], w⟩ : DotDims ⟨4, ![B, H, m, k]⟩ ⟨4, ![B, H, n, k]⟩ ⟨4, ![B, H, m, n]⟩).rhsIdx
      (ix4 b h a c) ((contrEquiv1 _ k rfl rfl).symm x) = ix4 b h c x := by
    funext ax; apply Fin.ext
    match ax with
    | ⟨0, _⟩ => simp [DotDims.rhsIdx]; rfl
    | ⟨1, _⟩ => simp [DotDims.rhsIdx]; rfl
    | ⟨2, _⟩ => simp [DotDims.rhsIdx]; rfl
    | ⟨3, _⟩ => simp [DotDims.rhsIdx]; exact cx
  rw [hl, hr]

/-- A product over the two leading batch axes contracting the left's last axis with the right's third, at an entry. -/
theorem dot_nn_apply {B H m k n : Nat} {φ₁ φ₂ : FTy}
    (w : DotDims.WF ⟨4, ![B, H, m, k]⟩ ⟨4, ![B, H, k, n]⟩ ⟨4, ![B, H, m, n]⟩ [3] [2] [2] [3] [0, 1] [0, 1])
    (prec : Option ContractPrecision) (X : FVec Ideal ⟨4, ![B, H, m, k]⟩ φ₁) (Y : FVec Ideal ⟨4, ![B, H, k, n]⟩ φ₂)
    (b : Fin B) (h : Fin H) (a : Fin m) (c : Fin n) :
    Host.dotGeneral (⟨[3], [2], [2], [3], [0, 1], [0, 1], w⟩ : DotDims _ _ _) prec X Y (ix4 b h a c)
      = ∑ x : Fin k, X (ix4 b h a x) * Y (ix4 b h x c) := by
  show FloatOps.dotGeneral _ prec _ X Y (ix4 b h a c) = _
  rw [Ideal.dotGeneral_apply,
    ← Equiv.sum_comp (contrEquiv1 (⟨[3], [2], [2], [3], [0, 1], [0, 1], w⟩ : DotDims _ _ _) k rfl rfl).symm]
  refine Finset.sum_congr rfl fun x _ => ?_
  have cx := contrEquiv1_symm_val
    (⟨[3], [2], [2], [3], [0, 1], [0, 1], w⟩ : DotDims ⟨4, ![B, H, m, k]⟩ ⟨4, ![B, H, k, n]⟩ ⟨4, ![B, H, m, n]⟩) k rfl rfl x
  have hl : (⟨[3], [2], [2], [3], [0, 1], [0, 1], w⟩ : DotDims ⟨4, ![B, H, m, k]⟩ ⟨4, ![B, H, k, n]⟩ ⟨4, ![B, H, m, n]⟩).lhsIdx
      (ix4 b h a c) ((contrEquiv1 _ k rfl rfl).symm x) = ix4 b h a x := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact cx
  have hr : (⟨[3], [2], [2], [3], [0, 1], [0, 1], w⟩ : DotDims ⟨4, ![B, H, m, k]⟩ ⟨4, ![B, H, k, n]⟩ ⟨4, ![B, H, m, n]⟩).rhsIdx
      (ix4 b h a c) ((contrEquiv1 _ k rfl rfl).symm x) = ix4 b h x c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact cx
    | ⟨3, _⟩ => simp [DotDims.rhsIdx]; rfl
  rw [hl, hr]

/-! ## Sums, maxima and kept columns along the last axis, at an entry -/

/-- A coordinate below n is 0 when n = 1. -/
theorem val_unit_or {n : Nat} (i : Fin n) : i.val = if n = 1 then 0 else i.val := by
  split <;> omega

/-- The index over (b, h, i) with k on the dropped last axis. -/
theorem lift3_ix {B H m n : Nat} (hr : (⟨4, ![B, H, m, n]⟩ : Shape).Reduces [3] ⟨3, ![B, H, m]⟩)
    (b : Fin B) (h : Fin H) (i : Fin m) (k : Fin n) : hr.lift (ix3 b h i) k = ix4 b h i k := by
  funext c; apply Fin.ext
  match c with
  | ⟨0, _⟩ => rfl
  | ⟨1, _⟩ => rfl
  | ⟨2, _⟩ => rfl
  | ⟨3, _⟩ => rfl

/-- The sum along the last axis of a rank-4 array from the zero word, at (b, h, i). -/
theorem rowsum4_apply {B H m n : Nat} (x : FVec Ideal ⟨4, ![B, H, m, n]⟩ .f32)
    (h' : (⟨4, ![B, H, m, n]⟩ : Shape).ReducesTo [3] ⟨3, ![B, H, m]⟩) (hu : 0 < (⟨0, ![]⟩ : Shape).numel)
    (b : Fin B) (h : Fin H) (i : Fin m) :
    Host.reduceAdd x (constant (F := Ideal) ⟨0, ![]⟩ .f32 0x00000000#32) h' hu (ix3 b h i) = ∑ j : Fin n, x (ix4 b h i j) := by
  have hr : (⟨4, ![B, H, m, n]⟩ : Shape).Reduces [3] ⟨3, ![B, H, m]⟩ := ⟨h'.1, Nat.succ_pos 2, h'.2⟩
  refine (hostReduceAdd_apply x _ h' hu _).trans ((Ideal.hostReduceAdd_single h' hr x _ _).trans ?_)
  rw [constant_apply, Ideal.ofBits_zero_f32, zero_add]
  exact Finset.sum_congr rfl fun j _ => congrArg x (lift3_ix hr b h i j)

/-- The largest entry along the last axis of a rank-4 array, folded from the -∞ word, at (b, h, i). -/
theorem rowmax4_apply {B H m n : Nat} (x : FVec Ideal ⟨4, ![B, H, m, n]⟩ .f32)
    (h' : (⟨4, ![B, H, m, n]⟩ : Shape).ReducesTo [3] ⟨3, ![B, H, m]⟩) (hu : 0 < (⟨0, ![]⟩ : Shape).numel)
    (b : Fin B) (h : Fin H) (i : Fin m) :
    Host.reduce FloatOps.maximumf x (constant (F := Ideal) ⟨0, ![]⟩ .f32 0xFF800000#32) h' hu (ix3 b h i)
      = (Finset.univ : Finset (Fin n)).fold max (Ideal.ofBits .f32 0xFF800000#32) (fun j => x (ix4 b h i j)) := by
  have hr : (⟨4, ![B, H, m, n]⟩ : Shape).Reduces [3] ⟨3, ![B, H, m]⟩ := ⟨h'.1, Nat.succ_pos 2, h'.2⟩
  refine (Host.reduce_eq_fold_single FloatOps.maximumf x _ h' hr hu _).trans ?_
  show (Finset.univ : Finset (Fin n)).fold max (Ideal.ofBits .f32 0xFF800000#32) (x ∘ hr.lift (ix3 b h i)) = _
  exact congrArg (fun f => (Finset.univ : Finset (Fin n)).fold max (Ideal.ofBits .f32 0xFF800000#32) f)
    (funext fun j => congrArg x (lift3_ix hr b h i j))

/-- A per-row value kept as a unit column and spread along the last axis reads, at (b, h, i, j), the row's value. -/
theorem keepcol_apply {α : Type} {B H m n : Nat} (x : (⟨3, ![B, H, m]⟩ : Shape).Idx → α)
    (h1 : (⟨3, ![B, H, m]⟩ : Shape).BroadcastsInDim ⟨4, ![B, H, m, 1]⟩ ![0, 1, 2])
    (h2 : (⟨4, ![B, H, m, 1]⟩ : Shape).BroadcastsInDim ⟨4, ![B, H, m, n]⟩ ![0, 1, 2, 3])
    (b : Fin B) (h : Fin H) (i : Fin m) (j : Fin n) :
    broadcastInDim ⟨4, ![B, H, m, n]⟩ ![0, 1, 2, 3] h2 (broadcastInDim ⟨4, ![B, H, m, 1]⟩ ![0, 1, 2] h1 x) (ix4 b h i j)
      = x (ix3 b h i) := by
  refine (broadcastInDim_apply _ h2 _ (ix4 b h i j) (ix4 b h i (0 : Fin 1)) fun a => ?_).trans
    (broadcastInDim_apply _ h1 x (ix4 b h i (0 : Fin 1)) (ix3 b h i) fun a => ?_)
  · match a with
    | ⟨0, _⟩ => exact val_unit_or b
    | ⟨1, _⟩ => exact val_unit_or h
    | ⟨2, _⟩ => exact val_unit_or i
    | ⟨3, _⟩ => rfl
  · match a with
    | ⟨0, _⟩ => exact val_unit_or b
    | ⟨1, _⟩ => exact val_unit_or h
    | ⟨2, _⟩ => exact val_unit_or i

/-! ## The row-softmax of a rank-4 array, at an entry -/

/-- The host's exponential at an index is the exponential of the element. -/
theorem hostExp_apply {s : Shape} {φ : FTy} (x : FVec Ideal s φ) (i : s.Idx) : Host.exp x i = Ideal.exp (x i) := rfl

/-- The exponential of an entry less its row's largest entry. -/
theorem expsub4_apply {B H m n : Nat} (L : FVec Ideal ⟨4, ![B, H, m, n]⟩ .f32)
    (h' : (⟨4, ![B, H, m, n]⟩ : Shape).ReducesTo [3] ⟨3, ![B, H, m]⟩) (hu : 0 < (⟨0, ![]⟩ : Shape).numel)
    (h0 : (⟨0, ![]⟩ : Shape).BroadcastsInDim ⟨3, ![B, H, m]⟩ ![])
    (h1 : (⟨3, ![B, H, m]⟩ : Shape).BroadcastsInDim ⟨4, ![B, H, m, 1]⟩ ![0, 1, 2])
    (h2 : (⟨4, ![B, H, m, 1]⟩ : Shape).BroadcastsInDim ⟨4, ![B, H, m, n]⟩ ![0, 1, 2, 3])
    (b : Fin B) (h : Fin H) (i : Fin m) (j : Fin n) :
    Host.exp (subf L (broadcastInDim ⟨4, ![B, H, m, n]⟩ ![0, 1, 2, 3] h2 (broadcastInDim ⟨4, ![B, H, m, 1]⟩ ![0, 1, 2] h1
      (maximumf (broadcastInDim ⟨3, ![B, H, m]⟩ ![] h0 (constant (F := Ideal) ⟨0, ![]⟩ .f32 0xFF800000#32))
        (Host.reduce FloatOps.maximumf L (constant (F := Ideal) ⟨0, ![]⟩ .f32 0xFF800000#32) h' hu))))) (ix4 b h i j)
      = Ideal.exp (L (ix4 b h i j) - Spec.rowMax (fun k => L (ix4 b h i k))) := by
  rw [hostExp_apply, subf_apply, keepcol_apply, maximumf_apply, broadcastInDim_scalar_apply, constant_apply, rowmax4_apply]
  rfl

/-- An entry over the sum of its row. -/
theorem divsum4_apply {B H m n : Nat} (E : FVec Ideal ⟨4, ![B, H, m, n]⟩ .f32)
    (h' : (⟨4, ![B, H, m, n]⟩ : Shape).ReducesTo [3] ⟨3, ![B, H, m]⟩) (hu : 0 < (⟨0, ![]⟩ : Shape).numel)
    (h1 : (⟨3, ![B, H, m]⟩ : Shape).BroadcastsInDim ⟨4, ![B, H, m, 1]⟩ ![0, 1, 2])
    (h2 : (⟨4, ![B, H, m, 1]⟩ : Shape).BroadcastsInDim ⟨4, ![B, H, m, n]⟩ ![0, 1, 2, 3])
    (b : Fin B) (h : Fin H) (i : Fin m) (j : Fin n) :
    Host.divf E (broadcastInDim ⟨4, ![B, H, m, n]⟩ ![0, 1, 2, 3] h2 (broadcastInDim ⟨4, ![B, H, m, 1]⟩ ![0, 1, 2] h1
      (Host.reduceAdd E (constant (F := Ideal) ⟨0, ![]⟩ .f32 0x00000000#32) h' hu))) (ix4 b h i j)
      = Ideal.div (E (ix4 b h i j)) (∑ k : Fin n, E (ix4 b h i k)) := by
  rw [hostDivf_apply, keepcol_apply, rowsum4_apply]

/-- The two together: the softmax of the row. -/
theorem softmax4_apply {B H m n : Nat} (L : FVec Ideal ⟨4, ![B, H, m, n]⟩ .f32)
    (h' : (⟨4, ![B, H, m, n]⟩ : Shape).ReducesTo [3] ⟨3, ![B, H, m]⟩) (hu : 0 < (⟨0, ![]⟩ : Shape).numel)
    (h0 : (⟨0, ![]⟩ : Shape).BroadcastsInDim ⟨3, ![B, H, m]⟩ ![])
    (h1 : (⟨3, ![B, H, m]⟩ : Shape).BroadcastsInDim ⟨4, ![B, H, m, 1]⟩ ![0, 1, 2])
    (h2 : (⟨4, ![B, H, m, 1]⟩ : Shape).BroadcastsInDim ⟨4, ![B, H, m, n]⟩ ![0, 1, 2, 3])
    (E : FVec Ideal ⟨4, ![B, H, m, n]⟩ .f32)
    (hE : E = Host.exp (subf L (broadcastInDim ⟨4, ![B, H, m, n]⟩ ![0, 1, 2, 3] h2 (broadcastInDim ⟨4, ![B, H, m, 1]⟩ ![0, 1, 2] h1
      (maximumf (broadcastInDim ⟨3, ![B, H, m]⟩ ![] h0 (constant (F := Ideal) ⟨0, ![]⟩ .f32 0xFF800000#32))
        (Host.reduce FloatOps.maximumf L (constant (F := Ideal) ⟨0, ![]⟩ .f32 0xFF800000#32) h' hu))))))
    (b : Fin B) (h : Fin H) (i : Fin m) (j : Fin n) :
    Host.divf E (broadcastInDim ⟨4, ![B, H, m, n]⟩ ![0, 1, 2, 3] h2 (broadcastInDim ⟨4, ![B, H, m, 1]⟩ ![0, 1, 2] h1
      (Host.reduceAdd E (constant (F := Ideal) ⟨0, ![]⟩ .f32 0x00000000#32) h' hu))) (ix4 b h i j)
      = Spec.smx (fun k => L (ix4 b h i k)) j := by
  rw [divsum4_apply]
  subst hE
  unfold Spec.smx
  rw [expsub4_apply]
  exact congrArg _ (Finset.sum_congr rfl fun k _ => expsub4_apply L h' hu h0 h1 h2 b h i k)

/-! ## The segment sums: rows 64·j + r of the 4096 -/

/-- The [4,16,4096,64] array seen as [4,16,64,64,64] reads, at (b, h, j, r, d), row 64·j + r. -/
theorem seg_apply {α : Type} (x : (⟨4, ![4, 16, 4096, 64]⟩ : Shape).Idx → α)
    (hc : (⟨4, ![4, 16, 4096, 64]⟩ : Shape).ShapeCasts ⟨5, ![4, 16, 64, 64, 64]⟩)
    (b : Fin 4) (h : Fin 16) (j r d : Fin 64) :
    shapeCast ⟨5, ![4, 16, 64, 64, 64]⟩ x hc (ix5 b h j r d) = x (ix4 b h (Spec.segRow j r) d) :=
  shapeCast_apply x hc _ _ (by
    rw [Shape.rowMajor_val_four, Shape.rowMajor_val_five]
    show ((b.val * 16 + h.val) * 4096 + (64 * j.val + r.val)) * 64 + d.val
      = (((b.val * 16 + h.val) * 64 + j.val) * 64 + r.val) * 64 + d.val
    omega)

/-- The index over (b, h, j, d) with r on the dropped fourth axis. -/
theorem lift4_ix {B H p q e : Nat} (hr : (⟨5, ![B, H, p, q, e]⟩ : Shape).Reduces [3] ⟨4, ![B, H, p, e]⟩)
    (b : Fin B) (h : Fin H) (j : Fin p) (d : Fin e) (r : Fin q) : hr.lift (ix4 b h j d) r = ix5 b h j r d := by
  funext c; apply Fin.ext
  match c with
  | ⟨0, _⟩ => rfl
  | ⟨1, _⟩ => rfl
  | ⟨2, _⟩ => rfl
  | ⟨3, _⟩ => rfl
  | ⟨4, _⟩ => rfl

/-- The sum along the fourth axis of a rank-5 array from the zero word, at (b, h, j, d). -/
theorem segsum_apply {B H p q e : Nat} (x : FVec Ideal ⟨5, ![B, H, p, q, e]⟩ .f32)
    (h' : (⟨5, ![B, H, p, q, e]⟩ : Shape).ReducesTo [3] ⟨4, ![B, H, p, e]⟩) (hu : 0 < (⟨0, ![]⟩ : Shape).numel)
    (b : Fin B) (h : Fin H) (j : Fin p) (d : Fin e) :
    Host.reduceAdd x (constant (F := Ideal) ⟨0, ![]⟩ .f32 0x00000000#32) h' hu (ix4 b h j d) = ∑ r : Fin q, x (ix5 b h j r d) := by
  have hr : (⟨5, ![B, H, p, q, e]⟩ : Shape).Reduces [3] ⟨4, ![B, H, p, e]⟩ := ⟨h'.1, Nat.succ_pos 3, h'.2⟩
  refine (hostReduceAdd_apply x _ h' hu _).trans ((Ideal.hostReduceAdd_single h' hr x _ _).trans ?_)
  rw [constant_apply, Ideal.ofBits_zero_f32, zero_add]
  exact Finset.sum_congr rfl fun r _ => congrArg x (lift4_ix hr b h j d r)

/-- The landmark of a [4,16,4096,64] array: the sum of a segment's 64 rows over the word for 64. -/
theorem landmark_apply (x : FVec Ideal ⟨4, ![4, 16, 4096, 64]⟩ .f32)
    (hc : (⟨4, ![4, 16, 4096, 64]⟩ : Shape).ShapeCasts ⟨5, ![4, 16, 64, 64, 64]⟩)
    (h' : (⟨5, ![4, 16, 64, 64, 64]⟩ : Shape).ReducesTo [3] ⟨4, ![4, 16, 64, 64]⟩) (hu : 0 < (⟨0, ![]⟩ : Shape).numel)
    (h0 : (⟨0, ![]⟩ : Shape).BroadcastsInDim ⟨4, ![4, 16, 64, 64]⟩ ![])
    (b : Fin 4) (h : Fin 16) (j d : Fin 64) :
    Host.divf (Host.reduceAdd (shapeCast ⟨5, ![4, 16, 64, 64, 64]⟩ x hc) (constant (F := Ideal) ⟨0, ![]⟩ .f32 0x00000000#32) h' hu)
      (broadcastInDim ⟨4, ![4, 16, 64, 64]⟩ ![] h0 (constant (F := Ideal) ⟨0, ![]⟩ .f32 0x42800000#32)) (ix4 b h j d)
      = Ideal.div (∑ r : Fin 64, x (ix4 b h (Spec.segRow j r) d)) Spec.c64 := by
  rw [hostDivf_apply, segsum_apply, broadcastInDim_scalar_apply, constant_apply]
  exact congrArg (fun t => Ideal.div t Spec.c64) (Finset.sum_congr rfl fun r _ => seg_apply x hc b h j r d)

/-- An array times the broadcast scale word, at an entry. -/
theorem scale_apply (x : FVec Ideal ⟨4, ![4, 16, 4096, 64]⟩ .f32)
    (h0 : (⟨0, ![]⟩ : Shape).BroadcastsInDim ⟨4, ![4, 16, 4096, 64]⟩ ![]) (i : (⟨4, ![4, 16, 4096, 64]⟩ : Shape).Idx) :
    mulf x (broadcastInDim ⟨4, ![4, 16, 4096, 64]⟩ ![] h0 (constant (F := Ideal) ⟨0, ![]⟩ .f32 0x3EB504F3#32)) i = x i * Spec.cScale := by
  rw [mulf_apply, broadcastInDim_scalar_apply, constant_apply]
  rfl

/-! ## The reference's stages -/

variable (V0 : Valuation τ sig (Elt Ideal))

/-- The three arguments, one matrix per head. -/
abbrev Qb : Fin 64 → Spec.Mat 4096 64 := bat4 (n := 4096) (d := 64) (V0 (Proc.devRef .tc main_arg0))
abbrev Kb : Fin 64 → Spec.Mat 4096 64 := bat4 (n := 4096) (d := 64) (V0 (Proc.devRef .tc main_arg1))
abbrev Vb : Fin 64 → Spec.Mat 4096 64 := bat4 (n := 4096) (d := 64) (V0 (Proc.devRef .tc main_arg2))

/-- The reference's `P₁` array: the exponentials over their row sums. -/
def k1T : FVec Ideal S4x16x4096x64 .f32 :=
  Host.divf (res_main_v19 (F := Ideal) V0 : FVec Ideal S4x16x4096x64 .f32) (broadcastInDim S4x16x4096x64 ![0, 1, 2, 3] bcast_S4x16x4096x1_S4x16x4096x64_0_1_2_3 (broadcastInDim S4x16x4096x1 ![0, 1, 2] bcast_S4x16x4096_S4x16x4096x1_0_1_2 (Host.reduceAdd (res_main_v19 (F := Ideal) V0 : FVec Ideal S4x16x4096x64 .f32) (constant S_ .f32 0x00000000#32) reducesTo_S4x16x4096x64_S4x16x4096_d3 h_S_)))
/-- The reference's `P₃` array. -/
def k3T : FVec Ideal S4x16x64x4096 .f32 :=
  Host.divf (res_main_v43 (F := Ideal) V0 : FVec Ideal S4x16x64x4096 .f32) (broadcastInDim S4x16x64x4096 ![0, 1, 2, 3] bcast_S4x16x64x1_S4x16x64x4096_0_1_2_3 (broadcastInDim S4x16x64x1 ![0, 1, 2] bcast_S4x16x64_S4x16x64x1_0_1_2 (Host.reduceAdd (res_main_v43 (F := Ideal) V0 : FVec Ideal S4x16x64x4096 .f32) (constant S_ .f32 0x00000000#32) reducesTo_S4x16x64x4096_S4x16x64_d3 h_S_)))
/-- The reference's `P₃ · v` array. -/
def kvT : FVec Ideal S4x16x64x64 .f32 :=
  Host.dotGeneral (φ₁ := .f32) (φ₂ := .f32) dot_S4x16x64x4096_S4x16x4096x64_S4x16x64x64_3_2_2_3_01_01 none (k3T V0) (V0 (Proc.devRef .tc main_arg2) : FVec Ideal S4x16x4096x64 .f32)

/-- The scaled queries. -/
theorem r_v1 (b : Fin 4) (h : Fin 16) (s : Fin 4096) (d : Fin 64) :
    res_main_v1 (F := Ideal) V0 (ix4 b h s d) = Spec.scl (Qb V0 (hd b h)) s d := by
  unfold res_main_v1
  refine (scale_apply _ _ _).trans ?_
  exact congrArg (· * Spec.cScale) (bat4_hd _ b h s d).symm
/-- The scaled keys. -/
theorem r_v3 (b : Fin 4) (h : Fin 16) (s : Fin 4096) (d : Fin 64) :
    res_main_v3 (F := Ideal) V0 (ix4 b h s d) = Spec.scl (Kb V0 (hd b h)) s d := by
  unfold res_main_v3
  refine (scale_apply _ _ _).trans ?_
  exact congrArg (· * Spec.cScale) (bat4_hd _ b h s d).symm
/-- The landmarks of the scaled queries. -/
theorem r_v7 (b : Fin 4) (h : Fin 16) (j d : Fin 64) :
    res_main_v7 (F := Ideal) V0 (ix4 b h j d) = Spec.lmk (Spec.scl (Qb V0 (hd b h))) j d := by
  unfold res_main_v7
  refine (landmark_apply (res_main_v1 (F := Ideal) V0) _ _ _ _ b h j d).trans ?_
  exact congrArg (fun t => Ideal.div t Spec.c64) (Finset.sum_congr rfl fun r _ => r_v1 V0 b h _ d)
/-- The landmarks of the scaled keys. -/
theorem r_v11 (b : Fin 4) (h : Fin 16) (j d : Fin 64) :
    res_main_v11 (F := Ideal) V0 (ix4 b h j d) = Spec.klm (Kb V0 (hd b h)) j d := by
  unfold res_main_v11
  refine (landmark_apply (res_main_v3 (F := Ideal) V0) _ _ _ _ b h j d).trans ?_
  exact congrArg (fun t => Ideal.div t Spec.c64) (Finset.sum_congr rfl fun r _ => r_v3 V0 b h _ d)
/-- The first product: scaled queries against the key landmarks. -/
theorem r_v12 (b : Fin 4) (h : Fin 16) (s : Fin 4096) (j : Fin 64) :
    res_main_v12 (F := Ideal) V0 (ix4 b h s j) = Spec.lg1 (Qb V0 (hd b h)) (Spec.klm (Kb V0 (hd b h))) s j := by
  unfold res_main_v12
  refine (dot_nt_apply (B := 4) (H := 16) (m := 4096) (k := 64) (n := 64) (φ₁ := .f32) (φ₂ := .f32) _ none
    (res_main_v1 (F := Ideal) V0) (res_main_v11 (F := Ideal) V0) b h s j).trans ?_
  exact Finset.sum_congr rfl fun x _ => by rw [r_v1, r_v11]
/-- `P₁`. -/
theorem r_k1 (b : Fin 4) (h : Fin 16) (s : Fin 4096) (j : Fin 64) :
    k1T V0 (ix4 b h s j) = Spec.p1 (Qb V0 (hd b h)) (Spec.klm (Kb V0 (hd b h))) s j := by
  unfold k1T
  refine (softmax4_apply (B := 4) (H := 16) (m := 4096) (n := 64) (res_main_v12 (F := Ideal) V0) _ _ _ _ _
    (res_main_v19 (F := Ideal) V0) rfl b h s j).trans ?_
  exact congrArg (fun f => Spec.smx f j) (funext fun k => r_v12 V0 b h s k)
/-- The second product: query landmarks against key landmarks. -/
theorem r_v24 (b : Fin 4) (h : Fin 16) (i j : Fin 64) :
    res_main_v24 (F := Ideal) V0 (ix4 b h i j) = Spec.lg2 (Qb V0 (hd b h)) (Kb V0 (hd b h)) i j := by
  unfold res_main_v24
  refine (dot_nt_apply (B := 4) (H := 16) (m := 64) (k := 64) (n := 64) (φ₁ := .f32) (φ₂ := .f32) _ none
    (res_main_v7 (F := Ideal) V0) (res_main_v11 (F := Ideal) V0) b h i j).trans ?_
  exact Finset.sum_congr rfl fun x _ => by rw [r_v7, r_v11]
/-- `P₂`. -/
theorem r_v35 (b : Fin 4) (h : Fin 16) (i j : Fin 64) :
    res_main_v35 (F := Ideal) V0 (ix4 b h i j) = Spec.p2 (Qb V0 (hd b h)) (Kb V0 (hd b h)) i j := by
  unfold res_main_v35
  refine (softmax4_apply (B := 4) (H := 16) (m := 64) (n := 64) (res_main_v24 (F := Ideal) V0) _ _ _ _ _
    (res_main_v31 (F := Ideal) V0) rfl b h i j).trans ?_
  exact congrArg (fun f => Spec.smx f j) (funext fun k => r_v24 V0 b h i k)
/-- The third product: query landmarks against the scaled keys. -/
theorem r_v36 (b : Fin 4) (h : Fin 16) (i : Fin 64) (s : Fin 4096) :
    res_main_v36 (F := Ideal) V0 (ix4 b h i s) = Spec.lg3 (Qb V0 (hd b h)) (Kb V0 (hd b h)) i s := by
  unfold res_main_v36
  refine (dot_nt_apply (B := 4) (H := 16) (m := 64) (k := 64) (n := 4096) (φ₁ := .f32) (φ₂ := .f32) _ none
    (res_main_v7 (F := Ideal) V0) (res_main_v3 (F := Ideal) V0) b h i s).trans ?_
  exact Finset.sum_congr rfl fun x _ => by rw [r_v7, r_v3]
/-- P₃. -/
theorem r_k3 (b : Fin 4) (h : Fin 16) (i : Fin 64) (s : Fin 4096) :
    k3T V0 (ix4 b h i s) = Spec.p3 (Qb V0 (hd b h)) (Kb V0 (hd b h)) i s := by
  unfold k3T
  refine (softmax4_apply (B := 4) (H := 16) (m := 64) (n := 4096) (res_main_v36 (F := Ideal) V0) _ _ _ _ _
    (res_main_v43 (F := Ideal) V0) rfl b h i s).trans ?_
  exact congrArg (fun f => Spec.smx f s) (funext fun k => r_v36 V0 b h i k)
/-- `P₃ · v`. -/
theorem r_kv (b : Fin 4) (h : Fin 16) (i d : Fin 64) :
    kvT V0 (ix4 b h i d) = Spec.kvv (Qb V0 (hd b h)) (Kb V0 (hd b h)) (Vb V0 (hd b h)) i d := by
  unfold kvT
  refine (dot_nn_apply (B := 4) (H := 16) (m := 64) (k := 4096) (n := 64) (φ₁ := .f32) (φ₂ := .f32) _ none
    (k3T V0) _ b h i d).trans ?_
  exact Finset.sum_congr rfl fun s _ => congrArg₂ (· * ·) (r_k3 V0 b h i s) (bat4_hd _ b h s d).symm
/-- A [4,16,4096,64] × [4,16,64,64] product over the two batch axes, at an entry: the plain sum over the inner axis. -/
theorem r_dot_out (X : FVec Ideal S4x16x4096x64 .f32) (Y : FVec Ideal S4x16x64x64 .f32) (b : Fin 4) (h : Fin 16) (s : Fin 4096) (d : Fin 64) :
    Host.dotGeneral (φ₁ := .f32) (φ₂ := .f32) dot_S4x16x4096x64_S4x16x64x64_S4x16x4096x64_3_2_2_3_01_01 none X Y (ix4 b h s d)
      = ∑ k : Fin 64, X (ix4 b h s k) * Y (ix4 b h k d) := by
  exact dot_nn_apply (B := 4) (H := 16) (m := 4096) (k := 64) (n := 64) (φ₁ := .f32) (φ₂ := .f32) _ none X Y b h s d

end Cert.ReferenceIdeal.RStages

end
-- ==== Proof.RNS.lean ====
/-
  The reference's iteration for the inverse, read entry by entry at batch `b` and head `h`: from the `P₂` array `A` the
  normalising scalar, `Z₀ = s Aᵀ`, and six steps `Z ↦ ¼ Z (13 I − AZ (15 I − AZ (7 I − AZ)))`.
-/
import proofs.«407147_j5119601017043_3_alg».proof.Proof.Gen.ReferenceIdeal.Run
import proofs.«407147_j5119601017043_3_alg».proof.Proof.Spec
import proofs.«407147_j5119601017043_3_alg».proof.Proof.Views
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.RNS

open Cert.ReferenceIdeal Cert.ReferenceIdeal.Gen Cert.ReferenceIdeal.Value Idealize.ShloMosaic Idealize.ShloMosaic.TcCoe Idealize.ShloMosaic.ValueIdx Idealize.ShloMosaic.StableHlo Cert.Views

variable (V0 : Valuation τ sig (Elt Ideal))

/-! ## The batched product at an entry -/

/-- The batched product's dimension numbers: batch axes 0 and 1, the left operand's axis 3 against the right's axis 2. -/
abbrev DD := dot_S4x16x64x64_S4x16x64x64_S4x16x64x64_3_2_2_3_01_01

/-- The batched product read at an entry: per batch and head, the plain product of the two 64 × 64 matrices. -/
theorem dot_apply (X Y : FVec Ideal S4x16x64x64 .f32) (b : Fin 4) (h : Fin 16) (i j : Fin 64) :
    Host.dotGeneral (φ₁ := .f32) (φ₂ := .f32) DD none X Y (ix4 b h i j) = ∑ k : Fin 64, X (ix4 b h i k) * Y (ix4 b h k j) := by
  simp only [Host.dotGeneral]
  rw [Ideal.dotGeneral_apply, ← Equiv.sum_comp (contrEquiv1 DD 64 rfl rfl).symm]
  refine Finset.sum_congr rfl fun k _ => ?_
  have hl : DD.lhsIdx (ix4 b h i j) ((contrEquiv1 DD 64 rfl rfl).symm k) = ix4 b h i k := by
    funext a
    match a with
    | ⟨0, _⟩ => exact Fin.ext (by simp [DotDims.lhsIdx, DD, dot_S4x16x64x64_S4x16x64x64_S4x16x64x64_3_2_2_3_01_01]; rfl)
    | ⟨1, _⟩ => exact Fin.ext (by simp [DotDims.lhsIdx, DD, dot_S4x16x64x64_S4x16x64x64_S4x16x64x64_3_2_2_3_01_01]; rfl)
    | ⟨2, _⟩ => exact Fin.ext (by simp [DotDims.lhsIdx, DD, dot_S4x16x64x64_S4x16x64x64_S4x16x64x64_3_2_2_3_01_01]; rfl)
    | ⟨3, _⟩ => exact Fin.ext ((DD.lhsIdx_val_of_single (cl := 3) rfl _ _).trans (contrEquiv1_symm_val DD 64 rfl rfl k))
  have hr : DD.rhsIdx (ix4 b h i j) ((contrEquiv1 DD 64 rfl rfl).symm k) = ix4 b h k j := by
    funext a
    match a with
    | ⟨0, _⟩ => exact Fin.ext (by simp [DotDims.rhsIdx, DD, dot_S4x16x64x64_S4x16x64x64_S4x16x64x64_3_2_2_3_01_01]; rfl)
    | ⟨1, _⟩ => exact Fin.ext (by simp [DotDims.rhsIdx, DD, dot_S4x16x64x64_S4x16x64x64_S4x16x64x64_3_2_2_3_01_01]; rfl)
    | ⟨2, _⟩ => exact Fin.ext ((DD.rhsIdx_val_of_single (cr := 2) rfl _ _).trans (contrEquiv1_symm_val DD 64 rfl rfl k))
    | ⟨3, _⟩ => exact Fin.ext (by simp [DotDims.rhsIdx, DD, dot_S4x16x64x64_S4x16x64x64_S4x16x64x64_3_2_2_3_01_01]; rfl)
  rw [hl, hr]

/-! ## The identity matrix and the broadcast constants -/

/-- Two positions below 64 are the same 32-bit word only when they are the same position. -/
theorem ofNat_inj64 (i j : Fin 64) (e : BitVec.ofNat 32 i.val = BitVec.ofNat 32 j.val) : i = j := by
  have := congrArg BitVec.toNat e
  simp only [BitVec.toNat_ofNat] at this
  exact Fin.ext (by have := i.isLt; have := j.isLt; omega)

/-- A word compared for equality with itself gives the set bit. -/
theorem cmpi_eq_self (a : BitVec 32) : IntOp.cmpi .eq a a = 1#1 := by simp [IntOp.cmpi]
/-- Two different words compared for equality give the cleared bit. -/
theorem cmpi_eq_ne (a b : BitVec 32) (h : a ≠ b) : IntOp.cmpi .eq a b = 0#1 := by
  have hb : (a == b) = false := beq_eq_false_iff_ne.mpr h
  simp [IntOp.cmpi, hb]

/-- The comparison of the row position with the column position, converted to a float: the identity matrix. -/
theorem eye_apply (i j : Fin 64) : res_main_v53 (F := Ideal) V0 (ix2 i j) = Spec.eye i j := by
  show (((IntOp.cmpi .eq (IntOp.addi (BitVec.ofNat 32 i.val) 0#32) (BitVec.ofNat 32 j.val)).toNat : ℝ) : EReal) = Spec.eye i j
  unfold Spec.eye
  by_cases hij : i = j
  · subst hij
    rw [if_pos rfl, show IntOp.cmpi .eq (IntOp.addi (BitVec.ofNat 32 i.val) 0#32) (BitVec.ofNat 32 i.val) = 1#1 from by
      rw [show IntOp.addi (BitVec.ofNat 32 i.val) 0#32 = BitVec.ofNat 32 i.val from by simp [IntOp.addi]]; exact cmpi_eq_self _]
    norm_num
  · rw [if_neg hij, show IntOp.cmpi .eq (IntOp.addi (BitVec.ofNat 32 i.val) 0#32) (BitVec.ofNat 32 j.val) = 0#1 from by
      rw [show IntOp.addi (BitVec.ofNat 32 i.val) 0#32 = BitVec.ofNat 32 i.val from by simp [IntOp.addi]]
      exact cmpi_eq_ne _ _ (fun e => hij (ofNat_inj64 i j e))]
    norm_num

/-- A constant times the identity, broadcast over batches and heads, read at an entry. -/
theorem cI_apply (c : BitVec 32) (b : Fin 4) (h : Fin 16) (i j : Fin 64) :
    broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant (F := Ideal) S_ .f32 c)) (res_main_v53 (F := Ideal) V0 : FVec Ideal S64x64 .f32))) (ix4 b h i j)
      = Ideal.ofBits .f32 c * Spec.eye i j := by
  rw [broadcastInDim_apply _ _ _ (ix4 b h i j) (ix4 (0 : Fin 1) (0 : Fin 1) i j) (fun a => by
    match a with | ⟨0, _⟩ => rfl | ⟨1, _⟩ => rfl | ⟨2, _⟩ => rfl | ⟨3, _⟩ => rfl)]
  rw [broadcastInDim_apply _ _ _ (ix4 (0 : Fin 1) (0 : Fin 1) i j) (ix2 i j) (fun a => by
    match a with | ⟨0, _⟩ => rfl | ⟨1, _⟩ => rfl)]
  rw [mulf_apply, broadcastInDim_scalar_apply, constant_apply, eye_apply]

/-- A scalar broadcast over the whole array reads the scalar. -/
theorem bq_apply (c : BitVec 32) (x : (S4x16x64x64).Idx) :
    broadcastInDim S4x16x64x64 ![] bcast_S_S4x16x64x64 (constant (F := Ideal) S_ .f32 c) x = Ideal.ofBits .f32 c := by
  rw [broadcastInDim_scalar_apply, constant_apply]

/-! ## One step -/

/-- One step's array term over the iterate `Z` and the product `K` of the matrix with it:
    `(¼ Z) (13 I − K (15 I − K (7 I − K)))`, every product the batched one. -/
def stepT (Z K : FVec Ideal S4x16x64x64 .f32) : FVec Ideal S4x16x64x64 .f32 :=
  Host.dotGeneral (φ₁ := .f32) (φ₂ := .f32) DD none (mulf (broadcastInDim S4x16x64x64 ![] bcast_S_S4x16x64x64 (constant S_ .f32 0x3E800000#32)) Z) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41500000#32)) (res_main_v53 (F := Ideal) V0 : FVec Ideal S64x64 .f32)))) (Host.dotGeneral (φ₁ := .f32) (φ₂ := .f32) DD none K (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41700000#32)) (res_main_v53 (F := Ideal) V0 : FVec Ideal S64x64 .f32)))) (Host.dotGeneral (φ₁ := .f32) (φ₂ := .f32) DD none K (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x40E00000#32)) (res_main_v53 (F := Ideal) V0 : FVec Ideal S64x64 .f32)))) K)))))

/-- A batched product of two arrays that are, head by head, the matrices `P` and `Q`: head by head `P Q`. -/
theorem mm_apply (P Q : Spec.Bat 64 64) (X Y : FVec Ideal S4x16x64x64 .f32)
    (hX : ∀ (b : Fin 4) (h : Fin 16) (i j : Fin 64), X (ix4 b h i j) = P (hd b h) i j)
    (hY : ∀ (b : Fin 4) (h : Fin 16) (i j : Fin 64), Y (ix4 b h i j) = Q (hd b h) i j)
    (b : Fin 4) (h : Fin 16) (i j : Fin 64) :
    Host.dotGeneral (φ₁ := .f32) (φ₂ := .f32) DD none X Y (ix4 b h i j) = Spec.mm (P (hd b h)) (Q (hd b h)) i j := by
  rw [dot_apply]
  unfold Spec.mm
  exact Finset.sum_congr rfl fun k _ => by rw [hX, hY]

/-- One step read at an entry: when `Z` is head by head `Zs` and `K` is head by head `A · Zs`, the step's array is
    head by head the next iterate. -/
theorem stepT_apply (A Zs : Spec.Bat 64 64) (Z K : FVec Ideal S4x16x64x64 .f32)
    (hZ : ∀ (b : Fin 4) (h : Fin 16) (i j : Fin 64), Z (ix4 b h i j) = Zs (hd b h) i j)
    (hK : ∀ (b : Fin 4) (h : Fin 16) (i j : Fin 64), K (ix4 b h i j) = Spec.mm (A (hd b h)) (Zs (hd b h)) i j)
    (b : Fin 4) (h : Fin 16) (i j : Fin 64) :
    stepT V0 Z K (ix4 b h i j) = Spec.nsS A Zs (hd b h) i j := by
  unfold stepT Spec.nsS
  rw [dot_apply]
  refine Finset.sum_congr rfl fun k _ => ?_
  rw [mulf_apply, bq_apply, hZ, subf_apply, cI_apply, dot_apply]
  refine congrArg₂ (· * ·) rfl (congrArg₂ (· - ·) rfl (Finset.sum_congr rfl fun k1 _ => ?_))
  rw [hK, subf_apply, cI_apply, dot_apply]
  refine congrArg₂ (· * ·) rfl (congrArg₂ (· - ·) rfl (Finset.sum_congr rfl fun k2 _ => ?_))
  rw [hK, subf_apply, cI_apply, hK]
  rfl

/-! ## The starting iterate -/

/-- Batch, head and position as head and position: the index set of a [4, 16, 64] table is that of a 64 × 64 one. -/
def headEquiv : (S4x16x64).Idx ≃ Fin 64 × Fin 64 where
  toFun x := (hd (x 0) (x 1), x 2)
  invFun p := ix3 (hb p.1) (hh p.1) p.2
  left_inv x := by
    obtain ⟨b, h, j, rfl⟩ : ∃ (b : Fin 4) (h : Fin 16) (j : Fin 64), x = ix3 b h j := ⟨x 0, x 1, x 2, eq_ix3 x⟩
    show ix3 (hb (hd b h)) (hh (hd b h)) j = ix3 b h j
    rw [hb_hd, hh_hd]
  right_inv p := by
    show (hd (hb p.1) (hh p.1), p.2) = p
    rw [hd_hb_hh]

/-- The total maximum of a [4, 16, 64] table that is, head by head, the table `f`: the fold of `max` over all pairs. -/
theorem gmax_apply (Y : FVec Ideal S4x16x64 .f32) (f : Fin 64 → Fin 64 → EReal)
    (hY : ∀ (b : Fin 4) (h : Fin 16) (j : Fin 64), Y (ix3 b h j) = f (hd b h) j) (x : (S_).Idx) :
    Host.reduce FloatOps.maximumf Y (constant (F := Ideal) S_ .f32 0xFF800000#32) reducesTo_S4x16x64_S_d0_1_2 h_S_ x = Spec.gmax f := by
  rw [Host.reduce_eq_fold]
  rw [Finset.filter_true_of_mem (fun i _ => funext fun a => a.elim0)]
  unfold Spec.gmax
  rw [← Finset.map_univ_equiv headEquiv, Finset.fold_map]
  refine Finset.fold_congr (fun y _ => ?_)
  obtain ⟨b, h, j, rfl⟩ : ∃ (b : Fin 4) (h : Fin 16) (j : Fin 64), y = ix3 b h j := ⟨y 0, y 1, y 2, eq_ix3 y⟩
  exact hY b h j

/-- The absolute column sums of an array that is head by head `A`. -/
theorem col_apply (A : Spec.Bat 64 64) (X : FVec Ideal S4x16x64x64 .f32)
    (hX : ∀ (b : Fin 4) (h : Fin 16) (i j : Fin 64), X (ix4 b h i j) = A (hd b h) i j) (b : Fin 4) (h : Fin 16) (j : Fin 64) :
    Host.reduceAdd (Host.absf X) (constant (F := Ideal) S_ .f32 0x00000000#32) reducesTo_S4x16x64x64_S4x16x64_d2 h_S_ (ix3 b h j)
      = Spec.colS A (hd b h) j := by
  rw [hostReduceAdd_apply]
  refine (Ideal.hostReduceAdd_single reducesTo_S4x16x64x64_S4x16x64_d2 (by decide) _ _ _).trans ?_
  show Spec.c0 + ∑ k : Fin 64, max (X (Shape.Reduces.lift (by decide : S4x16x64x64.Reduces [2] S4x16x64) (ix3 b h j) k))
      (-(X (Shape.Reduces.lift (by decide : S4x16x64x64.Reduces [2] S4x16x64) (ix3 b h j) k)))
    = Spec.c0 + ∑ i : Fin 64, Spec.absE (A (hd b h) i j)
  refine congrArg₂ (· + ·) rfl (Finset.sum_congr rfl fun k _ => ?_)
  have e : Shape.Reduces.lift (by decide : S4x16x64x64.Reduces [2] S4x16x64) (ix3 b h j) k = ix4 b h k j :=
    funext fun a => by match a with | ⟨0, _⟩ => rfl | ⟨1, _⟩ => rfl | ⟨2, _⟩ => rfl | ⟨3, _⟩ => rfl
  exact (congrArg (fun t => max (X t) (-(X t))) e).trans (by rw [hX]; rfl)

/-- The absolute row sums of an array that is head by head `A`. -/
theorem row_apply (A : Spec.Bat 64 64) (X : FVec Ideal S4x16x64x64 .f32)
    (hX : ∀ (b : Fin 4) (h : Fin 16) (i j : Fin 64), X (ix4 b h i j) = A (hd b h) i j) (b : Fin 4) (h : Fin 16) (i : Fin 64) :
    Host.reduceAdd (Host.absf X) (constant (F := Ideal) S_ .f32 0x00000000#32) reducesTo_S4x16x64x64_S4x16x64_d3 h_S_ (ix3 b h i)
      = Spec.rowS A (hd b h) i := by
  rw [hostReduceAdd_apply]
  refine (Ideal.hostReduceAdd_single reducesTo_S4x16x64x64_S4x16x64_d3 (by decide) _ _ _).trans ?_
  show Spec.c0 + ∑ k : Fin 64, max (X (Shape.Reduces.lift (by decide : S4x16x64x64.Reduces [3] S4x16x64) (ix3 b h i) k))
      (-(X (Shape.Reduces.lift (by decide : S4x16x64x64.Reduces [3] S4x16x64) (ix3 b h i) k)))
    = Spec.c0 + ∑ j : Fin 64, Spec.absE (A (hd b h) i j)
  refine congrArg₂ (· + ·) rfl (Finset.sum_congr rfl fun k _ => ?_)
  have e : Shape.Reduces.lift (by decide : S4x16x64x64.Reduces [3] S4x16x64) (ix3 b h i) k = ix4 b h i k :=
    funext fun a => by match a with | ⟨0, _⟩ => rfl | ⟨1, _⟩ => rfl | ⟨2, _⟩ => rfl | ⟨3, _⟩ => rfl
  exact (congrArg (fun t => max (X t) (-(X t))) e).trans (by rw [hX]; rfl)

/-- The starting iterate: the normalising scalar times the transpose. -/
theorem z0_apply (A : Spec.Bat 64 64)
    (hA : ∀ (b : Fin 4) (h : Fin 16) (i j : Fin 64), res_main_v35 (F := Ideal) V0 (ix4 b h i j) = A (hd b h) i j)
    (b : Fin 4) (h : Fin 16) (i j : Fin 64) :
    res_main_v64 (F := Ideal) V0 (ix4 b h i j) = Spec.ns0 A (hd b h) i j := by
  unfold res_main_v64
  rw [mulf_apply, broadcastInDim_scalar_apply, hostDivf_apply, mulf_apply, constant_apply,
    gmax_apply _ (Spec.colS A) (col_apply A _ hA), gmax_apply _ (Spec.rowS A) (row_apply A _ hA),
    transpose_apply _ _ _ (ix4 b h i j) (ix4 b h j i) (fun a => by
      match a with | ⟨0, _⟩ => rfl | ⟨1, _⟩ => rfl | ⟨2, _⟩ => rfl | ⟨3, _⟩ => rfl), hA]
  rfl

/-! ## The chain: six steps -/

/-- The reference's last step: the array `Z₆`. -/
def invT : FVec Ideal S4x16x64x64 .f32 :=
  Host.dotGeneral (φ₁ := .f32) (φ₂ := .f32) dot_S4x16x64x64_S4x16x64x64_S4x16x64x64_3_2_2_3_01_01 none (mulf (broadcastInDim S4x16x64x64 ![] bcast_S_S4x16x64x64 (constant S_ .f32 0x3E800000#32)) (res_main_v169 (F := Ideal) V0 : FVec Ideal S4x16x64x64 .f32)) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41500000#32)) (res_main_v53 (F := Ideal) V0 : FVec Ideal S64x64 .f32)))) (Host.dotGeneral (φ₁ := .f32) (φ₂ := .f32) dot_S4x16x64x64_S4x16x64x64_S4x16x64x64_3_2_2_3_01_01 none (res_main_v170 (F := Ideal) V0 : FVec Ideal S4x16x64x64 .f32) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41700000#32)) (res_main_v53 (F := Ideal) V0 : FVec Ideal S64x64 .f32)))) (Host.dotGeneral (φ₁ := .f32) (φ₂ := .f32) dot_S4x16x64x64_S4x16x64x64_S4x16x64x64_3_2_2_3_01_01 none (res_main_v170 (F := Ideal) V0 : FVec Ideal S4x16x64x64 .f32) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x40E00000#32)) (res_main_v53 (F := Ideal) V0 : FVec Ideal S64x64 .f32)))) (res_main_v170 (F := Ideal) V0 : FVec Ideal S4x16x64x64 .f32))))))

/-- `Z₆` of the `P₂` array, whatever function `A` that array is, head by head. -/
theorem r_inv (A : Spec.Bat 64 64) (hA : ∀ (b : Fin 4) (h : Fin 16) (i j : Fin 64), res_main_v35 (F := Ideal) V0 (ix4 b h i j) = A (hd b h) i j)
    (b : Fin 4) (h : Fin 16) (i j : Fin 64) :
    invT V0 (ix4 b h i j) = Spec.nsInv A (hd b h) i j := by
  have z0 := z0_apply V0 A hA
  have k0 : ∀ (b : Fin 4) (h : Fin 16) (i j : Fin 64), res_main_v65 (F := Ideal) V0 (ix4 b h i j) = Spec.mm (A (hd b h)) ((Spec.ns0 A) (hd b h)) i j :=
    mm_apply A (Spec.ns0 A) (res_main_v35 (F := Ideal) V0) (res_main_v64 (F := Ideal) V0) hA z0
  have z1 : ∀ (b : Fin 4) (h : Fin 16) (i j : Fin 64), res_main_v85 (F := Ideal) V0 (ix4 b h i j) = (Spec.nsS A (Spec.ns0 A)) (hd b h) i j :=
    stepT_apply V0 A (Spec.ns0 A) (res_main_v64 (F := Ideal) V0) (res_main_v65 (F := Ideal) V0) z0 k0
  have k1 : ∀ (b : Fin 4) (h : Fin 16) (i j : Fin 64), res_main_v86 (F := Ideal) V0 (ix4 b h i j) = Spec.mm (A (hd b h)) ((Spec.nsS A (Spec.ns0 A)) (hd b h)) i j :=
    mm_apply A (Spec.nsS A (Spec.ns0 A)) (res_main_v35 (F := Ideal) V0) (res_main_v85 (F := Ideal) V0) hA z1
  have z2 : ∀ (b : Fin 4) (h : Fin 16) (i j : Fin 64), res_main_v106 (F := Ideal) V0 (ix4 b h i j) = (Spec.nsS A (Spec.nsS A (Spec.ns0 A))) (hd b h) i j :=
    stepT_apply V0 A (Spec.nsS A (Spec.ns0 A)) (res_main_v85 (F := Ideal) V0) (res_main_v86 (F := Ideal) V0) z1 k1
  have k2 : ∀ (b : Fin 4) (h : Fin 16) (i j : Fin 64), res_main_v107 (F := Ideal) V0 (ix4 b h i j) = Spec.mm (A (hd b h)) ((Spec.nsS A (Spec.nsS A (Spec.ns0 A))) (hd b h)) i j :=
    mm_apply A (Spec.nsS A (Spec.nsS A (Spec.ns0 A))) (res_main_v35 (F := Ideal) V0) (res_main_v106 (F := Ideal) V0) hA z2
  have z3 : ∀ (b : Fin 4) (h : Fin 16) (i j : Fin 64), res_main_v127 (F := Ideal) V0 (ix4 b h i j) = (Spec.nsS A (Spec.nsS A (Spec.nsS A (Spec.ns0 A)))) (hd b h) i j :=
    stepT_apply V0 A (Spec.nsS A (Spec.nsS A (Spec.ns0 A))) (res_main_v106 (F := Ideal) V0) (res_main_v107 (F := Ideal) V0) z2 k2
  have k3 : ∀ (b : Fin 4) (h : Fin 16) (i j : Fin 64), res_main_v128 (F := Ideal) V0 (ix4 b h i j) = Spec.mm (A (hd b h)) ((Spec.nsS A (Spec.nsS A (Spec.nsS A (Spec.ns0 A)))) (hd b h)) i j :=
    mm_apply A (Spec.nsS A (Spec.nsS A (Spec.nsS A (Spec.ns0 A)))) (res_main_v35 (F := Ideal) V0) (res_main_v127 (F := Ideal) V0) hA z3
  have z4 : ∀ (b : Fin 4) (h : Fin 16) (i j : Fin 64), res_main_v148 (F := Ideal) V0 (ix4 b h i j) = (Spec.nsS A (Spec.nsS A (Spec.nsS A (Spec.nsS A (Spec.ns0 A))))) (hd b h) i j :=
    stepT_apply V0 A (Spec.nsS A (Spec.nsS A (Spec.nsS A (Spec.ns0 A)))) (res_main_v127 (F := Ideal) V0) (res_main_v128 (F := Ideal) V0) z3 k3
  have k4 : ∀ (b : Fin 4) (h : Fin 16) (i j : Fin 64), res_main_v149 (F := Ideal) V0 (ix4 b h i j) = Spec.mm (A (hd b h)) ((Spec.nsS A (Spec.nsS A (Spec.nsS A (Spec.nsS A (Spec.ns0 A))))) (hd b h)) i j :=
    mm_apply A (Spec.nsS A (Spec.nsS A (Spec.nsS A (Spec.nsS A (Spec.ns0 A))))) (res_main_v35 (F := Ideal) V0) (res_main_v148 (F := Ideal) V0) hA z4
  have z5 : ∀ (b : Fin 4) (h : Fin 16) (i j : Fin 64), res_main_v169 (F := Ideal) V0 (ix4 b h i j) = (Spec.nsS A (Spec.nsS A (Spec.nsS A (Spec.nsS A (Spec.nsS A (Spec.ns0 A)))))) (hd b h) i j :=
    stepT_apply V0 A (Spec.nsS A (Spec.nsS A (Spec.nsS A (Spec.nsS A (Spec.ns0 A))))) (res_main_v148 (F := Ideal) V0) (res_main_v149 (F := Ideal) V0) z4 k4
  have k5 : ∀ (b : Fin 4) (h : Fin 16) (i j : Fin 64), res_main_v170 (F := Ideal) V0 (ix4 b h i j) = Spec.mm (A (hd b h)) ((Spec.nsS A (Spec.nsS A (Spec.nsS A (Spec.nsS A (Spec.nsS A (Spec.ns0 A)))))) (hd b h)) i j :=
    mm_apply A (Spec.nsS A (Spec.nsS A (Spec.nsS A (Spec.nsS A (Spec.nsS A (Spec.ns0 A)))))) (res_main_v35 (F := Ideal) V0) (res_main_v169 (F := Ideal) V0) hA z5
  exact stepT_apply V0 A (Spec.nsS A (Spec.nsS A (Spec.nsS A (Spec.nsS A (Spec.nsS A (Spec.ns0 A)))))) (res_main_v169 (F := Ideal) V0) (res_main_v170 (F := Ideal) V0) z5 k5 b h i j

end Cert.ReferenceIdeal.RNS

end
-- ==== Proof.RVal.lean ====
/-
  The reference's result array: entry (b, h, s, d) is `(P₁ · Z₆) · (P₃ v)` of head `16·b + h` at (s, d), the three inputs
  read one matrix per head.
-/
import proofs.«407147_j5119601017043_3_alg».proof.Proof.Gen.ReferenceIdeal.Run
import proofs.«407147_j5119601017043_3_alg».proof.Proof.Spec
import proofs.«407147_j5119601017043_3_alg».proof.Proof.Views
import proofs.«407147_j5119601017043_3_alg».proof.Proof.RStages
import proofs.«407147_j5119601017043_3_alg».proof.Proof.RNS
import Idealize.ShloMosaic.Lib.ValueIdx

set_option maxRecDepth 16384

noncomputable section

namespace Cert.ReferenceIdeal.RVal

open Cert.ReferenceIdeal Cert.ReferenceIdeal.Gen Cert.ReferenceIdeal.Value Idealize.ShloMosaic Idealize.ShloMosaic.TcCoe Idealize.ShloMosaic.ValueIdx Idealize.ShloMosaic.StableHlo Cert.Views
open Cert.ReferenceIdeal.RStages Cert.ReferenceIdeal.RNS

variable (V0 : Valuation τ sig (Elt Ideal))

/-- The result as the two outer products of the three named arrays. -/
def resT : FVec Ideal S4x16x4096x64 .f32 :=
  Host.dotGeneral (φ₁ := .f32) (φ₂ := .f32) dot_S4x16x4096x64_S4x16x64x64_S4x16x4096x64_3_2_2_3_01_01 none (Host.dotGeneral (φ₁ := .f32) (φ₂ := .f32) dot_S4x16x4096x64_S4x16x64x64_S4x16x4096x64_3_2_2_3_01_01 none (k1T V0) (invT V0)) (kvT V0)

/-- The result array, entry by entry. -/
theorem value : resT V0 = fun i => Spec.outR (Qb V0) (Kb V0) (Vb V0) (hd (i 0) (i 1)) (i 2) (i 3) := by
  funext i
  obtain ⟨b, h, s, d, rfl⟩ : ∃ (b : Fin 4) (h : Fin 16) (s : Fin 4096) (d : Fin 64), i = ix4 b h s d :=
    ⟨i 0, i 1, i 2, i 3, eq_ix4 i⟩
  show resT V0 (ix4 b h s d) = Spec.outR (Qb V0) (Kb V0) (Vb V0) (hd b h) s d
  unfold resT
  rw [r_dot_out]
  simp only [r_dot_out, r_k1, r_kv, r_inv V0 (Spec.P2 (Qb V0) (Kb V0)) (fun b h i j => r_v35 V0 b h i j)]
  rfl

end Cert.ReferenceIdeal.RVal

end
-- ==== Proof.SpecBasic.lean ====
/-
  Real numbers among the extended reals: the operations both programs use keep a real number real (division needs a
  nonzero divisor), exponentials of reals are positive, and a row's softmax of real entries is real and positive.
-/
import proofs.«407147_j5119601017043_3_alg».proof.Proof.Spec

noncomputable section

namespace Cert.Spec

open Idealize.ShloMosaic

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.neg {x : EReal} (hx : IsReal x) : IsReal (-x) := by
  obtain ⟨a, rfl⟩ := hx
  exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.absE {x : EReal} (hx : IsReal x) : IsReal (absE x) := by
  unfold Cert.Spec.absE
  exact IsReal.max hx (IsReal.neg hx)
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact IsReal.add (h a (Finset.mem_insert_self a s)) (ih (fun i hi => h i (Finset.mem_insert_of_mem hi)))
theorem IsReal.div {x y : EReal} (hx : IsReal x) (hy : IsReal y) (h0 : y ≠ 0) : IsReal (Ideal.div x y) := by
  obtain ⟨a, rfl⟩ := hx
  obtain ⟨b, rfl⟩ := hy
  unfold Ideal.div
  rw [if_neg h0]
  exact ⟨a * b⁻¹, by rw [EReal.coe_mul, EReal.coe_inv]⟩
theorem IsReal.exp {x : EReal} (hx : IsReal x) : IsReal (Ideal.exp x) := by
  obtain ⟨a, rfl⟩ := hx
  exact ⟨Real.exp a, rfl⟩
theorem exp_pos {x : EReal} (hx : IsReal x) : 0 < Ideal.exp x := by
  obtain ⟨a, rfl⟩ := hx
  show (0 : EReal) < ((Real.exp a : ℝ) : EReal)
  exact EReal.coe_pos.mpr (Real.exp_pos a)
/-- A quotient of positive reals is positive. -/
theorem div_pos {x y : EReal} (hx : IsReal x) (hy : IsReal y) (px : 0 < x) (py : 0 < y) : 0 < Ideal.div x y := by
  obtain ⟨a, rfl⟩ := hx
  obtain ⟨b, rfl⟩ := hy
  have ha : 0 < a := EReal.coe_pos.mp px
  have hb : 0 < b := EReal.coe_pos.mp py
  unfold Ideal.div
  rw [if_neg (ne_of_gt py), ← EReal.coe_inv, ← EReal.coe_mul]
  exact EReal.coe_pos.mpr (mul_pos ha (inv_pos.mpr hb))
/-- A sum of positive reals over a nonempty set is positive. -/
theorem sum_pos {ι : Type} (s : Finset ι) (hs : s.Nonempty) (f : ι → EReal) (h : ∀ i ∈ s, IsReal (f i)) (p : ∀ i ∈ s, 0 < f i) :
    0 < ∑ i ∈ s, f i := by
  classical
  obtain ⟨i, hi⟩ := hs
  rw [← Finset.add_sum_erase s f hi]
  have h3 : 0 ≤ ∑ j ∈ s.erase i, f j :=
    Finset.sum_nonneg (fun j hj => le_of_lt (p j (Finset.mem_of_mem_erase hj)))
  exact lt_of_lt_of_le (p i hi) (le_add_of_nonneg_right h3)
/-- The fold of `max` from `-∞` over a nonempty set of reals is a real, at least each of them. -/
theorem fold_max_real {ι : Type} (s : Finset ι) (hs : s.Nonempty) (f : ι → EReal) (h : ∀ i ∈ s, IsReal (f i)) :
    IsReal (s.fold max cNegInf f) := by
  classical
  have hb : cNegInf = ⊥ := by simp [cNegInf, Ideal.ofBits, Ideal.ieee]
  induction s using Finset.induction_on with
  | empty => exact absurd hs Finset.not_nonempty_empty
  | insert a s ha ih =>
    rw [Finset.fold_insert ha]
    have hfa : IsReal (f a) := h a (Finset.mem_insert_self a s)
    rcases s.eq_empty_or_nonempty with he | hne
    · subst he
      rw [Finset.fold_empty, hb, max_eq_left bot_le]
      exact hfa
    · exact IsReal.max hfa (ih hne (fun i hi => h i (Finset.mem_insert_of_mem hi)))
theorem le_fold_max {ι : Type} (s : Finset ι) (f : ι → EReal) (i : ι) (hi : i ∈ s) : f i ≤ s.fold max cNegInf f := by
  exact (Finset.le_fold_max (f i)).mpr (Or.inr ⟨i, hi, le_rfl⟩)

theorem cNegInf_eq : cNegInf = ⊥ := by
  simp [cNegInf, Ideal.ofBits, Ideal.ieee]
theorem c0_eq : c0 = 0 := by
  simp [c0, Ideal.ofBits, Ideal.ieee]
theorem c1_eq : c1 = 1 := by
  simp [c1, Ideal.ofBits, Ideal.ieee]
  rw [← EReal.coe_mul]
  norm_num
theorem cScale_real : IsReal cScale := by
  unfold cScale
  simp [Ideal.ofBits, Ideal.ieee]
  exact ⟨_, (EReal.coe_mul _ _).symm⟩
theorem c64_real : IsReal c64 := by
  unfold c64
  simp [Ideal.ofBits, Ideal.ieee]
  exact ⟨_, (EReal.coe_mul _ _).symm⟩
theorem c64_ne_zero : c64 ≠ 0 := by
  have h : c64 = ((64 : ℝ) : EReal) := by
    simp [c64, Ideal.ofBits, Ideal.ieee]
    rw [← EReal.coe_mul]
    norm_num
  rw [h]
  exact EReal.coe_ne_zero.mpr (by norm_num)
theorem c7_real : IsReal c7 := by
  unfold c7
  simp [Ideal.ofBits, Ideal.ieee]
  exact ⟨_, (EReal.coe_mul _ _).symm⟩
theorem c15_real : IsReal c15 := by
  unfold c15
  simp [Ideal.ofBits, Ideal.ieee]
  exact ⟨_, (EReal.coe_mul _ _).symm⟩
theorem c13_real : IsReal c13 := by
  unfold c13
  simp [Ideal.ofBits, Ideal.ieee]
  exact ⟨_, (EReal.coe_mul _ _).symm⟩
theorem cQuarter_real : IsReal cQuarter := by
  unfold cQuarter
  simp [Ideal.ofBits, Ideal.ieee]
  exact ⟨_, (EReal.coe_mul _ _).symm⟩
theorem eye_real (i j : Fin 64) : IsReal (eye i j) := by
  unfold eye
  split_ifs
  · exact ⟨1, rfl⟩
  · exact ⟨0, rfl⟩

theorem rowMax_real {n : Nat} (hn : 0 < n) (f : Fin n → EReal) (hf : ∀ j, IsReal (f j)) : IsReal (rowMax f) := by
  haveI : Nonempty (Fin n) := ⟨⟨0, hn⟩⟩
  unfold rowMax
  rw [cNegInf_eq, max_eq_right bot_le, ← cNegInf_eq]
  exact fold_max_real Finset.univ Finset.univ_nonempty f (fun j _ => hf j)
theorem smx_real {n : Nat} (hn : 0 < n) (f : Fin n → EReal) (hf : ∀ j, IsReal (f j)) (j : Fin n) : IsReal (smx f j) := by
  haveI : Nonempty (Fin n) := ⟨⟨0, hn⟩⟩
  have hm : IsReal (rowMax f) := rowMax_real hn f hf
  have he : ∀ k, IsReal (Ideal.exp (f k - rowMax f)) := fun k => IsReal.exp (IsReal.sub (hf k) hm)
  have hs : IsReal (∑ k : Fin n, Ideal.exp (f k - rowMax f)) := IsReal.sum _ _ (fun k _ => he k)
  have hp : 0 < ∑ k : Fin n, Ideal.exp (f k - rowMax f) :=
    sum_pos Finset.univ Finset.univ_nonempty _ (fun k _ => he k) (fun k _ => exp_pos (IsReal.sub (hf k) hm))
  unfold smx
  exact IsReal.div (he j) hs (ne_of_gt hp)
theorem smx_pos {n : Nat} (hn : 0 < n) (f : Fin n → EReal) (hf : ∀ j, IsReal (f j)) (j : Fin n) : 0 < smx f j := by
  haveI : Nonempty (Fin n) := ⟨⟨0, hn⟩⟩
  have hm : IsReal (rowMax f) := rowMax_real hn f hf
  have he : ∀ k, IsReal (Ideal.exp (f k - rowMax f)) := fun k => IsReal.exp (IsReal.sub (hf k) hm)
  have hs : IsReal (∑ k : Fin n, Ideal.exp (f k - rowMax f)) := IsReal.sum _ _ (fun k _ => he k)
  have hp : 0 < ∑ k : Fin n, Ideal.exp (f k - rowMax f) :=
    sum_pos Finset.univ Finset.univ_nonempty _ (fun k _ => he k) (fun k _ => exp_pos (IsReal.sub (hf k) hm))
  unfold smx
  exact div_pos (he j) hs (exp_pos (IsReal.sub (hf j) hm)) hp

end Cert.Spec

end
-- ==== Proof.SpecReal.lean ====
/-
  With real inputs every per-head quantity is real: the landmarks, the three softmaxes and `P₃ v`; `P₂` is moreover
  positive entry by entry.
-/
import proofs.«407147_j5119601017043_3_alg».proof.Proof.Spec
import proofs.«407147_j5119601017043_3_alg».proof.Proof.SpecBasic

noncomputable section

namespace Cert.Spec

open Idealize.ShloMosaic

/-- Scaling by the real constant keeps real entries real. -/
theorem scl_real (x : Mat 4096 64) (hx : ∀ s d, IsReal (x s d)) (s : Fin 4096) (d : Fin 64) : IsReal (scl x s d) :=
  IsReal.mul (hx s d) cScale_real
/-- A segment mean of real entries is real: a finite sum of reals divided by the nonzero real 64. -/
theorem lmk_real (x : Mat 4096 64) (hx : ∀ s d, IsReal (x s d)) (j d : Fin 64) : IsReal (lmk x j d) :=
  IsReal.div (IsReal.sum _ _ (fun r _ => hx (segRow j r) d)) c64_real c64_ne_zero
/-- The three tables of inner products are finite sums of products of reals. -/
theorem lg1_real (q : Mat 4096 64) (L : Mat 64 64) (hq : ∀ s d, IsReal (q s d)) (hL : ∀ j d, IsReal (L j d)) (s : Fin 4096) (j : Fin 64) :
    IsReal (lg1 q L s j) :=
  IsReal.sum _ _ (fun d _ => IsReal.mul (scl_real q hq s d) (hL j d))
theorem lg2_real (q k : Mat 4096 64) (hq : ∀ s d, IsReal (q s d)) (hk : ∀ s d, IsReal (k s d)) (i j : Fin 64) : IsReal (lg2 q k i j) :=
  IsReal.sum _ _ (fun d _ => IsReal.mul (lmk_real (scl q) (scl_real q hq) i d) (lmk_real (scl k) (scl_real k hk) j d))
theorem lg3_real (q k : Mat 4096 64) (hq : ∀ s d, IsReal (q s d)) (hk : ∀ s d, IsReal (k s d)) (i : Fin 64) (s : Fin 4096) :
    IsReal (lg3 q k i s) :=
  IsReal.sum _ _ (fun d _ => IsReal.mul (lmk_real (scl q) (scl_real q hq) i d) (scl_real k hk s d))
/-- The third softmax, over rows of 4096 real entries, is real. -/
theorem p3_real (q k : Mat 4096 64) (hq : ∀ s d, IsReal (q s d)) (hk : ∀ s d, IsReal (k s d)) (i : Fin 64) (s : Fin 4096) :
    IsReal (p3 q k i s) :=
  smx_real (by norm_num) (lg3 q k i) (fun s' => lg3_real q k hq hk i s') s
theorem klm_real (k : Mat 4096 64) (hk : ∀ s d, IsReal (k s d)) (j d : Fin 64) : IsReal (klm k j d) := by
  exact lmk_real (scl k) (scl_real k hk) j d
theorem p1_real (q : Mat 4096 64) (L : Mat 64 64) (hq : ∀ s d, IsReal (q s d)) (hL : ∀ j d, IsReal (L j d)) (s : Fin 4096) (j : Fin 64) :
    IsReal (p1 q L s j) := by
  exact smx_real (by norm_num) (lg1 q L s) (fun j' => lg1_real q L hq hL s j') j
theorem p2_real (q k : Mat 4096 64) (hq : ∀ s d, IsReal (q s d)) (hk : ∀ s d, IsReal (k s d)) (i j : Fin 64) : IsReal (p2 q k i j) := by
  exact smx_real (by norm_num) (lg2 q k i) (fun j' => lg2_real q k hq hk i j') j
theorem p2_pos (q k : Mat 4096 64) (hq : ∀ s d, IsReal (q s d)) (hk : ∀ s d, IsReal (k s d)) (i j : Fin 64) : 0 < p2 q k i j := by
  exact smx_pos (by norm_num) (lg2 q k i) (fun j' => lg2_real q k hq hk i j') j
theorem kvv_real (q k v : Mat 4096 64) (hq : ∀ s d, IsReal (q s d)) (hk : ∀ s d, IsReal (k s d)) (hv : ∀ s d, IsReal (v s d))
    (i d : Fin 64) : IsReal (kvv q k v i d) := by
  exact IsReal.sum _ _ (fun s _ => IsReal.mul (p3_real q k hq hk i s) (hv s d))

end Cert.Spec

end
-- ==== Proof.SpecNS.lean ====
/-
  The iteration for the inverse stays among the reals when it starts from a matrix of positive reals per head, and a
  product of three real matrices may be bracketed either way.
-/
import proofs.«407147_j5119601017043_3_alg».proof.Proof.Spec
import proofs.«407147_j5119601017043_3_alg».proof.Proof.SpecBasic

noncomputable section

namespace Cert.Spec

open Idealize.ShloMosaic

/-- A product of real matrices is real entrywise: each entry is a finite sum of products of reals. -/
theorem mm_real {a b : Nat} (A : Mat a 64) (B : Mat 64 b) (hA : ∀ i k, IsReal (A i k)) (hB : ∀ k j, IsReal (B k j))
    (i : Fin a) (j : Fin b) : IsReal (mm A B i j) :=
  IsReal.sum _ _ fun k _ => IsReal.mul (hA i k) (hB k j)

/-- One step of the iteration keeps real matrices real: it only multiplies, subtracts and scales by real constants. -/
theorem nsS_real (A Z : Bat 64 64) (hA : ∀ h i j, IsReal (A h i j)) (hZ : ∀ h i j, IsReal (Z h i j)) (h i j : Fin 64) :
    IsReal (nsS A Z h i j) := by
  have hAZ : ∀ i j, IsReal (mm (A h) (Z h) i j) := mm_real _ _ (hA h) (hZ h)
  show IsReal (mm _ _ i j)
  apply mm_real
  · intro i k
    exact IsReal.mul cQuarter_real (hZ h i k)
  · intro k j
    apply IsReal.sub (IsReal.mul c13_real (eye_real _ _))
    apply mm_real _ _ hAZ
    intro k j
    apply IsReal.sub (IsReal.mul c15_real (eye_real _ _))
    apply mm_real _ _ hAZ
    intro k j
    exact IsReal.sub (IsReal.mul c7_real (eye_real _ _)) (hAZ k j)

/-- The absolute value of a positive extended real is positive: it is at least the number itself. -/
theorem absE_pos {x : EReal} (hx : 0 < x) : 0 < absE x :=
  lt_of_lt_of_le hx (le_max_left _ _)

/-- The largest entry of a table of positive reals is a positive real. -/
theorem gmax_real_pos (f : Fin 64 → Fin 64 → EReal) (hf : ∀ h i, IsReal (f h i)) (hp : ∀ h i, 0 < f h i) :
    IsReal (gmax f) ∧ 0 < gmax f := by
  constructor
  · exact fold_max_real _ ⟨(0, 0), Finset.mem_univ _⟩ _ fun p _ => hf p.1 p.2
  · exact lt_of_lt_of_le (hp 0 0)
      (le_fold_max (Finset.univ : Finset (Fin 64 × Fin 64)) (fun p => f p.1 p.2) (0, 0) (Finset.mem_univ _))

/-- The product of two positive reals is a nonzero real. -/
theorem mul_real_ne_zero {x y : EReal} (hx : IsReal x) (hy : IsReal y) (px : 0 < x) (py : 0 < y) :
    IsReal (x * y) ∧ x * y ≠ 0 := by
  obtain ⟨r, rfl⟩ := hx
  obtain ⟨s, rfl⟩ := hy
  refine ⟨IsReal.mul ⟨r, rfl⟩ ⟨s, rfl⟩, ?_⟩
  rw [← EReal.coe_mul]
  exact EReal.coe_ne_zero.mpr (mul_pos (EReal.coe_pos.mp px) (EReal.coe_pos.mp py)).ne'

/-- From positive real matrices the normalising scalar is real: both largest sums are positive reals. -/
theorem nsc_real (A : Bat 64 64) (hA : ∀ h i j, IsReal (A h i j)) (hpos : ∀ h i j, 0 < A h i j) : IsReal (nsc A) := by
  have h0 : IsReal c0 := ⟨0, by rw [c0_eq]; rfl⟩
  have h1 : IsReal c1 := ⟨1, by rw [c1_eq]; rfl⟩
  have hc := gmax_real_pos (colS A)
    (fun h j => IsReal.add h0 (IsReal.sum _ _ fun i _ => IsReal.absE (hA h i j)))
    (fun h j => by
      show 0 < c0 + ∑ i : Fin 64, absE (A h i j)
      rw [c0_eq, zero_add]
      exact sum_pos _ ⟨0, Finset.mem_univ _⟩ _ (fun i _ => IsReal.absE (hA h i j)) (fun i _ => absE_pos (hpos h i j)))
  have hr := gmax_real_pos (rowS A)
    (fun h i => IsReal.add h0 (IsReal.sum _ _ fun j _ => IsReal.absE (hA h i j)))
    (fun h i => by
      show 0 < c0 + ∑ j : Fin 64, absE (A h i j)
      rw [c0_eq, zero_add]
      exact sum_pos _ ⟨0, Finset.mem_univ _⟩ _ (fun j _ => IsReal.absE (hA h i j)) (fun j _ => absE_pos (hpos h i j)))
  have hm := mul_real_ne_zero hc.1 hr.1 hc.2 hr.2
  exact IsReal.div h1 hm.1 hm.2

/-- From positive real matrices the normalising scalar is real, and so is every step. -/
theorem nsInv_real (A : Bat 64 64) (hA : ∀ h i j, IsReal (A h i j)) (hpos : ∀ h i j, 0 < A h i j) (h i j : Fin 64) :
    IsReal (nsInv A h i j) := by
  have hs := nsc_real A hA hpos
  have h0 : ∀ h i j, IsReal (ns0 A h i j) := fun h i j => IsReal.mul hs (hA h j i)
  have step : ∀ Z : Bat 64 64, (∀ h i j, IsReal (Z h i j)) → ∀ h i j, IsReal (nsS A Z h i j) :=
    fun Z hZ => nsS_real A Z hA hZ
  exact step _ (step _ (step _ (step _ (step _ (step _ h0))))) h i j

/-- The coercion of the reals into the extended reals commutes with finite sums. -/
theorem coe_sum_real {ι : Type} (s : Finset ι) (f : ι → ℝ) :
    ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- `A (B C) = (A B) C` for real matrices: the double sum is taken in either order. -/
theorem mm_assoc {a b : Nat} (A : Mat a 64) (B : Mat 64 64) (C : Mat 64 b)
    (hA : ∀ i k, IsReal (A i k)) (hB : ∀ k l, IsReal (B k l)) (hC : ∀ l j, IsReal (C l j)) :
    mm A (mm B C) = mm (mm A B) C := by
  choose a' ha using hA
  choose b' hb using hB
  choose c' hc using hC
  funext i j
  simp only [mm, ha, hb, hc, ← EReal.coe_mul, ← coe_sum_real]
  rw [EReal.coe_eq_coe_iff]
  simp only [Finset.mul_sum, Finset.sum_mul, mul_assoc]
  exact Finset.sum_comm

end Cert.Spec

end
-- ==== Proof.SpecMath.lean ====
/-
  The two bracketings agree on real inputs: `P₁`, the iterate `Z₆` and `P₃ v` are then real matrices, and a product of
  three real matrices does not depend on the bracketing.
-/
import proofs.«407147_j5119601017043_3_alg».proof.Proof.Spec
import proofs.«407147_j5119601017043_3_alg».proof.Proof.SpecBasic
import proofs.«407147_j5119601017043_3_alg».proof.Proof.SpecReal
import proofs.«407147_j5119601017043_3_alg».proof.Proof.SpecNS

noncomputable section

namespace Cert.Spec

theorem outK_eq_outR (Q K V : Bat 4096 64) (hQ : ∀ h s d, IsReal (Q h s d)) (hK : ∀ h s d, IsReal (K h s d))
    (hV : ∀ h s d, IsReal (V h s d)) : outK Q K V = outR Q K V := by
  funext h
  unfold outK outR
  exact mm_assoc _ _ _
    (fun s j => p1_real _ _ (hQ h) (fun j d => klm_real _ (hK h) j d) s j)
    (fun j i => nsInv_real (P2 Q K) (fun h i j => p2_real _ _ (hQ h) (hK h) i j) (fun h i j => p2_pos _ _ (hQ h) (hK h) i j) h j i)
    (fun i d => kvv_real _ _ _ (hQ h) (hK h) (hV h) i d)

end Cert.Spec

end
-- ==== Proof.PreReal.lean ====
/-
  The precondition says every entry of the three inputs has absolute value below `+∞`: each is a real number.
-/
import proofs.«407147_j5119601017043_3_alg».proof.Defs
import proofs.«407147_j5119601017043_3_alg».proof.Proof.Spec
import Idealize.ShloMosaic.Lib.ValueIdx
import Idealize.ShloMosaic.Lib.ReduceAll

set_option maxRecDepth 16384

noncomputable section

namespace Cert.PreReal

open Idealize.ShloMosaic Idealize.ShloMosaic.ValueIdx Idealize.SL.Sem

/-- The rank-0 shape has exactly one index. -/
instance subsingleton_scalar_idx : Subsingleton Cert.Pre_finite_inputs.S_.Idx :=
  ⟨fun a b => funext fun d => d.elim0⟩

/-- An extended real whose absolute value `max x (-x)` lies strictly below `+∞` is a real number:
    at `⊥` and at `⊤` that maximum is `⊤`. -/
theorem isReal_of_abs_lt_top (x : EReal) (h : max x (-x) < ⊤) : Spec.IsReal x := by
  induction x using EReal.rec with
  | bot => exact absurd h (by simp)
  | coe r => exact ⟨r, rfl⟩
  | top => exact absurd h (by simp)

/-- The f32 word `0x7F800000` denotes `+∞`. -/
theorem ofBits_inf : Ideal.ofBits .f32 0x7F800000#32 = (⊤ : EReal) := by
  simp [Ideal.ofBits, Ideal.ieee]

open Cert.Pre_finite_inputs in
/-- One `jnp.all(|x| < inf)`: if the reduction by `and` of the comparison words is 1, every entry of `x` is real. -/
theorem all_real [hP : Cert.Pre_finite_inputs.Facts] (x : FVec Ideal S4x16x4096x64 .f32)
    (h : Host.reduce IntOp.andi
          (cmpf .olt (Host.absf x)
            (broadcastInDim S4x16x4096x64 ![] Facts.bcast_S_S4x16x4096x64 (constant (F := Ideal) S_ .f32 0x7F800000#32)))
          (constantI S_ 1 1#1) Facts.reducesTo_S4x16x4096x64_S_d0_1_2_3 Facts.h_S_ ValueIdx.ix0 = 1#1)
    (i : S4x16x4096x64.Idx) : Spec.IsReal (x i) := by
  have e := Host.reduce_andi_all _ _ _ _ _ h i
  apply isReal_of_abs_lt_top
  have e' : Ideal.cmp .olt (max (x i) (-(x i))) (Ideal.ofBits .f32 0x7F800000#32) = 1#1 := e
  rw [ofBits_inf] at e'
  have e'' : BitVec.ofBool (decide (max (x i) (-(x i)) < (⊤ : EReal))) = 1#1 := e'
  by_contra hn
  rw [decide_eq_false hn] at e''
  exact absurd e'' (by decide)

theorem real_of_pre [hP : Cert.Pre_finite_inputs.Facts]
    (m : (ℓ : Loc Cert.KernelIdeal.nD Cert.KernelIdeal.τ Cert.KernelIdeal.sig) → Buf (Elt Ideal) ℓ) (hpre : Cert.Pre_KernelIdeal m)
    (c : Dev Cert.KernelIdeal.nD) :
    (∀ i, Spec.IsReal (m ((c.tc : Thread Cert.KernelIdeal.nD Cert.KernelIdeal.τ).loc Cert.KernelIdeal.main_arg0) i))
    ∧ (∀ i, Spec.IsReal (m ((c.tc : Thread Cert.KernelIdeal.nD Cert.KernelIdeal.τ).loc Cert.KernelIdeal.main_arg1) i))
    ∧ (∀ i, Spec.IsReal (m ((c.tc : Thread Cert.KernelIdeal.nD Cert.KernelIdeal.τ).loc Cert.KernelIdeal.main_arg2) i)) := by
  have h := congrFun (hpre c) ValueIdx.ix0
  dsimp only [Cert.Pre_finite_inputs.fn] at h
  obtain ⟨h01, h2⟩ := IntOp.andi_eq_one.1 h
  obtain ⟨h0, h1⟩ := IntOp.andi_eq_one.1 h01
  exact ⟨fun i => all_real _ h0 i, fun i => all_real _ h1 i, fun i => all_real _ h2 i⟩

end Cert.PreReal

end
-- ==== Proof.lean ====
/-
  The certificate: a kernel program in two launches (per head: landmarks of the scaled keys, the 64 × 64 softmax `P₂` and
  `P₃ v`; then, after a Newton–Schulz iteration for `P₂`'s inverse on the host, `softmax (q̃ k̄ᵀ) · (Z₆ · (P₃ v))`) against a
  reference that forms `(P₁ · Z₆) · (P₃ v)`. Over the extended reals the two results are the same product of three
  matrices bracketed differently; the brackets may be moved because under the precondition every input entry is a
  real number, hence so are the softmaxes (their denominators are positive sums of exponentials), the normalising
  scalar (a reciprocal of a product of positive maxima) and every iterate.
  The three frames are the generated runs; nothing was rewritten by the idealisation, so `preserves` is trivial.
-/
import proofs.«407147_j5119601017043_3_alg».proof.Defs
import proofs.«407147_j5119601017043_3_alg».proof.Proof.Gen.Kernel
import proofs.«407147_j5119601017043_3_alg».proof.Proof.Gen.Kernel.Skeleton
import proofs.«407147_j5119601017043_3_alg».proof.Proof.Gen.Kernel.Launch
import proofs.«407147_j5119601017043_3_alg».proof.Proof.Gen.Kernel.Points
import proofs.«407147_j5119601017043_3_alg».proof.Proof.Gen.Kernel.Frame
import proofs.«407147_j5119601017043_3_alg».proof.Proof.Gen.KernelIdeal
import proofs.«407147_j5119601017043_3_alg».proof.Proof.Gen.KernelIdeal.Skeleton
import proofs.«407147_j5119601017043_3_alg».proof.Proof.Gen.KernelIdeal.Launch
import proofs.«407147_j5119601017043_3_alg».proof.Proof.Gen.KernelIdeal.Points
import proofs.«407147_j5119601017043_3_alg».proof.Proof.Gen.KernelIdeal.Frame
import proofs.«407147_j5119601017043_3_alg».proof.Proof.Gen.ReferenceIdeal
import proofs.«407147_j5119601017043_3_alg».proof.Proof.Gen.Pre_finite_inputs
import proofs.«407147_j5119601017043_3_alg».proof.Proof.Gen.ReferenceIdeal.Run
import proofs.«407147_j5119601017043_3_alg».proof.Proof.KRun
import proofs.«407147_j5119601017043_3_alg».proof.Proof.KVal
import proofs.«407147_j5119601017043_3_alg».proof.Proof.RVal
import proofs.«407147_j5119601017043_3_alg».proof.Proof.SpecMath
import proofs.«407147_j5119601017043_3_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo Cert.Views

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `P₁ · (Z₆ · (P₃ v))` per head: the kernel program by its two launches and
    the host chain between them, the reference at `(P₁ · Z₆) · (P₃ v)`, equal for real inputs. -/
theorem algebraic : Cert.algebraic_KernelIdeal_ReferenceIdeal := by
  intro m ρ m' ρ' hpre hagree
  refine ⟨fun c i => Spec.outK (Cert.KernelIdeal.KVal.Qa m c) (Cert.KernelIdeal.KVal.Ka m c) (Cert.KernelIdeal.KVal.Va m c)
    (hd (i 0) (i 1)) (i 2) (i 3), ?_, ?_⟩
  · exact (θ_run Cert.KernelIdeal.defs _ _).mono
      (fun r h c => ⟨(h c).1.trans (Cert.KernelIdeal.KVal.value m ρ c), (h c).2⟩) (Cert.KernelIdeal.KRun.run m ρ)
  · refine (θ_run Cert.ReferenceIdeal.defs _ _).mono (fun r h c => ⟨(h c).1.trans ?_, (h c).2⟩)
      (Cert.ReferenceIdeal.Value.run (F := Ideal) m' ρ')
    obtain ⟨hq, hk, hv⟩ := Cert.PreReal.real_of_pre m hpre c
    have eQ : Cert.ReferenceIdeal.RStages.Qb (launchContents m' c) = Cert.KernelIdeal.KVal.Qa m c :=
      congrArg (bat4 (n := 4096) (d := 64)) (hagree c).1
    have eK : Cert.ReferenceIdeal.RStages.Kb (launchContents m' c) = Cert.KernelIdeal.KVal.Ka m c :=
      congrArg (bat4 (n := 4096) (d := 64)) (hagree c).2.1
    have eV : Cert.ReferenceIdeal.RStages.Vb (launchContents m' c) = Cert.KernelIdeal.KVal.Va m c :=
      congrArg (bat4 (n := 4096) (d := 64)) (hagree c).2.2
    show Cert.ReferenceIdeal.RVal.resT (launchContents m' c) = _
    rw [Cert.ReferenceIdeal.RVal.value, eQ, eK, eV]
    have e := Spec.outK_eq_outR (Cert.KernelIdeal.KVal.Qa m c) (Cert.KernelIdeal.KVal.Ka m c) (Cert.KernelIdeal.KVal.Va m c)
      (fun _ _ _ => hq _) (fun _ _ _ => hk _) (fun _ _ _ => hv _)
    exact funext fun i => (congrFun (congrFun (congrFun e _) _) _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
